-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S32000x1024 : Shape := ⟨2, ![32000, 1024]⟩
abbrev S1024x1024 : Shape := ⟨2, ![1024, 1024]⟩
abbrev S1024 : Shape := ⟨1, ![1024]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_arg0 : IVec S4x2048 32) (main_v13 : IVec S_ 1) (main_v15 : IVec S4x2048 1) (main_c_5 : IVec S_ 32) : IVec S_ 1 :=
  let main_v16 : IVec S4x2048 32 := broadcastInDim S4x2048 ![] bcast_S_S4x2048 main_c_5
  let main_v17 : IVec S4x2048 1 := cmpi .slt main_arg0 main_v16
  let main_v18 : IVec S4x2048 1 := andi main_v15 main_v17
  let main_c_6 : IVec S_ 1 := constantI S_ 1 1#1
  let main_v19 : IVec S_ 1 := (fun x v => Host.reduce IntOp.andi x v reducesTo_S4x2048_S_d0_1 h_S_) main_v18 main_c_6
  let main_v20 : IVec S_ 1 := andi main_v13 main_v19
  main_v20

def fn {F : FTy → Type} [FloatOps F] (main_arg0 : IVec S4x2048 32) (main_arg1 : FVec F S32000x1024 .f32) (main_arg2 : FVec F S1024x1024 .f32) (main_arg3 : FVec F S1024 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_c_4 : IVec S_ 32 := constantI S_ 32 0#32
  let main_v14 : IVec S4x2048 32 := broadcastInDim S4x2048 ![] bcast_S_S4x2048 main_c_4
  let main_v15 : IVec S4x2048 1 := cmpi .sge main_arg0 main_v14
  let main_c_5 : IVec S_ 32 := constantI S_ 32 32000#32
  fn_part1 (F := F) main_arg0 main_v13 main_v15 main_c_5
-- ==== Kernel.lean ====
abbrev S4x2048 : Shape := ⟨2, ![4, 2048]⟩
abbrev S32000x1024 : Shape := ⟨2, ![32000, 1024]⟩
abbrev S1024x1024 : Shape := ⟨2, ![1024, 1024]⟩
abbrev S1024 : Shape := ⟨1, ![1024]⟩
abbrev S8192 : Shape := ⟨1, ![8192]⟩
abbrev S8192x1024 : Shape := ⟨2, ![8192, 1024]⟩
abbrev S8x1024 : Shape := ⟨2, ![8, 1024]⟩
abbrev S8 : Shape := ⟨1, ![8]⟩
abbrev S1 : Shape := ⟨1, ![1]⟩
abbrev S_ : Shape := ⟨0, ![]⟩
abbrev S1x1024 : Shape := ⟨2, ![1, 1024]⟩
abbrev S4x2048x1024 : Shape := ⟨3, ![4, 2048, 1024]⟩
abbrev S1x256x1024 : Shape := ⟨3, ![1, 256, 1024]⟩
abbrev S1x8x1024 : Shape := ⟨3, ![1, 8, 1024]⟩
abbrev S1x3x1024 : Shape := ⟨3, ![1, 3, 1024]⟩
abbrev S3x1024 : Shape := ⟨2, ![3, 1024]⟩
abbrev S256x1024 : Shape := ⟨2, ![256, 1024]⟩
abbrev S259x1024 : Shape := ⟨2, ![259, 1024]⟩

abbrev nBuf : Space → Nat
  | .hbm => 10
  | .vmem => 10
  | .smem => 1
  | _ => 0

abbrev bufTy : (tb : Table) → Fin (tcTables nBuf tb) → BufTy
  | .hbm, ⟨0, _⟩ => ⟨S4x2048, .i32⟩
  | .hbm, ⟨1, _⟩ => ⟨S32000x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S4x2048x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S4x2048x1024, .f32⟩
  | .local _ .vmem, ⟨0, _⟩ => ⟨S8x1024, .f32⟩
  | .local _ .vmem, ⟨1, _⟩ => ⟨S8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x1024, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .smem, ⟨0, _⟩ => ⟨S8192, .i32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc0_sem0_0 : DmaSem sig := 0
abbrev cc0_sem0_1 : DmaSem sig := 1
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![1024], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_off5 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_off7 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_off9 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_off11 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_off13 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_off15 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_chk8 (v66 : BitVec 32) : Prop :=
  (∀ a, (k0_off16 v66) a + S1x1024.size a ≤ S32000x1024.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x1024.size a ≤ S32000x1024.size a := fun v66 k0_hw8 => k0_hw8

def k0_off17 (v3 : BitVec 32) : Fin 2 → Nat :=
  let c0_i32_35 : BitVec 32 := 0#32
  ![v3.toNat, 0]

def k0_chk1 (v3 : BitVec 32) : Prop :=
  (∀ a, (k0_off2 v3) a + S1x1024.size a ≤ S32000x1024.size a) ∧
  (∀ a, (k0_off17 v3) a + S1x1024.size a ≤ S32000x1024.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1024.size a ≤ S32000x1024.size a := fun v3 k0_hw1 => k0_hw1.1
theorem k0_off17_inb : ∀ (v3 : BitVec 32) (k0_hw1 : k0_chk1 v3), ∀ a, (k0_off17 v3) a + S1x1024.size a ≤ S32000x1024.size a := fun v3 k0_hw1 => k0_hw1.2

def k0_off18 (v12 : BitVec 32) : Fin 2 → Nat :=
  let c0_i32_39 : BitVec 32 := 0#32
  ![v12.toNat, 0]

def k0_chk2 (v12 : BitVec 32) : Prop :=
  (∀ a, (k0_off4 v12) a + S1x1024.size a ≤ S32000x1024.size a) ∧
  (∀ a, (k0_off18 v12) a + S1x1024.size a ≤ S32000x1024.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x1024.size a ≤ S32000x1024.size a := fun v12 k0_hw2 => k0_hw2.1
theorem k0_off18_inb : ∀ (v12 : BitVec 32) (k0_hw2 : k0_chk2 v12), ∀ a, (k0_off18 v12) a + S1x1024.size a ≤ S32000x1024.size a := fun v12 k0_hw2 => k0_hw2.2

def k0_off19 (v21 : BitVec 32) : Fin 2 → Nat :=
  let c0_i32_43 : BitVec 32 := 0#32
  ![v21.toNat, 0]

def k0_chk3 (v21 : BitVec 32) : Prop :=
  (∀ a, (k0_off6 v21) a + S1x1024.size a ≤ S32000x1024.size a) ∧
  (∀ a, (k0_off19 v21) a + S1x1024.size a ≤ S32000x1024.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x1024.size a ≤ S32000x1024.size a := fun v21 k0_hw3 => k0_hw3.1
theorem k0_off19_inb : ∀ (v21 : BitVec 32) (k0_hw3 : k0_chk3 v21), ∀ a, (k0_off19 v21) a + S1x1024.size a ≤ S32000x1024.size a := fun v21 k0_hw3 => k0_hw3.2

def k0_off20 (v30 : BitVec 32) : Fin 2 → Nat :=
  let c0_i32_47 : BitVec 32 := 0#32
  ![v30.toNat, 0]

def k0_chk4 (v30 : BitVec 32) : Prop :=
  (∀ a, (k0_off8 v30) a + S1x1024.size a ≤ S32000x1024.size a) ∧
  (∀ a, (k0_off20 v30) a + S1x1024.size a ≤ S32000x1024.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x1024.size a ≤ S32000x1024.size a := fun v30 k0_hw4 => k0_hw4.1
theorem k0_off20_inb : ∀ (v30 : BitVec 32) (k0_hw4 : k0_chk4 v30), ∀ a, (k0_off20 v30) a + S1x1024.size a ≤ S32000x1024.size a := fun v30 k0_hw4 => k0_hw4.2

def k0_off21 (v39 : BitVec 32) : Fin 2 → Nat :=
  let c0_i32_51 : BitVec 32 := 0#32
  ![v39.toNat, 0]

def k0_chk5 (v39 : BitVec 32) : Prop :=
  (∀ a, (k0_off10 v39) a + S1x1024.size a ≤ S32000x1024.size a) ∧
  (∀ a, (k0_off21 v39) a + S1x1024.size a ≤ S32000x1024.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x1024.size a ≤ S32000x1024.size a := fun v39 k0_hw5 => k0_hw5.1
theorem k0_off21_inb : ∀ (v39 : BitVec 32) (k0_hw5 : k0_chk5 v39), ∀ a, (k0_off21 v39) a + S1x1024.size a ≤ S32000x1024.size a := fun v39 k0_hw5 => k0_hw5.2

def k0_off22 (v48 : BitVec 32) : Fin 2 → Nat :=
  let c0_i32_55 : BitVec 32 := 0#32
  ![v48.toNat, 0]

def k0_chk6 (v48 : BitVec 32) : Prop :=
  (∀ a, (k0_off12 v48) a + S1x1024.size a ≤ S32000x1024.size a) ∧
  (∀ a, (k0_off22 v48) a + S1x1024.size a ≤ S32000x1024.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x1024.size a ≤ S32000x1024.size a := fun v48 k0_hw6 => k0_hw6.1
theorem k0_off22_inb : ∀ (v48 : BitVec 32) (k0_hw6 : k0_chk6 v48), ∀ a, (k0_off22 v48) a + S1x1024.size a ≤ S32000x1024.size a := fun v48 k0_hw6 => k0_hw6.2

def k0_off23 (v57 : BitVec 32) : Fin 2 → Nat :=
  let c0_i32_59 : BitVec 32 := 0#32
  ![v57.toNat, 0]

def k0_chk7 (v57 : BitVec 32) : Prop :=
  (∀ a, (k0_off14 v57) a + S1x1024.size a ≤ S32000x1024.size a) ∧
  (∀ a, (k0_off23 v57) a + S1x1024.size a ≤ S32000x1024.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x1024.size a ≤ S32000x1024.size a := fun v57 k0_hw7 => k0_hw7.1
theorem k0_off23_inb : ∀ (v57 : BitVec 32) (k0_hw7 : k0_chk7 v57), ∀ a, (k0_off23 v57) a + S1x1024.size a ≤ S32000x1024.size a := fun v57 k0_hw7 => k0_hw7.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048_S8192 : S4x2048.ShapeCasts S8192
  numel1_S1 : S1.numel = 1
  inb_S8_S1_0 : ∀ a, (![0] : Fin 1 → Nat) a + S1.size a ≤ S8.size a
  squeezes_S1_S_ : S1.Squeezes S_
  inb_S8x1024_S1x1024_0_0 : ∀ a, (![0, 0] : Fin 2 → Nat) a + S1x1024.size a ≤ S8x1024.size a
  squeezes_S1x1024_S1024 : S1x1024.Squeezes S1024
  inb_S8_S1_1 : ∀ a, (![1] : Fin 1 → Nat) a + S1.size a ≤ S8.size a
  inb_S8x1024_S1x1024_1_0 : ∀ a, (![1, 0] : Fin 2 → Nat) a + S1x1024.size a ≤ S8x1024.size a
  inb_S8_S1_2 : ∀ a, (![2] : Fin 1 → Nat) a + S1.size a ≤ S8.size a
  inb_S8x1024_S1x1024_2_0 : ∀ a, (![2, 0] : Fin 2 → Nat) a + S1x1024.size a ≤ S8x1024.size a
  inb_S8_S1_3 : ∀ a, (![3] : Fin 1 → Nat) a + S1.size a ≤ S8.size a
  inb_S8x1024_S1x1024_3_0 : ∀ a, (![3, 0] : Fin 2 → Nat) a + S1x1024.size a ≤ S8x1024.size a
  inb_S8_S1_4 : ∀ a, (![4] : Fin 1 → Nat) a + S1.size a ≤ S8.size a
  inb_S8x1024_S1x1024_4_0 : ∀ a, (![4, 0] : Fin 2 → Nat) a + S1x1024.size a ≤ S8x1024.size a
  inb_S8_S1_5 : ∀ a, (![5] : Fin 1 → Nat) a + S1.size a ≤ S8.size a
  inb_S8x1024_S1x1024_5_0 : ∀ a, (![5, 0] : Fin 2 → Nat) a + S1x1024.size a ≤ S8x1024.size a
  inb_S8_S1_6 : ∀ a, (![6] : Fin 1 → Nat) a + S1.size a ≤ S8.size a
  inb_S8x1024_S1x1024_6_0 : ∀ a, (![6, 0] : Fin 2 → Nat) a + S1x1024.size a ≤ S8x1024.size a
  inb_S8_S1_7 : ∀ a, (![7] : Fin 1 → Nat) a + S1.size a ≤ S8.size a
  inb_S8x1024_S1x1024_7_0 : ∀ a, (![7, 0] : Fin 2 → Nat) a + S1x1024.size a ≤ S8x1024.size a
  shapeCasts_S8192x1024_S4x2048x1024 : S8192x1024.ShapeCasts S4x2048x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x8x1024_S1x3x1024_0_5_0 : ∀ a, (![0, 5, 0] : Fin 3 → Nat) a + S1x3x1024.size a ≤ S1x8x1024.size a
  h_S1x3x1024 : 0 < S1x3x1024.numel
  shapeCasts_S1x3x1024_S3x1024 : S1x3x1024.ShapeCasts S3x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  concatenates_S3x1024_S256x1024_S259x1024_d0 : Shape.Concatenates [S3x1024, S256x1024] S259x1024 0
  slices_S259x1024_o3_0_S256x1024 : S259x1024.Slices ![3, 0] S256x1024
  slices_S259x1024_o2_0_S256x1024 : S259x1024.Slices ![2, 0] S256x1024
  slices_S259x1024_o1_0_S256x1024 : S259x1024.Slices ![1, 0] S256x1024
  slices_S259x1024_o0_0_S256x1024 : S259x1024.Slices ![0, 0] S256x1024
  rotates_S256x1024_d1 : S256x1024.Rotates 1 none
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  hcc0_scratch0 : 2 + S8.numel ≤ 18
  hrank0 : 0 < grid0.rank
  k0_off1_inb : ∀ i : grid0.Coords, ∀ a, (k0_off1 i) a + S1.size a ≤ S8192.size a
  k0_off3_inb : ∀ i : grid0.Coords, ∀ a, (k0_off3 i) a + S1.size a ≤ S8192.size a
  k0_off5_inb : ∀ i : grid0.Coords, ∀ a, (k0_off5 i) a + S1.size a ≤ S8192.size a
  k0_off7_inb : ∀ i : grid0.Coords, ∀ a, (k0_off7 i) a + S1.size a ≤ S8192.size a
  k0_off9_inb : ∀ i : grid0.Coords, ∀ a, (k0_off9 i) a + S1.size a ≤ S8192.size a
  k0_off11_inb : ∀ i : grid0.Coords, ∀ a, (k0_off11 i) a + S1.size a ≤ S8192.size a
  k0_off13_inb : ∀ i : grid0.Coords, ∀ a, (k0_off13 i) a + S1.size a ≤ S8192.size a
  k0_off15_inb : ∀ i : grid0.Coords, ∀ a, (k0_off15 i) a + S1.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x1024.size a ≤ S8192x1024.size a
  hwx0_0 : ∀ i : grid0.Coords, EltTy.bits .f32 = 32 ∨ (Rect.block (s := S8192x1024) S8x1024.size (cc0_transform_1 i) (hinb0_0 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .f32 = 32 ∨ (Rect.block (s := S4x2048x1024) S1x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x1024.size a ≤ S4x2048x1024.size a
  hwx1_1 : ∀ i : grid1.Coords, EltTy.bits .f32 = 32 ∨ (Rect.block (s := S4x2048x1024) S1x8x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S4x2048x1024.size a
  hwx1_4 : ∀ i : grid1.Coords, EltTy.bits .f32 = 32 ∨ (Rect.block (s := S4x2048x1024) S1x256x1024.size (cc1_transform_4 i) (hinb1_4 i)).WholeWords (EltTy.packing .f32)

variable [Facts₀]

abbrev cc0_scratch0 : DmaSems sig S8 := SemArray.consecutive 2 S8 hcc0_scratch0
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev spec0_0 : Pipeline.WinSpec sig grid0.rank :=
  Pipeline.WinSpec.ofSpec (Memref.whole main_v1) S8x1024.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev win1_0 : Pipeline.Window sig grid1 :=
  Pipeline.Window.ofSpec (Memref.whole main_v2) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x8x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where
  harr0 : ∀ w, (spec0 w).arr.IsWhole

variable [Facts]
-- ==== ReferenceIdeal.lean ====
abbrev S4x2048 : Shape := ⟨2, ![4, 2048]⟩
abbrev S32000x1024 : Shape := ⟨2, ![32000, 1024]⟩
abbrev S1024x1024 : Shape := ⟨2, ![1024, 1024]⟩
abbrev S1024 : Shape := ⟨1, ![1024]⟩
abbrev S_ : Shape := ⟨0, ![]⟩
abbrev S4x2048x1 : Shape := ⟨3, ![4, 2048, 1]⟩
abbrev S4x2048x1024 : Shape := ⟨3, ![4, 2048, 1024]⟩
abbrev S4x2048x0 : Shape := ⟨3, ![4, 2048, 0]⟩
abbrev S4x2049x1024 : Shape := ⟨3, ![4, 2049, 1024]⟩
abbrev S4x2048x1023 : Shape := ⟨3, ![4, 2048, 1023]⟩
abbrev S4x2050x1024 : Shape := ⟨3, ![4, 2050, 1024]⟩
abbrev S4x2048x2 : Shape := ⟨3, ![4, 2048, 2]⟩
abbrev S4x2048x1022 : Shape := ⟨3, ![4, 2048, 1022]⟩
abbrev S4x2051x1024 : Shape := ⟨3, ![4, 2051, 1024]⟩
abbrev S4x2048x3 : Shape := ⟨3, ![4, 2048, 3]⟩
abbrev S4x2048x1021 : Shape := ⟨3, ![4, 2048, 1021]⟩
abbrev S1x1x1024 : Shape := ⟨3, ![1, 1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S32000x1024, .f32⟩
  | .hbm, ⟨2, _⟩ => ⟨S1024x1024, .f32⟩
  | .hbm, ⟨3, _⟩ => ⟨S1024, .f32⟩
  | .hbm, ⟨4, _⟩ => ⟨S_, .i32⟩
  | .hbm, ⟨5, _⟩ => ⟨S4x2048, .i32⟩
  | .hbm, ⟨6, _⟩ => ⟨S4x2048, .i1⟩
  | .hbm, ⟨7, _⟩ => ⟨S_, .i32⟩
  | .hbm, ⟨8, _⟩ => ⟨S4x2048, .i32⟩
  | .hbm, ⟨9, _⟩ => ⟨S4x2048, .i32⟩
  | .hbm, ⟨10, _⟩ => ⟨S4x2048, .i32⟩
  | .hbm, ⟨11, _⟩ => ⟨S4x2048x1, .i32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S4x2048x0, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048x1024, .f32⟩
  | .hbm, ⟨24, _⟩ => ⟨S_, .i32⟩
  | .hbm, ⟨25, _⟩ => ⟨S_, .f32⟩
  | .hbm, ⟨26, _⟩ => ⟨S4x2049x1024, .f32⟩
  | .hbm, ⟨27, _⟩ => ⟨S4x2048x1024, .f32⟩
  | .hbm, ⟨28, _⟩ => ⟨S4x2048x1024, .f32⟩
  | .hbm, ⟨29, _⟩ => ⟨S4x2048x0, .f32⟩
  | .hbm, ⟨30, _⟩ => ⟨S4x2048x1024, .f32⟩
  | .hbm, ⟨31, _⟩ => ⟨S4x2048x1024, .f32⟩
  | .hbm, ⟨32, _⟩ => ⟨S4x2048x1, .f32⟩
  | .hbm, ⟨33, _⟩ => ⟨S4x2048x1023, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048x1024, .f32⟩
  | .hbm, ⟨39, _⟩ => ⟨S_, .i32⟩
  | .hbm, ⟨40, _⟩ => ⟨S_, .f32⟩
  | .hbm, ⟨41, _⟩ => ⟨S4x2050x1024, .f32⟩
  | .hbm, ⟨42, _⟩ => ⟨S4x2048x1024, .f32⟩
  | .hbm, ⟨43, _⟩ => ⟨S4x2048x1024, .f32⟩
  | .hbm, ⟨44, _⟩ => ⟨S4x2048x0, .f32⟩
  | .hbm, ⟨45, _⟩ => ⟨S4x2048x1024, .f32⟩
  | .hbm, ⟨46, _⟩ => ⟨S4x2048x1024, .f32⟩
  | .hbm, ⟨47, _⟩ => ⟨S_, .i32⟩
  | .hbm, ⟨48, _⟩ => ⟨S_, .f32⟩
  | .hbm, ⟨49, _⟩ => ⟨S4x2049x1024, .f32⟩
  | .hbm, ⟨50, _⟩ => ⟨S4x2048x1024, .f32⟩
  | .hbm, ⟨51, _⟩ => ⟨S4x2048x1, .f32⟩
  | .hbm, ⟨52, _⟩ => ⟨S4x2048x1023, .f32⟩
  | .hbm, ⟨53, _⟩ => ⟨S4x2048x1024, .f32⟩
  | .hbm, ⟨54, _⟩ => ⟨S4x2048x1024, .f32⟩
  | .hbm, ⟨55, _⟩ => ⟨S4x2048x2, .f32⟩
  | .hbm, ⟨56, _⟩ => ⟨S4x2048x1022, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S4x2048x1024, .f32⟩
  | .hbm, ⟨62, _⟩ => ⟨S_, .i32⟩
  | .hbm, ⟨63, _⟩ => ⟨S_, .f32⟩
  | .hbm, ⟨64, _⟩ => ⟨S4x2051x1024, .f32⟩
  | .hbm, ⟨65, _⟩ => ⟨S4x2048x1024, .f32⟩
  | .hbm, ⟨66, _⟩ => ⟨S4x2048x1024, .f32⟩
  | .hbm, ⟨67, _⟩ => ⟨S4x2048x0, .f32⟩
  | .hbm, ⟨68, _⟩ => ⟨S4x2048x1024, .f32⟩
  | .hbm, ⟨69, _⟩ => ⟨S4x2048x1024, .f32⟩
  | .hbm, ⟨70, _⟩ => ⟨S_, .i32⟩
  | .hbm, ⟨71, _⟩ => ⟨S_, .f32⟩
  | .hbm, ⟨72, _⟩ => ⟨S4x2050x1024, .f32⟩
  | .hbm, ⟨73, _⟩ => ⟨S4x2048x1024, .f32⟩
  | .hbm, ⟨74, _⟩ => ⟨S4x2048x1, .f32⟩
  | .hbm, ⟨75, _⟩ => ⟨S4x2048x1023, .f32⟩
  | .hbm, ⟨76, _⟩ => ⟨S4x2048x1024, .f32⟩
  | .hbm, ⟨77, _⟩ => ⟨S4x2048x1024, .f32⟩
  | .hbm, ⟨78, _⟩ => ⟨S_, .i32⟩
  | .hbm, ⟨79, _⟩ => ⟨S_, .f32⟩
  | .hbm, ⟨80, _⟩ => ⟨S4x2049x1024, .f32⟩
  | .hbm, ⟨81, _⟩ => ⟨S4x2048x1024, .f32⟩
  | .hbm, ⟨82, _⟩ => ⟨S4x2048x2, .f32⟩
  | .hbm, ⟨83, _⟩ => ⟨S4x2048x1022, .f32⟩
  | .hbm, ⟨84, _⟩ => ⟨S4x2048x1024, .f32⟩
  | .hbm, ⟨85, _⟩ => ⟨S4x2048x1024, .f32⟩
  | .hbm, ⟨86, _⟩ => ⟨S4x2048x3, .f32⟩
  | .hbm, ⟨87, _⟩ => ⟨S4x2048x1021, .f32⟩
  | .hbm, ⟨88, _⟩ => ⟨S4x2048x1024, .f32⟩
  | .hbm, ⟨89, _⟩ => ⟨S4x2048x1024, .f32⟩
  | .hbm, ⟨90, _⟩ => ⟨S4x2048x1024, .f32⟩
  | .hbm, ⟨91, _⟩ => ⟨S_, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S1x1x1024, .f32⟩
  | .hbm, ⟨96, _⟩ => ⟨S4x2048x1024, .f32⟩
  | .hbm, ⟨97, _⟩ => ⟨S4x2048x1024, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_c_3 : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_call2_v0 : Ref sig .tc := ⟨.hbm, 28, rfl⟩
abbrev main_call2_v1 : Ref sig .tc := ⟨.hbm, 29, rfl⟩
abbrev main_v15 : Ref sig .tc := ⟨.hbm, 30, rfl⟩
abbrev main_v16 : Ref sig .tc := ⟨.hbm, 31, rfl⟩
abbrev main_call3_v0 : Ref sig .tc := ⟨.hbm, 32, rfl⟩
abbrev main_call3_v1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_c_5 : Ref sig .tc := ⟨.hbm, 39, rfl⟩
abbrev main_call4_v0 : Ref sig .tc := ⟨.hbm, 40, rfl⟩
abbrev main_v21 : Ref sig .tc := ⟨.hbm, 41, rfl⟩
abbrev main_v22 : Ref sig .tc := ⟨.hbm, 42, rfl⟩
abbrev main_call5_v0 : Ref sig .tc := ⟨.hbm, 43, rfl⟩
abbrev main_call5_v1 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_call6_v0 : Ref sig .tc := ⟨.hbm, 48, rfl⟩
abbrev main_v25 : Ref sig .tc := ⟨.hbm, 49, rfl⟩
abbrev main_v26 : Ref sig .tc := ⟨.hbm, 50, rfl⟩
abbrev main_call7_v0 : Ref sig .tc := ⟨.hbm, 51, rfl⟩
abbrev main_call7_v1 : Ref sig .tc := ⟨.hbm, 52, rfl⟩
abbrev main_v27 : Ref sig .tc := ⟨.hbm, 53, rfl⟩
abbrev main_v28 : Ref sig .tc := ⟨.hbm, 54, rfl⟩
abbrev main_call8_v0 : Ref sig .tc := ⟨.hbm, 55, rfl⟩
abbrev main_call8_v1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_c_8 : Ref sig .tc := ⟨.hbm, 62, rfl⟩
abbrev main_call9_v0 : Ref sig .tc := ⟨.hbm, 63, rfl⟩
abbrev main_v33 : Ref sig .tc := ⟨.hbm, 64, rfl⟩
abbrev main_v34 : Ref sig .tc := ⟨.hbm, 65, rfl⟩
abbrev main_call10_v0 : Ref sig .tc := ⟨.hbm, 66, rfl⟩
abbrev main_call10_v1 : Ref sig .tc := ⟨.hbm, 67, rfl⟩
abbrev main_v35 : Ref sig .tc := ⟨.hbm, 68, rfl⟩
abbrev main_v36 : Ref sig .tc := ⟨.hbm, 69, rfl⟩
abbrev main_c_9 : Ref sig .tc := ⟨.hbm, 70, rfl⟩
abbrev main_call11_v0 : Ref sig .tc := ⟨.hbm, 71, rfl⟩
abbrev main_v37 : Ref sig .tc := ⟨.hbm, 72, rfl⟩
abbrev main_v38 : Ref sig .tc := ⟨.hbm, 73, rfl⟩
abbrev main_call12_v0 : Ref sig .tc := ⟨.hbm, 74, rfl⟩
abbrev main_call12_v1 : Ref sig .tc := ⟨.hbm, 75, rfl⟩
abbrev main_v39 : Ref sig .tc := ⟨.hbm, 76, rfl⟩
abbrev main_v40 : Ref sig .tc := ⟨.hbm, 77, rfl⟩
abbrev main_c_10 : Ref sig .tc := ⟨.hbm, 78, rfl⟩
abbrev main_call13_v0 : Ref sig .tc := ⟨.hbm, 79, rfl⟩
abbrev main_v41 : Ref sig .tc := ⟨.hbm, 80, rfl⟩
abbrev main_v42 : Ref sig .tc := ⟨.hbm, 81, rfl⟩
abbrev main_call14_v0 : Ref sig .tc := ⟨.hbm, 82, rfl⟩
abbrev main_call14_v1 : Ref sig .tc := ⟨.hbm, 83, rfl⟩
abbrev main_v43 : Ref sig .tc := ⟨.hbm, 84, rfl⟩
abbrev main_v44 : Ref sig .tc := ⟨.hbm, 85, rfl⟩
abbrev main_call15_v0 : Ref sig .tc := ⟨.hbm, 86, rfl⟩
abbrev main_call15_v1 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_11 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S_S4x2048x1024 : S_.BroadcastsInDim S4x2048x1024 (![] : Fin 0 → Fin S4x2048x1024.rank)
  slices_S4x2048x1024_S4x2048x1024_0_0_0 : S4x2048x1024.Slices ![0, 0, 0] S4x2048x1024
  slices_S4x2048x1024_S4x2048x0_0_0_0 : S4x2048x1024.Slices ![0, 0, 0] S4x2048x0
  concatenates_S4x2048x1024_S4x2048x0_S4x2048x1024_d2 : Shape.Concatenates [S4x2048x1024, S4x2048x0] S4x2048x1024 2
  pads_S4x2048x1024_S4x2049x1024_000_100_000 : S4x2048x1024.Pads (![0, 1, 0] : Fin 3 → Nat) ![0, 0, 0] ![0, 0, 0] S4x2049x1024
  h_S_ : 0 < S_.numel
  slices_S4x2049x1024_S4x2048x1024_0_0_0 : S4x2049x1024.Slices ![0, 0, 0] S4x2048x1024
  slices_S4x2048x1024_S4x2048x1_0_0_1023 : S4x2048x1024.Slices ![0, 0, 1023] S4x2048x1
  slices_S4x2048x1024_S4x2048x1023_0_0_0 : S4x2048x1024.Slices ![0, 0, 0] S4x2048x1023
  concatenates_S4x2048x1_S4x2048x1023_S4x2048x1024_d2 : Shape.Concatenates [S4x2048x1, S4x2048x1023] S4x2048x1024 2
  pads_S4x2048x1024_S4x2050x1024_000_200_000 : S4x2048x1024.Pads (![0, 2, 0] : Fin 3 → Nat) ![0, 0, 0] ![0, 0, 0] S4x2050x1024
  slices_S4x2050x1024_S4x2048x1024_0_0_0 : S4x2050x1024.Slices ![0, 0, 0] S4x2048x1024
  slices_S4x2048x1024_S4x2048x2_0_0_1022 : S4x2048x1024.Slices ![0, 0, 1022] S4x2048x2
  slices_S4x2048x1024_S4x2048x1022_0_0_0 : S4x2048x1024.Slices ![0, 0, 0] S4x2048x1022
  concatenates_S4x2048x2_S4x2048x1022_S4x2048x1024_d2 : Shape.Concatenates [S4x2048x2, S4x2048x1022] S4x2048x1024 2
  pads_S4x2048x1024_S4x2051x1024_000_300_000 : S4x2048x1024.Pads (![0, 3, 0] : Fin 3 → Nat) ![0, 0, 0] ![0, 0, 0] S4x2051x1024
  slices_S4x2051x1024_S4x2048x1024_0_0_0 : S4x2051x1024.Slices ![0, 0, 0] S4x2048x1024
  slices_S4x2048x1024_S4x2048x3_0_0_1021 : S4x2048x1024.Slices ![0, 0, 1021] S4x2048x3
  slices_S4x2048x1024_S4x2048x1021_0_0_0 : S4x2048x1024.Slices ![0, 0, 0] S4x2048x1021
  concatenates_S4x2048x3_S4x2048x1021_S4x2048x1024_d2 : Shape.Concatenates [S4x2048x3, S4x2048x1021] S4x2048x1024 2
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  gather_S32000x1024_S4x2048x1_S4x2048x1024_2_0_n_n_0_2_11024_wf : GatherDims.WF S32000x1024 S4x2048x1 S4x2048x1024 [2] [0] [] [0] [] 2 ![1, 1024]
  dot_S4x2048x1024_S1024x1024_S4x2048x1024_2_1_01_0_n_n_wf : DotDims.WF S4x2048x1024 S1024x1024 S4x2048x1024 [2] [1] [0, 1] [0] [] []

variable [Facts₀]

def gather_S32000x1024_S4x2048x1_S4x2048x1024_2_0_n_n_0_2_11024 : GatherDims S32000x1024 S4x2048x1 S4x2048x1024 where
  offsetDims := [2]
  collapsedSliceDims := [0]
  operandBatchingDims := []
  startIndicesBatchingDims := []
  startIndexMap := [0]
  indexVectorDim := 2
  sliceSizes := ![1, 1024]
  wf := gather_S32000x1024_S4x2048x1_S4x2048x1024_2_0_n_n_0_2_11024_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.K.Bundle.lean ====
/- The body half of the frame of custom_call 1 (`cc1__bundle_proj_kernel`, pipeline `cfg1`, five windows on the
   grid [4, 8]), at a parameter `V`: the TensorCore's buffer contents when the region is entered. Per window its block
   at a point; what the body's one store leaves in the output window's staging buffer as a function of the four input
   blocks; the body's triple; the pipeline's proof data and its body obligation. -/
import proofs.«427312_j87016037416990_3_alg».proof.Proof.Gen.Kernel.Launch
import proofs.«427312_j87016037416990_3_alg».proof.Proof.Gen.Kernel.Skeleton
import proofs.«427312_j87016037416990_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Bundle

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # custom_call 1, `cc1__bundle_proj_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the time tile of the token vectors) holds its block at every point, for any proof data whose
    array is `V`'s and whose body leaves the block in place: fetched there, the fetch put it; unfetched, the block
    index has not moved. The window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the eight rows before the time tile, of the same array) likewise. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the whole projection matrix, block index constant: fetched at the first point only) likewise. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the whole bias row, block index constant: fetched at the first point only) likewise. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [1, 256, 1024] buffer: the time tile's load, and the output's load and store. -/
abbrev r1_0 : Rect S1x256x1024 := Rect.unit (s := S1x256x1024) ![0, 0, 0] S1x256x1024.size inb_S1x256x1024_S1x256x1024_0_0_0
/-- Rows 5, 6, 7 of the [1, 8, 1024] buffer: the three rows just before the time tile. -/
abbrev r1_1 : Rect S1x8x1024 := Rect.unit (s := S1x8x1024) ![0, 5, 0] S1x3x1024.size inb_S1x8x1024_S1x3x1024_0_5_0
/-- The whole [1024, 1024] matrix. -/
abbrev r1_2 : Rect S1024x1024 := Rect.unit (s := S1024x1024) ![0, 0] S1024x1024.size inb_S1024x1024_S1024x1024_0_0
/-- The whole [1, 1024] bias row. -/
abbrev r1_3 : Rect S1x1024 := Rect.unit (s := S1x1024) ![0, 0] S1x1024.size inb_S1x1024_S1x1024_0_0

/-! ## What the body leaves in the output window's buffer -/

/-- Window 4's staging buffer after the body at grid point `i`, from the four input blocks: its one store, whose
    payload is the projected bundle of the time tile `x0`, the three rows `x1` holds before it (zeroed when the
    point's time coordinate is 0), the matrix `x2` and the bias row `x3`. -/
def out1_4 (i : grid1.Coords) (x0 : Vec F S1x256x1024 .f32) (x1 : Vec F S1x8x1024 .f32) (x2 : Vec F S1024x1024 .bf16) (x3 : Vec F S1x1024 .f32) : Vec F S1x256x1024 .f32 :=
  View.canon [⟨r1_0, k1_pay1 (k1_pay2 i (View.ld x1 r1_1) (View.ld x0 r1_0) (View.ld x2 r1_2) (View.ld x3 r1_3))⟩]

/-- The one store is of the whole buffer, so it covers it. -/
theorem cover1_4 (p0 : Vec F S1x256x1024 .f32) (y : S1x256x1024.Idx) :
    ∃ pc ∈ ([⟨r1_0, p0⟩] : List (View.Piece (Elt F) S1x256x1024 .f32)), y ∈ pc.1.set :=
  View.cover_of_tiled [⟨r1_0, p0⟩] S1x256x1024.size (by rfl) y

/-! ## The body's triple -/

set_option maxHeartbeats 1000000 in
/-- The kernel body at grid point `i` on whole staging memrefs, the four inputs' at read contents `x0 … x3` and the
    output's at anything (the body loads it once and uses nothing of the value), runs to the continuation holding the
    inputs' as they were and the output's at `out1_4` of the inputs'. -/
theorem sound_kernel1 (c : Dev nD) (E : Set ℕ) (i : grid1.Coords)
    (arg2 : Memref sig .tc .vmem S1x256x1024 .f32) (harg2 : arg2.IsWhole) (arg3 : Memref sig .tc .vmem S1x8x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x256x1024 .f32) (harg6 : arg6.IsWhole)
    (x0 : Vec F S1x256x1024 .f32) (x1 : Vec F S1x8x1024 .f32) (x2 : Vec F S1024x1024 .bf16) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 i x0 x1 x2 x3)) -∗ K ⟨⟩))
      ⊢ wp frame (wpE (defs₀ (F := F)) Variants.none c none) E (cc1__bundle_proj_kernel i arg2 harg2 arg3 harg3 arg4 harg4 arg5 harg5 arg6 harg6) K := by
  simp only [cc1__bundle_proj_kernel_eq_skeleton]; unfold cc1__bundle_proj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant the scoped rest
    and the generator register, untouched; nothing owed. Windows 0 and 1 read ONE array, the token vectors: they hold
    the two halves of its full share; every other window's array is held whole. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies at the point's
    coordinates; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's loop, at every point. -/
theorem body_obligation1 (c : Dev nD) : BodyObligation (dat1 (F := F) V c) (defs₀ (F := F)) Variants.none () Set.univ := fun t => by
  rw [bigSep_W1, bigSep_W1]
  exact sound_body1 V c t

end Cert.Kernel.Bundle

end
-- ==== Proof.K.Gather.lean ====
/-
  Region 0 of the idealized kernel program is a row gather. A table of 8192 words sits whole in scalar memory; an
  embedding table of 32000 rows of 1024 numbers sits whole in HBM; the output, 8192 rows of 1024 numbers, is written
  block by block, block i being rows 8i to 8i+7. At grid point i the body reads the words 8i, …, 8i+7 of the table,
  takes each as a row number of the embedding table, copies that row into row j of the block by a transfer of its own
  on semaphore cell 2+j, and waits for the eight transfers in order.

  This module states what the body does on separation-logic resources. All eight transfers are in flight before the
  first wait, so each one borrows only what it needs: its own row of the block (the rows are disjoint, and rejoin to
  the block once the waits are done) and its own read share of the embedding table (two words may name the same row,
  so the rows read need not be disjoint: the table is held as one read share per cell, rejoined at the end). The words
  must address rows of the embedding table, `TokOk`: from it each side condition the body assumes. After the body the
  block's buffer holds eight pieces, piece j the row the j-th word names, read back as one function (`out0_A_0`).
  The proof data `dat0` carries the invariant `ΦG`: the parts of `Pipeline.ΦD` (scoped rest, generator register,
  the eight cells at zero, the embedding table at its entry contents) and the table held whole at its contents.
-/
import proofs.«427312_j87016037416990_3_alg».proof.Proof.Gen.Kernel.Launch
import proofs.«427312_j87016037416990_3_alg».proof.Proof.Gen.Kernel.Skeleton
import proofs.«427312_j87016037416990_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Transfers

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands the pipeline does not stage -/

/-- The embedding table, left in HBM, whole. -/
abbrev hbM0_0 : Memref sig .tc .hbm S32000x1024 .f32 := Memref.whole main_arg1
/-- The prefetched table of words, in scalar memory, whole. -/
abbrev tbM0_0 : Memref sig .tc .smem S8192 .i32 := Memref.whole main_v0
/-- Memref `M`'s buffer on core `c`: its contents type, -/
abbrev HbBuf0 (c : Dev nD) {sp : Space} {S : Shape} {e : EltTy} (M : Memref sig .tc sp S e) : Type := Buf (Elt F) (M.view.loc (c : Thread nD τ))
/-- it held whole at the full share at `f`, -/
abbrev hbPt0 (c : Dev nD) {sp : Space} {S : Shape} {e : EltTy} (M : Memref sig .tc sp S e) (f : HbBuf0 (F := F) c M) : sProp 𝕄 :=
  M.view.loc (c : Thread nD τ) ↦{fullShare} f
/-- and it held whole at the `n`-th read share of the full share: the full share halved `n` times, then the right half. -/
abbrev hbTok0 (c : Dev nD) {sp : Space} {S : Shape} {e : EltTy} (M : Memref sig .tc sp S e) (n : ℕ) (f : HbBuf0 (F := F) c M) : sProp 𝕄 :=
  M.view.loc (c : Thread nD τ) ↦{Transfers.shareTokN fullShare n} f
/-- What is left of the embedding table's full share once the read shares 2 to 9 are taken off it: the full share halved
    ten times, and the read shares 0 and 1. -/
def hbRest0 (c : Dev nD) (f : HbBuf0 (F := F) c hbM0_0) : sProp 𝕄 :=
  iprop((hbM0_0.view.loc (c : Thread nD τ) ↦{Transfers.shareDrop fullShare 10} f) ∗ hbTok0 c hbM0_0 0 f ∗ hbTok0 c hbM0_0 1 f)

/-- The embedding table whole at the full share is one read share per DMA cell (cells 2 to 9) and the rest:
    eight transfers read it at once, and two of them may read the same row. -/
theorem hbToks0 (c : Dev nD) (f : HbBuf0 (F := F) c hbM0_0) :
    hbPt0 c hbM0_0 f ⊣⊢ iprop(hbRest0 c f ∗ hbTok0 c hbM0_0 2 f ∗ hbTok0 c hbM0_0 3 f ∗ hbTok0 c hbM0_0 4 f ∗ hbTok0 c hbM0_0 5 f
        ∗ hbTok0 c hbM0_0 6 f ∗ hbTok0 c hbM0_0 7 f ∗ hbTok0 c hbM0_0 8 f ∗ hbTok0 c hbM0_0 9 f) := by
  have h := Transfers.pointsTo_toks_range (Ix := Unit) (Name := ℕ) (U := Pipeline.UD sig nD τ) (Lvl := ℕ) (nD := nD) (τ := τ) (sig := sig) (Val := Elt F)
    (ℓ := hbM0_0.view.loc (c : Thread nD τ)) (S := Finset.univ) (f := f) fullShare 10
  rw [BI.bigSep_eq_bigSepL_of_eq [0, 1, 2, 3, 4, 5, 6, 7, 8, 9] (by decide) (by decide)] at h
  have h : (hbPt0 c hbM0_0 f : sProp 𝕄) ⊣⊢ iprop((hbM0_0.view.loc (c : Thread nD τ) ↦{Transfers.shareDrop fullShare 10} f)
      ∗ hbTok0 c hbM0_0 0 f ∗ hbTok0 c hbM0_0 1 f ∗ hbTok0 c hbM0_0 2 f ∗ hbTok0 c hbM0_0 3 f ∗ hbTok0 c hbM0_0 4 f ∗ hbTok0 c hbM0_0 5 f
      ∗ hbTok0 c hbM0_0 6 f ∗ hbTok0 c hbM0_0 7 f ∗ hbTok0 c hbM0_0 8 f ∗ hbTok0 c hbM0_0 9 f) := h
  unfold hbRest0
  constructor
  · refine h.1.trans ?_
    iintro ⟨Hd, Ha, Hb, H2, H3, H4, H5, H6, H7, H8, H9⟩
    isplitl [Hd Ha Hb]
    · isplitl [Hd]; · iexact Hd
      isplitl [Ha]; · iexact Ha
      iexact Hb
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · refine BIBase.Entails.trans ?_ h.2
    iintro ⟨⟨Hd, Ha, Hb⟩, H2, H3, H4, H5, H6, H7, H8, H9⟩
    isplitl [Hd]; · iexact Hd
    isplitl [Ha]; · iexact Ha
    isplitl [Hb]; · iexact Hb
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## Eight rows written through squeezed slices are eight pieces -/

/-- A payload over a squeezed shape, indexed by the shape it was squeezed from. -/
abbrev unsq {Val : EltTy → Type} {s s' : Shape} {e : EltTy} (hq : s.Squeezes s') (w : s'.Idx → Val e) : s.Idx → Val e :=
  fun x => w ((Shape.reshapeEquiv hq.numel_eq).symm x)

/-- An unmasked write through a squeezed slice of a memref is the write of the re-indexed payload through the slice's
    rectangle (`View.write_reshape_univ`: a squeeze is a reshape). -/
theorem write_row {Val : EltTy → Type} {κ : Kind} {sp : Space} {s s' : Shape} {e : EltTy} (m : Memref sig κ sp s e) (R : Rect s)
    (hr : ∀ a, R.stride a = 1) (hq : R.shape.Squeezes s') (g : m.view.ty.Contents Val) (w : s'.Idx → Val e) :
    View.write Val ((m.slice R hr).squeeze s' hq).view g w Finset.univ
      = View.write Val (m.view.slice R) g (unsq hq w) Finset.univ :=
  View.write_reshape_univ (m.view.slice R) hq.numel_eq g w

/-- A write through a squeezed slice over a list of writes is that list with the slice's piece consed on. -/
theorem write_row_cons {Val : EltTy → Type} {κ : Kind} {sp : Space} {s s' : Shape} {e : EltTy} (m : Memref sig κ sp s e) (R : Rect s)
    (hr : ∀ a, R.stride a = 1) (hq : R.shape.Squeezes s') (f : m.view.ty.Contents Val) (L : List (View.Piece Val s e)) (w : s'.Idx → Val e) :
    View.write Val ((m.slice R hr).squeeze s' hq).view (m.view.writes Val f L) w Finset.univ
      = m.view.writes Val f (⟨R, unsq hq w⟩ :: L) :=
  write_row m R hr hq (m.view.writes Val f L) w

set_option maxHeartbeats 1000000 in
/-- The eight rows of an [8,1024] buffer written one after the other through squeezed row slices, row 0 first, are the
    list of their eight pieces, the last written first. -/
theorem rows8 {Val : EltTy → Type} (m : Memref sig .tc .vmem S8x1024 .f32)
    (h0 : ∀ a, (Rect.unit (s := S8x1024) ![0, 0] S1x1024.size inb_S8x1024_S1x1024_0_0).stride a = 1) (h1 : ∀ a, (Rect.unit (s := S8x1024) ![1, 0] S1x1024.size inb_S8x1024_S1x1024_1_0).stride a = 1) (h2 : ∀ a, (Rect.unit (s := S8x1024) ![2, 0] S1x1024.size inb_S8x1024_S1x1024_2_0).stride a = 1) (h3 : ∀ a, (Rect.unit (s := S8x1024) ![3, 0] S1x1024.size inb_S8x1024_S1x1024_3_0).stride a = 1) (h4 : ∀ a, (Rect.unit (s := S8x1024) ![4, 0] S1x1024.size inb_S8x1024_S1x1024_4_0).stride a = 1) (h5 : ∀ a, (Rect.unit (s := S8x1024) ![5, 0] S1x1024.size inb_S8x1024_S1x1024_5_0).stride a = 1) (h6 : ∀ a, (Rect.unit (s := S8x1024) ![6, 0] S1x1024.size inb_S8x1024_S1x1024_6_0).stride a = 1) (h7 : ∀ a, (Rect.unit (s := S8x1024) ![7, 0] S1x1024.size inb_S8x1024_S1x1024_7_0).stride a = 1)
    (g : m.view.ty.Contents Val) (w0 w1 w2 w3 w4 w5 w6 w7 : S1024.Idx → Val .f32) :
    (View.write Val ((m.slice (Rect.unit (s := S8x1024) ![7, 0] S1x1024.size inb_S8x1024_S1x1024_7_0) h7).squeeze S1024 squeezes_S1x1024_S1024).view (View.write Val ((m.slice (Rect.unit (s := S8x1024) ![6, 0] S1x1024.size inb_S8x1024_S1x1024_6_0) h6).squeeze S1024 squeezes_S1x1024_S1024).view (View.write Val ((m.slice (Rect.unit (s := S8x1024) ![5, 0] S1x1024.size inb_S8x1024_S1x1024_5_0) h5).squeeze S1024 squeezes_S1x1024_S1024).view (View.write Val ((m.slice (Rect.unit (s := S8x1024) ![4, 0] S1x1024.size inb_S8x1024_S1x1024_4_0) h4).squeeze S1024 squeezes_S1x1024_S1024).view (View.write Val ((m.slice (Rect.unit (s := S8x1024) ![3, 0] S1x1024.size inb_S8x1024_S1x1024_3_0) h3).squeeze S1024 squeezes_S1x1024_S1024).view (View.write Val ((m.slice (Rect.unit (s := S8x1024) ![2, 0] S1x1024.size inb_S8x1024_S1x1024_2_0) h2).squeeze S1024 squeezes_S1x1024_S1024).view (View.write Val ((m.slice (Rect.unit (s := S8x1024) ![1, 0] S1x1024.size inb_S8x1024_S1x1024_1_0) h1).squeeze S1024 squeezes_S1x1024_S1024).view (View.write Val ((m.slice (Rect.unit (s := S8x1024) ![0, 0] S1x1024.size inb_S8x1024_S1x1024_0_0) h0).squeeze S1024 squeezes_S1x1024_S1024).view g w0 Finset.univ) w1 Finset.univ) w2 Finset.univ) w3 Finset.univ) w4 Finset.univ) w5 Finset.univ) w6 Finset.univ) w7 Finset.univ)
      = m.view.writes Val g [⟨(Rect.unit (s := S8x1024) ![7, 0] S1x1024.size inb_S8x1024_S1x1024_7_0), unsq squeezes_S1x1024_S1024 w7⟩, ⟨(Rect.unit (s := S8x1024) ![6, 0] S1x1024.size inb_S8x1024_S1x1024_6_0), unsq squeezes_S1x1024_S1024 w6⟩, ⟨(Rect.unit (s := S8x1024) ![5, 0] S1x1024.size inb_S8x1024_S1x1024_5_0), unsq squeezes_S1x1024_S1024 w5⟩, ⟨(Rect.unit (s := S8x1024) ![4, 0] S1x1024.size inb_S8x1024_S1x1024_4_0), unsq squeezes_S1x1024_S1024 w4⟩, ⟨(Rect.unit (s := S8x1024) ![3, 0] S1x1024.size inb_S8x1024_S1x1024_3_0), unsq squeezes_S1x1024_S1024 w3⟩, ⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] := by
  have e0 := write_row_cons (Val := Val) m (Rect.unit (s := S8x1024) ![0, 0] S1x1024.size inb_S8x1024_S1x1024_0_0) h0 squeezes_S1x1024_S1024 g [] w0
  have e1 := write_row_cons (Val := Val) m (Rect.unit (s := S8x1024) ![1, 0] S1x1024.size inb_S8x1024_S1x1024_1_0) h1 squeezes_S1x1024_S1024 g [⟨(Rect.unit (s := S8x1024) ![0, 0] S1x1024.size inb_S8x1024_S1x1024_0_0), unsq squeezes_S1x1024_S1024 w0⟩] w1
  have e2 := write_row_cons (Val := Val) m (Rect.unit (s := S8x1024) ![2, 0] S1x1024.size inb_S8x1024_S1x1024_2_0) h2 squeezes_S1x1024_S1024 g [⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w2
  have e3 := write_row_cons (Val := Val) m (Rect.unit (s := S8x1024) ![3, 0] S1x1024.size inb_S8x1024_S1x1024_3_0) h3 squeezes_S1x1024_S1024 g [⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w3
  have e4 := write_row_cons (Val := Val) m (Rect.unit (s := S8x1024) ![4, 0] S1x1024.size inb_S8x1024_S1x1024_4_0) h4 squeezes_S1x1024_S1024 g [⟨(Rect.unit (s := S8x1024) ![3, 0] S1x1024.size inb_S8x1024_S1x1024_3_0), unsq squeezes_S1x1024_S1024 w3⟩, ⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w4
  have e5 := write_row_cons (Val := Val) m (Rect.unit (s := S8x1024) ![5, 0] S1x1024.size inb_S8x1024_S1x1024_5_0) h5 squeezes_S1x1024_S1024 g [⟨(Rect.unit (s := S8x1024) ![4, 0] S1x1024.size inb_S8x1024_S1x1024_4_0), unsq squeezes_S1x1024_S1024 w4⟩, ⟨(Rect.unit (s := S8x1024) ![3, 0] S1x1024.size inb_S8x1024_S1x1024_3_0), unsq squeezes_S1x1024_S1024 w3⟩, ⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w5
  have e6 := write_row_cons (Val := Val) m (Rect.unit (s := S8x1024) ![6, 0] S1x1024.size inb_S8x1024_S1x1024_6_0) h6 squeezes_S1x1024_S1024 g [⟨(Rect.unit (s := S8x1024) ![5, 0] S1x1024.size inb_S8x1024_S1x1024_5_0), unsq squeezes_S1x1024_S1024 w5⟩, ⟨(Rect.unit (s := S8x1024) ![4, 0] S1x1024.size inb_S8x1024_S1x1024_4_0), unsq squeezes_S1x1024_S1024 w4⟩, ⟨(Rect.unit (s := S8x1024) ![3, 0] S1x1024.size inb_S8x1024_S1x1024_3_0), unsq squeezes_S1x1024_S1024 w3⟩, ⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w6
  have e7 := write_row_cons (Val := Val) m (Rect.unit (s := S8x1024) ![7, 0] S1x1024.size inb_S8x1024_S1x1024_7_0) h7 squeezes_S1x1024_S1024 g [⟨(Rect.unit (s := S8x1024) ![6, 0] S1x1024.size inb_S8x1024_S1x1024_6_0), unsq squeezes_S1x1024_S1024 w6⟩, ⟨(Rect.unit (s := S8x1024) ![5, 0] S1x1024.size inb_S8x1024_S1x1024_5_0), unsq squeezes_S1x1024_S1024 w5⟩, ⟨(Rect.unit (s := S8x1024) ![4, 0] S1x1024.size inb_S8x1024_S1x1024_4_0), unsq squeezes_S1x1024_S1024 w4⟩, ⟨(Rect.unit (s := S8x1024) ![3, 0] S1x1024.size inb_S8x1024_S1x1024_3_0), unsq squeezes_S1x1024_S1024 w3⟩, ⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w7
  rw [← e7, ← e6, ← e5, ← e4, ← e3, ← e2, ← e1, ← e0]
  rfl

/-! ## The kernel's own semaphores, the operand left in HBM, the invariant -/

section Region
variable (V : (c : Dev nD) → (b : Ref sig .tc) → Buf (Elt F) ((c : Thread nD τ).loc b))
variable (a : (pcfg0 (F := F)).Adm)

/-- The body's own DMA semaphores, cell by cell: cells 2 to 9 of the pool, one per row of the block. -/
abbrev osem0 : Fin 8 → SemLoc sig := fun j => (![SemLoc.dma 2, SemLoc.dma 3, SemLoc.dma 4, SemLoc.dma 5, SemLoc.dma 6, SemLoc.dma 7, SemLoc.dma 8, SemLoc.dma 9] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5, 6, 7] (by decide) (by decide)]; rfl
/-- The HBM operand the body's transfers read: unscoped, no window's array, no prefetched table. -/
def H0 : Finset (Ref sig .tc) := {main_arg1}
theorem H0_sub : H0 ⊆ Pipeline.restRefsP sig pre0 spec0 := by decide
/-- Its points-to at the region-entry contents. -/
theorem hbmPts0_eq (c : Dev nD) :
    (bigSep H0 (fun b => ((c : Thread nD τ).loc b) ↦{fullShare} V c b) : sProp 𝕄) = iprop(hbPt0 c hbM0_0 (V c main_arg1)) := by
  rw [BI.bigSep_eq_bigSepL_of_eq [main_arg1] (by decide) (by decide)]; rfl

/-- The invariant of a body with transfers of its own, conjunct by conjunct: the scoped rest at some contents, the
    generator register at some state, the eight own cells at zero, the embedding table at its region-entry contents. -/
theorem PhiD0_eq (c : Dev nD) :
    (Pipeline.ΦD osem0 spec0 H0 V c : sProp 𝕄)
      = iprop(Pipeline.scopedRest (Ix := Unit) (Name := ℕ) (U := Pipeline.UD sig nD τ) (Lvl := ℕ) (Val := Elt F) spec0 c ∗ (∃ r, prngReg c r)
          ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_0 (V c main_arg1))) := by
  rw [Pipeline.ΦD_eq, ownSems00_eq, hbmPts0_eq]

/-- Every word of the table addresses a row of the embedding table. -/
def TokOk (tbl : S8192.Idx → BitVec 32) : Prop := ∀ k, (tbl k).toNat < 32000

/-- The region invariant: the four parts of `Pipeline.ΦD`, and the prefetched table held whole at the full share at its
    contents `a.1`. -/
def ΦG (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) a.1)

/-- The one prefetched table's points-to. -/
theorem prefHeld0_eq (c : Dev nD) :
    (Pipeline.prefHeld (Ix := Unit) (Name := ℕ) (U := Pipeline.UD sig nD τ) (Lvl := ℕ) pre0 c (fun _ => fullShare) a.1 : sProp 𝕄)
      = iprop(hbPt0 c tbM0_0 (a.1 0)) := by
  unfold Pipeline.prefHeld
  exact bigSep_W0 _

/-! ## The side conditions the body assumes, from the table's range -/

/-- A row index below 32000 and column 0 place a [1,1024] block inside the [32000,1024] table. -/
theorem offs_inb (v : BitVec 32) (h : v.toNat < 32000) :
    ∀ a, (![v.toNat, 0] : Fin 2 → Nat) a + S1x1024.size a ≤ S32000x1024.size a := by
  intro a
  fin_cases a
  · show v.toNat + 1 ≤ 32000
    omega
  · show 0 + 1024 ≤ 1024
    omega

theorem chk1_of (v : BitVec 32) (h : v.toNat < 32000) : k0_chk1 v := by unfold k0_chk1; exact ⟨offs_inb v h, offs_inb v h⟩
theorem chk2_of (v : BitVec 32) (h : v.toNat < 32000) : k0_chk2 v := by unfold k0_chk2; exact ⟨offs_inb v h, offs_inb v h⟩
theorem chk3_of (v : BitVec 32) (h : v.toNat < 32000) : k0_chk3 v := by unfold k0_chk3; exact ⟨offs_inb v h, offs_inb v h⟩
theorem chk4_of (v : BitVec 32) (h : v.toNat < 32000) : k0_chk4 v := by unfold k0_chk4; exact ⟨offs_inb v h, offs_inb v h⟩
theorem chk5_of (v : BitVec 32) (h : v.toNat < 32000) : k0_chk5 v := by unfold k0_chk5; exact ⟨offs_inb v h, offs_inb v h⟩
theorem chk6_of (v : BitVec 32) (h : v.toNat < 32000) : k0_chk6 v := by unfold k0_chk6; exact ⟨offs_inb v h, offs_inb v h⟩
theorem chk7_of (v : BitVec 32) (h : v.toNat < 32000) : k0_chk7 v := by unfold k0_chk7; exact ⟨offs_inb v h, offs_inb v h⟩
theorem chk8_of (v : BitVec 32) (h : v.toNat < 32000) : k0_chk8 v := by unfold k0_chk8; exact offs_inb v h

/-- A word read off the table held whole is an entry of the table, so it is in range when every entry is. -/
theorem word_ok (c : Dev nD) (ft : HbBuf0 (F := F) c tbM0_0) (hT : TokOk ft) (r : LoadRect S8192) (x : r.shape.Idx) :
    (tbM0_0.view.readAt (Elt F) r ft x : BitVec 32).toNat < 32000 := by
  rw [View.readAt_apply, View.read_apply]
  simp only [cast_eq]
  exact hT _

/-! ## The kernel body on any staging memref: a subtype the run finds -/

set_option maxHeartbeats 4000000 in
set_option sl_exec.dmaWindow true in
set_option sl_exec.dmaWindowSet true in
/-- What the body's eight transfers leave in the output's staging memref, as pieces (last first), WITH the proof that on a
    whole staging memref at any contents, the table whole at `ft0`, the embedding table whole at `fh0`, the eight cells at
    zero and the core's `owes`, given that each word the body reads addresses a row of the embedding table, the body runs
    to the continuation holding the table, the embedding table and the cells as they were, the waits recorded, and the
    output's buffer with its pieces written. Each transfer lends its own row of the staging memref and its own read share
    of the embedding table (two words may name one row), and its wait takes them back. -/
noncomputable def kernelRun0_A (c : Dev nD) (i : grid0.Coords) (arg3 : Memref sig .tc .vmem S8x1024 .f32) (harg3 : arg3.IsWhole)
    (ft0 : HbBuf0 (F := F) c tbM0_0) (fh0 : HbBuf0 (F := F) c hbM0_0)
    (k0_hw1 : k0_chk1 (tbM0_0.view.readAt (Elt F) (Rect.unit (s := S8192) (k0_off1 i) S1.size (k0_off1_inb i)).toLoadRect ft0 (Shape.Idx.first (numel1_S1.symm ▸ Nat.one_pos))))
    (k0_hw2 : k0_chk2 (tbM0_0.view.readAt (Elt F) (Rect.unit (s := S8192) (k0_off3 i) S1.size (k0_off3_inb i)).toLoadRect ft0 (Shape.Idx.first (numel1_S1.symm ▸ Nat.one_pos))))
    (k0_hw3 : k0_chk3 (tbM0_0.view.readAt (Elt F) (Rect.unit (s := S8192) (k0_off5 i) S1.size (k0_off5_inb i)).toLoadRect ft0 (Shape.Idx.first (numel1_S1.symm ▸ Nat.one_pos))))
    (k0_hw4 : k0_chk4 (tbM0_0.view.readAt (Elt F) (Rect.unit (s := S8192) (k0_off7 i) S1.size (k0_off7_inb i)).toLoadRect ft0 (Shape.Idx.first (numel1_S1.symm ▸ Nat.one_pos))))
    (k0_hw5 : k0_chk5 (tbM0_0.view.readAt (Elt F) (Rect.unit (s := S8192) (k0_off9 i) S1.size (k0_off9_inb i)).toLoadRect ft0 (Shape.Idx.first (numel1_S1.symm ▸ Nat.one_pos))))
    (k0_hw6 : k0_chk6 (tbM0_0.view.readAt (Elt F) (Rect.unit (s := S8192) (k0_off11 i) S1.size (k0_off11_inb i)).toLoadRect ft0 (Shape.Idx.first (numel1_S1.symm ▸ Nat.one_pos))))
    (k0_hw7 : k0_chk7 (tbM0_0.view.readAt (Elt F) (Rect.unit (s := S8192) (k0_off13 i) S1.size (k0_off13_inb i)).toLoadRect ft0 (Shape.Idx.first (numel1_S1.symm ▸ Nat.one_pos))))
    (k0_hw8 : k0_chk8 (tbM0_0.view.readAt (Elt F) (Rect.unit (s := S8192) (k0_off15 i) S1.size (k0_off15_inb i)).toLoadRect ft0 (Shape.Idx.first (numel1_S1.symm ▸ Nat.one_pos)))) :
    { L0 : List (View.Piece (Elt F) S8x1024 .f32) //
      ∀ (W : Waits sig Unit) (K : PUnit → sProp 𝕄),
        iprop((∃ d, owns (c : Thread nD τ) arg3 fullShare d) ∗ hbPt0 c tbM0_0 ft0
            ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
            ∗ hbPt0 c hbM0_0 fh0 ∗ owes (c : Thread nD τ) 0 W
            ∗ (iprop((∃ f, arg3.view.loc (c : Thread nD τ) ↦[arg3.view.set]{fullShare} arg3.view.writes (Elt F) f L0) ∗ hbPt0 c tbM0_0 ft0
                ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
                ∗ hbPt0 c hbM0_0 fh0 ∗ (∃ W', owes (c : Thread nD τ) 0 W')) -∗ K ⟨⟩))
          ⊢ wp frame (wpE (defs₀ (F := F)) Variants.none c none) Set.univ (cc0__gather_kernel i (Memref.whole main_v0) (Memref.isWhole_whole _) (Memref.whole main_arg1) (Memref.isWhole_whole _) arg3 harg3 cc0_scratch0) K } := by
  refine ⟨?_, fun W K => ?run⟩
  case run =>
    simp only [cc0__gather_kernel_eq_skeleton]; unfold cc0__gather_kernel_skel
    simp only [k0_part1_eq_skeleton, k0_part2_eq_skeleton, k0_part3_eq_skeleton]
    unfold owns
    iintro ⟨⟨%d1, %f1, -, H1⟩, Ht, Hq0, Hq1, Hq2, Hq3, Hq4, Hq5, Hq6, Hq7, Hh0, HW, Hk⟩
    ihave Hh := (hbToks0 c fh0).1 $$ Hh0
    icases Hh with ⟨Hr, T0, T1, T2, T3, T4, T5, T6, T7⟩
    sl_exec (disch := first | sl_exact k0_hw1 | sl_exact k0_hw2 | sl_exact k0_hw3 | sl_exact k0_hw4 | sl_exact k0_hw5 | sl_exact k0_hw6 | sl_exact k0_hw7 | sl_exact k0_hw8)
    sl_step
    ihave H1' := (BIBase.Entails.of_eq (congrArg (fun x => (arg3.view.loc (c : Thread nD τ) ↦[arg3.view.set]{fullShare} x : sProp 𝕄)) (rows8 (Val := Elt F) arg3 _ _ _ _ _ _ _ _ f1 _ _ _ _ _ _ _ _))) $$ H1
    iapply Hk
    isplitl [H1']; · iexists f1; iexact H1'
    isplitl [Ht]; · iexact Ht
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hr T0 T1 T2 T3 T4 T5 T6 T7]
    · iapply (hbToks0 c fh0).2
      isplitl [Hr]; · iexact Hr
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexists _; iexact HW

end Region

/-! ## What the run leaves in the output's staging buffer -/

section Region
variable (V : (c : Dev nD) → (b : Ref sig .tc) → Buf (Elt F) ((c : Thread nD τ).loc b))
variable (a : (pcfg0 (F := F)).Adm)

/-- One staging buffer of the output window, through which its contents are stated (the choice does not matter). -/
abbrev VO0_0 : View sig .tc .vmem S8x1024 .f32 := (Memref.whole cc0_stg0_0 : Memref sig .tc .vmem S8x1024 .f32).view
/-- The output window's current staging memref at point `t`, spelled as the pipeline passes it, and its wholeness. -/
abbrev ms0_0 (t : Fin (cfg0 a).N) : Memref sig .tc .vmem S8x1024 .f32 := spec0_0.stage ((cfg0 a).slots t 0)
abbrev hs0_0 (t : Fin (cfg0 a).N) : (ms0_0 a t).IsWhole := hstage0_0 (((cfg0 a).slots t 0).cast nbuf0_0)

/-- The run's eight pieces are the eight rows of the block: they tile it, so they cover it. -/
theorem cover0_A_0 (c : Dev nD) (i : grid0.Coords) (arg3 : Memref sig .tc .vmem S8x1024 .f32) (harg3 : arg3.IsWhole)
    (ft0 : HbBuf0 (F := F) c tbM0_0) (fh0 : HbBuf0 (F := F) c hbM0_0)
    (k0_hw1 : k0_chk1 (tbM0_0.view.readAt (Elt F) (Rect.unit (s := S8192) (k0_off1 i) S1.size (k0_off1_inb i)).toLoadRect ft0 (Shape.Idx.first (numel1_S1.symm ▸ Nat.one_pos))))
    (k0_hw2 : k0_chk2 (tbM0_0.view.readAt (Elt F) (Rect.unit (s := S8192) (k0_off3 i) S1.size (k0_off3_inb i)).toLoadRect ft0 (Shape.Idx.first (numel1_S1.symm ▸ Nat.one_pos))))
    (k0_hw3 : k0_chk3 (tbM0_0.view.readAt (Elt F) (Rect.unit (s := S8192) (k0_off5 i) S1.size (k0_off5_inb i)).toLoadRect ft0 (Shape.Idx.first (numel1_S1.symm ▸ Nat.one_pos))))
    (k0_hw4 : k0_chk4 (tbM0_0.view.readAt (Elt F) (Rect.unit (s := S8192) (k0_off7 i) S1.size (k0_off7_inb i)).toLoadRect ft0 (Shape.Idx.first (numel1_S1.symm ▸ Nat.one_pos))))
    (k0_hw5 : k0_chk5 (tbM0_0.view.readAt (Elt F) (Rect.unit (s := S8192) (k0_off9 i) S1.size (k0_off9_inb i)).toLoadRect ft0 (Shape.Idx.first (numel1_S1.symm ▸ Nat.one_pos))))
    (k0_hw6 : k0_chk6 (tbM0_0.view.readAt (Elt F) (Rect.unit (s := S8192) (k0_off11 i) S1.size (k0_off11_inb i)).toLoadRect ft0 (Shape.Idx.first (numel1_S1.symm ▸ Nat.one_pos))))
    (k0_hw7 : k0_chk7 (tbM0_0.view.readAt (Elt F) (Rect.unit (s := S8192) (k0_off13 i) S1.size (k0_off13_inb i)).toLoadRect ft0 (Shape.Idx.first (numel1_S1.symm ▸ Nat.one_pos))))
    (k0_hw8 : k0_chk8 (tbM0_0.view.readAt (Elt F) (Rect.unit (s := S8192) (k0_off15 i) S1.size (k0_off15_inb i)).toLoadRect ft0 (Shape.Idx.first (numel1_S1.symm ▸ Nat.one_pos)))) (y : S8x1024.Idx) :
    ∃ pc ∈ (kernelRun0_A c i arg3 harg3 ft0 fh0 k0_hw1 k0_hw2 k0_hw3 k0_hw4 k0_hw5 k0_hw6 k0_hw7 k0_hw8).1, y ∈ pc.1.set :=
  View.cover_of_tiledL (kernelRun0_A c i arg3 harg3 ft0 fh0 k0_hw1 k0_hw2 k0_hw3 k0_hw4 k0_hw5 k0_hw6 k0_hw7 k0_hw8).1 S1x1024.size (by sl_kernel_rfl) y

/-- What the run leaves in the output's staging buffer: its pieces read back over junk. -/
def out0_A_0 (c : Dev nD) (i : grid0.Coords) (arg3 : Memref sig .tc .vmem S8x1024 .f32) (harg3 : arg3.IsWhole)
    (ft0 : HbBuf0 (F := F) c tbM0_0) (fh0 : HbBuf0 (F := F) c hbM0_0)
    (k0_hw1 : k0_chk1 (tbM0_0.view.readAt (Elt F) (Rect.unit (s := S8192) (k0_off1 i) S1.size (k0_off1_inb i)).toLoadRect ft0 (Shape.Idx.first (numel1_S1.symm ▸ Nat.one_pos))))
    (k0_hw2 : k0_chk2 (tbM0_0.view.readAt (Elt F) (Rect.unit (s := S8192) (k0_off3 i) S1.size (k0_off3_inb i)).toLoadRect ft0 (Shape.Idx.first (numel1_S1.symm ▸ Nat.one_pos))))
    (k0_hw3 : k0_chk3 (tbM0_0.view.readAt (Elt F) (Rect.unit (s := S8192) (k0_off5 i) S1.size (k0_off5_inb i)).toLoadRect ft0 (Shape.Idx.first (numel1_S1.symm ▸ Nat.one_pos))))
    (k0_hw4 : k0_chk4 (tbM0_0.view.readAt (Elt F) (Rect.unit (s := S8192) (k0_off7 i) S1.size (k0_off7_inb i)).toLoadRect ft0 (Shape.Idx.first (numel1_S1.symm ▸ Nat.one_pos))))
    (k0_hw5 : k0_chk5 (tbM0_0.view.readAt (Elt F) (Rect.unit (s := S8192) (k0_off9 i) S1.size (k0_off9_inb i)).toLoadRect ft0 (Shape.Idx.first (numel1_S1.symm ▸ Nat.one_pos))))
    (k0_hw6 : k0_chk6 (tbM0_0.view.readAt (Elt F) (Rect.unit (s := S8192) (k0_off11 i) S1.size (k0_off11_inb i)).toLoadRect ft0 (Shape.Idx.first (numel1_S1.symm ▸ Nat.one_pos))))
    (k0_hw7 : k0_chk7 (tbM0_0.view.readAt (Elt F) (Rect.unit (s := S8192) (k0_off13 i) S1.size (k0_off13_inb i)).toLoadRect ft0 (Shape.Idx.first (numel1_S1.symm ▸ Nat.one_pos))))
    (k0_hw8 : k0_chk8 (tbM0_0.view.readAt (Elt F) (Rect.unit (s := S8192) (k0_off15 i) S1.size (k0_off15_inb i)).toLoadRect ft0 (Shape.Idx.first (numel1_S1.symm ▸ Nat.one_pos)))) : Vec F S8x1024 .f32 :=
  VO0_0.read (Elt F) (VO0_0.writes (Elt F) VO0_0.junk (kernelRun0_A c i arg3 harg3 ft0 fh0 k0_hw1 k0_hw2 k0_hw3 k0_hw4 k0_hw5 k0_hw6 k0_hw7 k0_hw8).1)

/-- What the output's staging buffer holds after the body at point `t`: the run's contents at the point's memref, the
    table's contents `a.1 0` and the embedding table's region-entry contents, the side conditions from the table's range. -/
def outsAt0 (hT : TokOk (a.1 0)) (c : Dev nD) (t : Fin (cfg0 a).N) : Vec F S8x1024 .f32 :=
  out0_A_0 c (grid0.coords t) (ms0_0 a t) (hs0_0 a t) (a.1 0) (V c main_arg1) (chk1_of _ (word_ok c (a.1 0) hT _ _)) (chk2_of _ (word_ok c (a.1 0) hT _ _)) (chk3_of _ (word_ok c (a.1 0) hT _ _)) (chk4_of _ (word_ok c (a.1 0) hT _ _)) (chk5_of _ (word_ok c (a.1 0) hT _ _)) (chk6_of _ (word_ok c (a.1 0) hT _ _)) (chk7_of _ (word_ok c (a.1 0) hT _ _)) (chk8_of _ (word_ok c (a.1 0) hT _ _))

/-! ## The pipeline's proof data -/

/-- The proof data of pipeline 0 on core `c`: the array as the region finds it (`V`); after the body at point `t` the
    output's buffer at `outsAt0`; the invariant `ΦG`; nothing owed; full shares. -/
def dat0 (hT : TokOk (a.1 0)) (c : Dev nD) : Dat τ (Elt F) Unit ℕ (Pipeline.UD sig nD τ) ℕ (cfg0 a) c where
  A w := V c (Pipeline.arrRef spec0 w)
  after w t := match w with
    | ⟨0, _⟩ => outsAt0 V a hT c t
  Φ _ := ΦG V a c
  q _ := fullShare
  owed _ := 0

/-- The proof data's arrays are the region-entry contents. -/
theorem A_eq0 (hT : TokOk (a.1 0)) (c : Dev nD) (w : Fin (cfg0 a).W) : (dat0 V a hT c).A w = V c (Pipeline.arrRef spec0 w) := by
  dsimp only [dat0]

/-- What the body leaves in the output window. -/
theorem after0_0 (hT : TokOk (a.1 0)) (c : Dev nD) (t : Fin (cfg0 a).N) : (dat0 V a hT c).after 0 t = outsAt0 V a hT c t := by
  dsimp only [dat0]
  rfl

end Region

end Cert.Kernel.Gather

end
-- ==== Proof.K.GatherBody.lean ====
/-
  The body obligation of region 0, the row gather (KI/Gather.lean): at every grid point the region invariant hands the
  body the table of words, the embedding table and its eight semaphore cells at zero; the body's run applies at the
  words of the table's contents, each addressing a row of the embedding table; it gives everything back as it was,
  records its eight waits, and leaves the block's buffer at the eight gathered rows.
-/
import proofs.«427312_j87016037416990_3_alg».proof.Proof.K.Gather

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body obligation, at a generic point -/

section Body
variable (V : (c : Dev nD) → (b : Ref sig .tc) → Buf (Elt F) ((c : Thread nD τ).loc b))
variable (a : (pcfg0 (F := F)).Adm)

/-- The kernel body at point `t`, on what the pipeline calls it with: the table and the embedding table whole, the output
    window's current staging memref, the eight semaphores. -/
abbrev bodyAt0 (t : Fin (cfg0 a).N) : Prog (TpuEff nD τ sig (Elt F) Λ₀ .tc) PUnit :=
  cc0__gather_kernel (grid0.coords t) (Memref.whole main_v0) (Memref.isWhole_whole _) (Memref.whole main_arg1) (Memref.isWhole_whole _) (spec0_0.stage ((cfg0 a).slots t 0)) (hstage0_0 (((cfg0 a).slots t 0).cast nbuf0_0)) cc0_scratch0

/-- What the body is called with at point `t`, -/
def bodyPre0 (hT : TokOk (a.1 0)) (c : Dev nD) (t : Fin (cfg0 a).N) : sProp 𝕄 :=
  iprop((dat0 V a hT c).Φ t.castSucc ∗ (dat0 V a hT c).owesAt () t.castSucc
    ∗ (∃ d, owns (c : Thread nD τ) (ms0_0 a t) fullShare ((dat0 V a hT c).before 0 t d)))

/-- and what it returns. -/
def bodyPost0 (hT : TokOk (a.1 0)) (c : Dev nD) (t : Fin (cfg0 a).N) : sProp 𝕄 :=
  iprop((dat0 V a hT c).Φ t.succ ∗ (dat0 V a hT c).owesAt () t.succ
    ∗ owns (c : Thread nD τ) (ms0_0 a t) fullShare ((dat0 V a hT c).after 0 t))

/-- The body at any point: the invariant hands the run the table, the embedding table, the eight cells at zero; the run
    applies at the words of the table's contents, each in range by `hT`; everything comes back as it was, the core's
    `owes` with this point's waits, the output's buffer at the run's pieces read back. -/
theorem sound_body0 (hT : TokOk (a.1 0)) (c : Dev nD) (t : Fin (cfg0 a).N) :
    bodyPre0 V a hT c t ⊢ wp frame (wpE (defs₀ (F := F)) Variants.none c none) Set.univ (bodyAt0 a t) (fun _ => bodyPost0 V a hT c t) := by
  unfold bodyPre0 bodyPost0 bodyAt0
  rw [show (dat0 V a hT c).Φ t.succ = (dat0 V a hT c).Φ t.castSucc from rfl, after0_0]
  rw [show (dat0 V a hT c).Φ t.castSucc = ΦG V a c from rfl]
  unfold ΦG
  rw [PhiD0_eq, prefHeld0_eq]
  unfold Dat.owesAt Pipeline.owesWithin
  rw [show (dat0 V a hT c).owed t.castSucc = 0 from rfl, show (dat0 V a hT c).owed t.succ = 0 from rfl]
  unfold outsAt0
  unfold out0_A_0
  iintro ⟨⟨⟨HR, Hg, ⟨Hq0, Hq1, Hq2, Hq3, Hq4, Hq5, Hq6, Hq7⟩, Hh0⟩, Ht⟩, ⟨%W, -, HW⟩, ⟨%d0, H0⟩⟩
  iapply ((kernelRun0_A c (grid0.coords t) _ _ (a.1 0) (V c main_arg1) (chk1_of _ (word_ok c (a.1 0) hT _ _)) (chk2_of _ (word_ok c (a.1 0) hT _ _)) (chk3_of _ (word_ok c (a.1 0) hT _ _)) (chk4_of _ (word_ok c (a.1 0) hT _ _)) (chk5_of _ (word_ok c (a.1 0) hT _ _)) (chk6_of _ (word_ok c (a.1 0) hT _ _)) (chk7_of _ (word_ok c (a.1 0) hT _ _)) (chk8_of _ (word_ok c (a.1 0) hT _ _))).2 W _)
  isplitl [H0]; · iexists _; iexact H0
  isplitl [Ht]; · iexact Ht
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨⟨%e1, H1⟩, Ht, Hq0, Hq1, Hq2, Hq3, Hq4, Hq5, Hq6, Hq7, Hh0, ⟨%W', HW'⟩⟩
  isplitl [HR Hg Hq0 Hq1 Hq2 Hq3 Hq4 Hq5 Hq6 Hq7 Hh0 Ht]
  · isplitl [HR Hg Hq0 Hq1 Hq2 Hq3 Hq4 Hq5 Hq6 Hq7 Hh0]
    · isplitl [HR]; · iexact HR
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    iexact Ht
  isplitl [HW']
  · iexists W'; isplitr; · ipureintro; exact fun _ _ => Or.inl trivial
    iexact HW'
  unfold owns; iexists _; isplitr
  swap; · iexact H1
  ipureintro; exact View.read_writes_of_cover _ _ _ _ _ (cover0_A_0 c _ _ _ _ _ _ _ _ _ _ _ _ _)

/-- The library's body obligation, at every point. -/
theorem body_obligation0 (hT : TokOk (a.1 0)) (c : Dev nD) :
    BodyObligation (dat0 (F := F) V a hT c) (defs₀ (F := F)) Variants.none () Set.univ := fun t => by
  rw [bigSep_W0, bigSep_W0]
  exact sound_body0 V a hT c t

end Body

end Cert.Kernel.Gather

end
-- ==== Proof.K.Run.lean ====
import proofs.«427312_j87016037416990_3_alg».proof.Proof.Gen.Kernel.Launch
import proofs.«427312_j87016037416990_3_alg».proof.Proof.Gen.Kernel.Skeleton
import proofs.«427312_j87016037416990_3_alg».proof.Proof.Gen.Kernel.Points
import proofs.«427312_j87016037416990_3_alg».proof.Proof.Gen.Kernel.Regions
import proofs.«427312_j87016037416990_3_alg».proof.Proof.K.Bundle
import proofs.«427312_j87016037416990_3_alg».proof.Proof.K.GatherBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary of the program -/

/-- Core `c`'s buffers at launch. -/
abbrev W0 : Dev nD → Valuation τ sig (Elt F) := fun c b => (s₀ m ρ).mem ((c : Dev nD), b)
/-- After the first host stretch (the token ids flattened): the gather region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The flat table of token ids the gather region prefetches, as it stands at that region's entry. -/
def adm0 : (pcfg0 (F := F)).Adm := ⟨fun k => match k with | ⟨0, _⟩ => V1 m ρ 0 main_v0, trivial⟩

/-- Every pipeline's admissible table contents: the gather's is the flat token table, the projection has none. -/
def adm : (p : Fin 2) → (pcfgs (F := F) p).Adm
  | ⟨0, _⟩ => adm0 m ρ
  | ⟨1, _⟩ => cfg1.toPCfg_adm

-- Every word of the token table addresses a row of the embedding table: what the gather's row copies need.
variable (hT : Gather.TokOk ((adm0 (F := F) m ρ).1 0))

/-- At the gather region's exit: its output array holds what the pipeline's write-backs leave, every other buffer as
    entered. -/
def W2 (c : Dev nD) : Valuation τ sig (Elt F) :=
  Pipeline.withArrays spec0 c (W1 m ρ c) fun w => (Gather.dat0 (V1 m ρ) (adm0 m ρ) hT c).arrAt w (cfg0 (adm0 m ρ)).N
theorem W2_arr (c : Dev nD) (w : Fin (cfg0 (adm0 (F := F) m ρ)).W) :
    W2 m ρ hT c (Proc.devRef .tc (Pipeline.arrRef spec0 w)) = (Gather.dat0 (V1 m ρ) (adm0 m ρ) hT c).arrAt w (cfg0 (adm0 m ρ)).N := by
  unfold W2; exact Pipeline.withArrays_arr spec0 winFacts0.arr_inj c _ _ w
theorem W2_of_ne (c : Dev nD) (b : Ref sig .tc) (hb : ∀ w, Pipeline.arrRef spec0 w ≠ b) :
    W2 m ρ hT c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ hT c b

/-- After the second host stretch (the gathered rows regrouped by batch, the matrix transposed and narrowed, the bias
    as a row): the projection region's entry. -/
abbrev W3 : Dev nD → Valuation τ sig (Elt F) := fun c => StableHlo.after hostOps1 (W2 m ρ hT c)
abbrev V3 : (c : Dev nD) → (b : Ref sig .tc) → Buf (Elt F) ((c : Thread nD τ).loc b) := fun c b => W3 m ρ hT c b

/-- At the projection region's exit: its one output array holds what the write-backs leave; its inputs, two of them
    windows on one array, and every other buffer are as entered. -/
def W4 (c : Dev nD) : Valuation τ sig (Elt F) :=
  Function.update (W3 m ρ hT c) (Proc.devRef .tc main_v6) ((Bundle.dat1 (V3 m ρ hT) c).arrAt 4 cfg1.N)
abbrev V4 : (c : Dev nD) → (b : Ref sig .tc) → Buf (Elt F) ((c : Thread nD τ).loc b) := fun c b => W4 m ρ hT c b

/-! ## The proof data family and the thread state -/

def pdats : (p : Fin 2) → (c : Dev nD) → Dat τ (Elt F) Unit ℕ (Pipeline.UD sig nD τ) ℕ (Pipeline.pin (pcfgs (F := F)) (adm m ρ) p) c
  | ⟨0, _⟩ => fun c => Gather.dat0 (V1 m ρ) (adm0 m ρ) hT c
  | ⟨1, _⟩ => fun c => Bundle.dat1 (V3 m ρ hT) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ hT c) ∗ ∃ r, prngReg c r)

/-! ## The gather region as a segment -/

/-- The one table of the gather region read off the buffers at its entry is the admissible contents chosen for it
    (there is one core). -/
theorem tbl_eq (c : Dev nD) : (fun k => V1 m ρ c (pre0.ref k)) = (adm0 (F := F) m ρ).1 := by
  obtain rfl : c = 0 := Subsingleton.elim _ _
  funext k
  match k with
  | ⟨0, _⟩ => rfl

theorem hF0 (c : Dev nD) (w : Fin (cfg0 (adm0 (F := F) m ρ)).W) :
    (Gather.dat0 (V1 m ρ) (adm0 m ρ) hT c).arrAt w (cfg0 (adm0 m ρ)).N = V2 m ρ hT c (Pipeline.arrRef spec0 w) :=
  (W2_arr m ρ hT c w).symm
theorem hrest0 (c : Dev nD) : ∀ b, b ∉ Finset.univ.image (Pipeline.arrRef spec0) → V2 m ρ hT c b = V1 m ρ c b :=
  fun b hb => W2_of_ne m ρ hT c b fun w e => hb (Finset.mem_image.mpr ⟨w, Finset.mem_univ _, e⟩)

set_option backward.isDefEq.respectTransparency.types false in
/-- The gather region over the thread state: entered from every unscoped buffer at `W1`, left at `W2`. Its output
    array is split out of the unscoped buffers and put back at the exit contents; the token table, the embedding table
    it copies rows of, its eight transfer counters at zero and the generator register pass through its invariant and
    come back unchanged; nothing is owed. -/
def reg0 :
    Pipeline.RegionSeg (pcfgs (F := F)) (adm m ρ) (pdats m ρ hT) () defs₀ 𝒱₀ L lv 0 where
  win := winFacts0.to₀
  block_pos := block_pos0
  stage_whole := stage_whole0
  K := Fin 8
  osem := Gather.osem0
  ho := Gather.ownSemFacts0
  hbody c := (Gather.body_obligation0 (V1 m ρ) (adm0 m ρ) hT c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hT c) ∗ R c)
  X c := iprop((∃ r, prngReg c r) ∗ Pipeline.ownSems0 (Ix := Unit) (Name := ℕ) (U := Pipeline.UD sig nD τ) (Lvl := ℕ) (Val := Elt F) (τ := τ) Gather.osem0 c
    ∗ (bigSep Gather.H0 fun b => (((c : Thread nD τ)).loc b) ↦{fullShare} V1 m ρ c b))
  Y c := iprop((∃ r, prngReg c r) ∗ (bigSep Gather.H0 fun b => (((c : Thread nD τ)).loc b) ↦{fullShare} V1 m ρ c b)
    ∗ Pipeline.prefHeld pre0 c (fun _ => fullShare) (adm0 m ρ).1)
  Z c := bigSep (Pipeline.restRefsP sig pre0 spec0 \ Gather.H0) fun b => (((c : Thread nD τ)).loc b) ↦{fullShare} V1 m ρ c b
  hentry c := by
    have hsplit := Pipeline.arrays_of_unscopedBufs (p := 0) (pcfgs (F := F)) (adm m ρ) (pdats m ρ hT) winFacts0 arr_whole0 c
      ((pdats m ρ hT 0 c).share_full fun _ => rfl) (V1 m ρ c) fun _ => rfl
    rw [Pipeline.unscopedBufs_held] at hsplit
    have hT1 := Pipeline.unscopedRest_split (Ix := Unit) (Name := ℕ) (U := Pipeline.UD sig nD τ) (Lvl := ℕ) preFacts0 c (V1 m ρ c)
    have hH := Pipeline.unscopedRestP_sdiff (Val := Elt F) pre0 spec0 Gather.H0 Gather.H0_sub c (V1 m ρ c)
    rw [tbl_eq m ρ c] at hT1
    iintro ⟨⟨Hub, Hp, HO⟩, Hos, -⟩
    ihave H := hsplit $$ Hub
    icases H with ⟨Ha, Hrest⟩
    ihave H' := (Entails.of_eq hT1) $$ Hrest
    icases H' with ⟨Htb, HrestP⟩
    ihave H'' := (Entails.of_eq hH) $$ HrestP
    icases H'' with ⟨HH, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ hT 0 c).Φ 0 = Gather.ΦG (V1 m ρ) (adm0 m ρ) c from rfl]
    unfold Gather.ΦG
    rw [Pipeline.ΦD_eq]
    iintro ⟨⟨Hp, Ho, HH⟩, Htb, Hr⟩
    isplitl [Hr Hp Ho HH]
    · isplitl [Hr]; · iexact Hr
      isplitl [Hp]; · iexact Hp
      isplitl [Ho]; · iexact Ho
      iexact HH
    iexact Htb
  hout c := by
    rw [show (pdats m ρ hT 0 c).Φ (Fin.last _) = Gather.ΦG (V1 m ρ) (adm0 m ρ) c from rfl]
    unfold Gather.ΦG
    rw [Pipeline.ΦD_eq]
    iintro ⟨⟨Hr, Hp, Ho, HH⟩, Htb⟩
    isplitl [Hp HH Htb]
    · isplitl [Hp]; · iexact Hp
      isplitl [HH]; · iexact HH
      iexact Htb
    isplitl [Ho]; · iexact Ho
    iexact Hr
  hexit c := by
    have hjoin := Pipeline.unscopedBufs_of_arrays (p := 0) (pcfgs (F := F)) (adm m ρ) (Ix := Unit) (Name := ℕ) (U := Pipeline.UD sig nD τ) (Lvl := ℕ)
      winFacts0 arr_whole0 c (pdats m ρ hT) ((pdats m ρ hT 0 c).share_full fun _ => rfl)
      (V1 m ρ c) (V2 m ρ hT c) ((pdats m ρ hT 0 c).arrAt · (cfg0 (adm0 m ρ)).N) (hF0 m ρ hT c) (hrest0 m ρ hT c)
    rw [Pipeline.unscopedBufs_held] at hjoin
    have hT1 := Pipeline.unscopedRest_split (Ix := Unit) (Name := ℕ) (U := Pipeline.UD sig nD τ) (Lvl := ℕ) preFacts0 c (V1 m ρ c)
    have hH := Pipeline.unscopedRestP_sdiff (Val := Elt F) pre0 spec0 Gather.H0 Gather.H0_sub c (V1 m ρ c)
    rw [tbl_eq m ρ c] at hT1
    iintro ⟨Ha, HO, ⟨HY, HH, Htb⟩, HR⟩
    ihave HrestP := (Entails.of_eq hH.symm) $$ [HH HR]
    · isplitl [HH]; · iexact HH
      iexact HR
    ihave Hrest := (Entails.of_eq hT1.symm) $$ [Htb HrestP]
    · isplitl [Htb]; · iexact Htb
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The projection region as a segment

Two of its input windows (the time tile and its halo) read ONE array, the gathered vectors: each holds a half of the
full share of it, and the two halves are split off the whole buffer at the region's entry and joined at its exit. -/

/-- The projection region's arrays, at contents that one valuation gives per array, are the four distinct buffers
    behind them whole at that valuation: the shared array's two halves joined. -/
theorem arrays1 (c : Dev nD) (dat : Dat τ (Elt F) Unit ℕ (Pipeline.UD sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (dat.arrays Fw : sProp 𝕄) ⊣⊢ Pipeline.arrBufs (Ix := Unit) (Name := ℕ) (U := Pipeline.UD sig nD τ) (Lvl := ℕ) spec1 c V := by
  have s0 : dat.share 0 = fullShare.left := by unfold Dat.share; rw [if_neg (by decide)]; exact hq0
  have s1 : dat.share 1 = fullShare.right := by unfold Dat.share; rw [if_neg (by decide)]; exact hq1
  have s2 : dat.share 2 = fullShare := by unfold Dat.share; rw [if_neg (by decide)]; exact hq2
  have s3 : dat.share 3 = fullShare := by unfold Dat.share; rw [if_neg (by decide)]; exact hq3
  have s4 : dat.share 4 = fullShare := by unfold Dat.share; rw [if_pos (by decide)]
  unfold Dat.arrays Pipeline.arrBufs
  rw [bigSep_W1, BI.bigSep_eq_bigSepL_of_eq [main_v2, main_v4, main_v5, main_v6] (by decide) (by decide)]
  rw [(arr_whole1 0).set_eq_univ, (arr_whole1 2).set_eq_univ, (arr_whole1 3).set_eq_univ, (arr_whole1 4).set_eq_univ,
    s0, s1, s2, s3, s4, hF 0, hF 1, hF 2, hF 3, hF 4]
  have hsh : ((((c : Thread nD τ).loc main_v2) ↦{fullShare} V main_v2 : sProp 𝕄))
      ⊣⊢ iprop((((c : Thread nD τ).loc main_v2) ↦{fullShare.left} V main_v2) ∗ ((c : Thread nD τ).loc main_v2) ↦{fullShare.right} V main_v2) :=
    pointsTo_share (PosShare.mem_left_op_right fullShare)
  show _ ⊣⊢ iprop((((c : Thread nD τ).loc main_v2) ↦{fullShare} V main_v2) ∗ (((c : Thread nD τ).loc main_v4) ↦{fullShare} V main_v4)
    ∗ (((c : Thread nD τ).loc main_v5) ↦{fullShare} V main_v5) ∗ (((c : Thread nD τ).loc main_v6) ↦{fullShare} V main_v6))
  constructor
  · iintro ⟨H0, H1, H2, H3, H4⟩
    isplitl [H0 H1]
    · iapply hsh.2; isplitl [H0]; · iexact H0
      iexact H1
    isplitl [H2]; · iexact H2
    isplitl [H3]; · iexact H3
    iexact H4
  · iintro ⟨H2, H4, H5, H6⟩
    ihave H := hsh.1 $$ H2
    icases H with ⟨H0, H1⟩
    isplitl [H0]; · iexact H0
    isplitl [H1]; · iexact H1
    isplitl [H4]; · iexact H4
    isplitl [H5]; · iexact H5
    iexact H6

theorem W4_v6 (c : Dev nD) : W4 m ρ hT c (Proc.devRef .tc main_v6) = (Bundle.dat1 (V3 m ρ hT) c).arrAt 4 cfg1.N := by
  unfold W4; exact Function.update_self ..
theorem W4_of_ne (c : Dev nD) (b : Ref sig .tc) (hb : b ≠ main_v6) :
    W4 m ρ hT c (Proc.devRef .tc b) = W3 m ρ hT c (Proc.devRef .tc b) := by
  unfold W4; exact Function.update_of_ne (StableHlo.devRef_ne_of_ne hb) _ _

/-- At the projection region's exit each of its arrays holds what the valuation `W4` says: the inputs what they held
    at entry (no write-back touches them), the output what the write-backs leave. -/
theorem hF1 (c : Dev nD) (w : Fin cfg1.W) : (Bundle.dat1 (V3 m ρ hT) c).arrAt w cfg1.N = V4 m ρ hT c (Pipeline.arrRef spec1 w) :=
  match w with
  | ⟨0, _⟩ => (((Bundle.dat1 (V3 m ρ hT) c).arrAt_in 0 rfl _).trans (Bundle.A_eq1 (V3 m ρ hT) c 0)).trans (W4_of_ne m ρ hT c main_v2 (by decide)).symm
  | ⟨1, _⟩ => (((Bundle.dat1 (V3 m ρ hT) c).arrAt_in 1 rfl _).trans (Bundle.A_eq1 (V3 m ρ hT) c 1)).trans (W4_of_ne m ρ hT c main_v2 (by decide)).symm
  | ⟨2, _⟩ => (((Bundle.dat1 (V3 m ρ hT) c).arrAt_in 2 rfl _).trans (Bundle.A_eq1 (V3 m ρ hT) c 2)).trans (W4_of_ne m ρ hT c main_v4 (by decide)).symm
  | ⟨3, _⟩ => (((Bundle.dat1 (V3 m ρ hT) c).arrAt_in 3 rfl _).trans (Bundle.A_eq1 (V3 m ρ hT) c 3)).trans (W4_of_ne m ρ hT c main_v5 (by decide)).symm
  | ⟨4, _⟩ => (W4_v6 m ρ hT c).symm

/-- Off the projection region's arrays nothing changed. -/
theorem rest1_eq (c : Dev nD) :
    (Pipeline.unscopedRest (Ix := Unit) (Name := ℕ) (U := Pipeline.UD sig nD τ) (Lvl := ℕ) spec1 c (V3 m ρ hT c) : sProp 𝕄)
      = Pipeline.unscopedRest spec1 c (V4 m ρ hT c) := by
  unfold Pipeline.unscopedRest
  refine bigSep_congr fun b hb => ?_
  have hne : b ≠ main_v6 := fun e => (Finset.mem_sdiff.mp hb).2 (Finset.mem_image.mpr ⟨4, Finset.mem_univ _, e.symm⟩)
  rw [show V4 m ρ hT c b = V3 m ρ hT c b from W4_of_ne m ρ hT c b hne]

set_option backward.isDefEq.respectTransparency.types false in
/-- The projection region over the thread state: entered from every unscoped buffer at `W3`, left at `W4`. -/
def reg1 : Pipeline.RegionSeg (pcfgs (F := F)) (adm m ρ) (pdats m ρ hT) () defs₀ 𝒱₀ L lv 1 where
  win := winFacts₀1
  block_pos := block_pos1
  stage_whole := stage_whole1
  K := PEmpty
  osem k := k.elim
  ho := Pipeline.OwnSemFacts.none _
  hbody c := (Bundle.body_obligation1 (V3 m ρ hT) c).loose
  hwaits := Pipeline.hwaits_of_owed_zero _ _ _ _ L lv 1 fun _ _ => rfl
  pre c := iprop(StableHlo.held (c : Thread nD τ) (Pipeline.ucRefs τ sig) (W3 m ρ hT c) ∗ R c)
  post c := iprop(Tₙ m ρ hT c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m ρ hT c)
  hentry c := by
    rw [Pipeline.ownSems0_none]
    have hsp := Pipeline.unscopedBufs_split₀ (Ix := Unit) (Name := ℕ) (U := Pipeline.UD sig nD τ) (Lvl := ℕ)
      (Pipeline.pin (pcfgs (F := F)) (adm m ρ)) 1 winFacts₀1.arr_unscoped c (V3 m ρ hT c)
    rw [Pipeline.unscopedBufs_held] at hsp
    have harr := (arrays1 c (pdats m ρ hT 1 c) rfl rfl rfl rfl (V3 m ρ hT c) ((pdats m ρ hT 1 c).arrAt · 0) (fun _ => rfl)).2
    iintro ⟨⟨Hub, Hp, HO⟩, -, -⟩
    ihave H := (Entails.of_eq hsp) $$ Hub
    icases H with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hT 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hT 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := Pipeline.UD sig nD τ) (Lvl := ℕ)
      (Pipeline.pin (pcfgs (F := F)) (adm m ρ)) 1 winFacts₀1.arr_unscoped c (V4 m ρ hT c)
    rw [Pipeline.unscopedBufs_held] at hsp
    have harr := (arrays1 c (pdats m ρ hT 1 c) rfl rfl rfl rfl (V4 m ρ hT c) ((pdats m ρ hT 1 c).arrAt · cfg1.N) (hF1 m ρ hT c)).1
    have hrest := rest1_eq m ρ hT c
    iintro ⟨Ha, HO, HY, Hrest⟩
    ihave Hab := harr $$ Ha
    ihave Hrest' := (Entails.of_eq hrest) $$ Hrest
    ihave Hub := (Entails.of_eq hsp.symm) $$ [Hab Hrest']
    · isplitl [Hab]; · iexact Hab
      iexact Hrest'
    imodintro
    isplitl [Hub HY]
    · isplitl [Hub]; · iexact Hub
      iexact HY
    unfold Pipeline.Dat.owesAt Pipeline.owesWithin
    icases HO with ⟨%W, -, HO⟩; iexists W; iexact HO

/-! ## The program as segments, and the launch -/

abbrev segs : List (Pipeline.Seg (pcfgs (F := F)) (adm m ρ) (pdats m ρ hT) () defs₀ 𝒱₀ L lv) :=
  [ .host (hseg hostOps0 hostOps0_sub hostOps0_fresh (W0 m ρ)),
    .region (reg0 m ρ hT),
    .host (hseg hostOps1 hostOps1_sub hostOps1_fresh (W2 m ρ hT)),
    .region (reg1 m ρ hT) ]
theorem main_run (c : Dev nD) : main (F := F) c = Pipeline.Seg.run (segs m ρ hT) :=
  (main_chain c).trans (by chain_rfl)

set_option backward.isDefEq.respectTransparency.types false in
/-- Under the range hypothesis on the token table, every weakly fair execution of the program terminates, nothing
    faulting, and every final memory holds each unscoped buffer at the last boundary's contents `W4`. -/
theorem run :
    θ_run defs (onTc (τ := τ) (main (F := F))) ⟨m, fun _ => 0, ρ⟩
      (fun r => ∀ c : Dev nD, ∀ b ∈ Pipeline.ucRefs τ sig, r.2.mem (((c : Thread nD τ)).1, b) = W4 m ρ hT c b) :=
  Pipeline.θ_run_regions_kit (pcfgs (F := F)) (adm m ρ) (pdats m ρ hT) () (cellOf_inj (adm m ρ)) embL defs₀ 𝒱₀ L lv m ρ main (segs m ρ hT)
    (fun c Q => by rw [main_run m ρ hT c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ))) (Pipeline.launchToks (Pipeline.pin (pcfgs (F := F)) (adm m ρ)) (cellOf_inj (adm m ρ))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hT)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ hT c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ hT c) s')
      isplitl [Hh] <;> iassumption)
    (hQ := fun s h c => h c)

/-! ## What the last boundary's contents are -/

theorem W4_arg (c : Dev nD) (b : Ref sig .tc) (h0 : b ∉ hostOps0_W) (h1 : b ∉ hostOps1_W) (hv1 : b ≠ main_v1) (hv6 : b ≠ main_v6) :
    W4 m ρ hT c (Proc.devRef .tc b) = m ((c : Thread nD τ).loc b) :=
  calc W4 m ρ hT c (Proc.devRef .tc b)
    _ = W3 m ρ hT c (Proc.devRef .tc b) := W4_of_ne m ρ hT c b hv6
    _ = W2 m ρ hT c (Proc.devRef .tc b) := StableHlo.after_of_writes_sub hostOps1 _ hostOps1_writes h1
    _ = W1 m ρ c (Proc.devRef .tc b) := W2_of_ne m ρ hT c b (fun w => by
          match w with
          | ⟨0, _⟩ => exact fun e => hv1 e.symm)
    _ = W0 m ρ c (Proc.devRef .tc b) := StableHlo.after_of_writes_sub hostOps0 _ hostOps0_writes h0
    _ = m ((c : Thread nD τ).loc b) := rfl

include hT in
/-- THE FRAME, under the range hypothesis on the token table: the program runs to the end, nothing faulting, and the
    four argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_arg m ρ hT c main_arg0 (by decide) (by decide) (by decide) (by decide)),
     (h c _ (mem_uc main_arg1 (by decide))).trans (W4_arg m ρ hT c main_arg1 (by decide) (by decide) (by decide) (by decide)),
     (h c _ (mem_uc main_arg2 (by decide))).trans (W4_arg m ρ hT c main_arg2 (by decide) (by decide) (by decide) (by decide)),
     (h c _ (mem_uc main_arg3 (by decide))).trans (W4_arg m ρ hT c main_arg3 (by decide) (by decide) (by decide) (by decide))⟩) (run m ρ hT)

/-- The token table the gather region prefetches is the token ids flattened. -/
theorem tbl_val : ((adm0 (F := F) m ρ).1 0 : S8192.Idx → BitVec 32)
    = shapeCast S8192 (m (((0 : Dev nD) : Thread nD τ).loc main_arg0)) shapeCasts_S4x2048_S8192 := by
  unfold adm0
  change V1 m ρ 0 main_v0 = _
  show StableHlo.after hostOps0 _ (Proc.devRef .tc main_v0) = _
  after_results
  rfl

/-- The vectors the projection region reads are the gathered rows regrouped by batch and time. -/
theorem V3_v2 (c : Dev nD) : (V3 m ρ hT c main_v2 : S4x2048x1024.Idx → Elt F .f32)
    = shapeCast S4x2048x1024 (V2 m ρ hT c main_v1 : S8192x1024.Idx → Elt F .f32) shapeCasts_S8192x1024_S4x2048x1024 := by
  show StableHlo.after hostOps1 _ (Proc.devRef .tc main_v2) = _
  after_results
  rfl

/-- The matrix it reads is the weight matrix transposed (and narrowed). -/
theorem V3_v4 (c : Dev nD) : (V3 m ρ hT c main_v4 : S1024x1024.Idx → Elt F .bf16)
    = truncf .bf16 (transpose S1024x1024 [1, 0] (V2 m ρ hT c main_arg2 : S1024x1024.Idx → Elt F .f32) transposes_S1024x1024_S1024x1024_1_0) bitsLt_bf16_f32 := by
  show StableHlo.after hostOps1 _ (Proc.devRef .tc main_v4) = _
  after_results

/-- The bias row it reads is the bias vector as one row. -/
theorem V3_v5 (c : Dev nD) : (V3 m ρ hT c main_v5 : S1x1024.Idx → Elt F .f32)
    = shapeCast S1x1024 (V2 m ρ hT c main_arg3 : S1024.Idx → Elt F .f32) shapeCasts_S1024_S1x1024 := by
  show StableHlo.after hostOps1 _ (Proc.devRef .tc main_v5) = _
  after_results
  rfl

theorem V2_arg (c : Dev nD) (b : Ref sig .tc) (h0 : b ∉ hostOps0_W) (hv1 : b ≠ main_v1) : V2 m ρ hT c b = m ((c : Thread nD τ).loc b) :=
  (W2_of_ne m ρ hT c b (fun w => by
    match w with
    | ⟨0, _⟩ => exact fun e => hv1 e.symm)).trans ((StableHlo.after_of_writes_sub hostOps0 _ hostOps0_writes h0).trans rfl)

/-- Token ids that address rows of the embedding table make a token table that does. -/
theorem tokOk_of_range (h : ∀ i, ((m (((0 : Dev nD) : Thread nD τ).loc main_arg0) : S4x2048.Idx → BitVec 32) i).toNat < 32000) :
    Gather.TokOk ((adm0 (F := F) m ρ).1 0) := by
  intro k
  rw [tbl_val m ρ]
  unfold shapeCast
  exact h _

end Cert.Kernel.Run

end
-- ==== Proof.KI.Bundle.lean ====
/- The body half of the frame of custom_call 1 (`cc1__bundle_proj_kernel`, pipeline `cfg1`, five windows on the
   grid [4, 8]), at a parameter `V`: the TensorCore's buffer contents when the region is entered. Per window its block
   at a point; what the body's one store leaves in the output window's staging buffer as a function of the four input
   blocks; the body's triple; the pipeline's proof data and its body obligation. -/
import proofs.«427312_j87016037416990_3_alg».proof.Proof.Gen.KernelIdeal.Launch
import proofs.«427312_j87016037416990_3_alg».proof.Proof.Gen.KernelIdeal.Skeleton
import proofs.«427312_j87016037416990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Bundle

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # custom_call 1, `cc1__bundle_proj_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the time tile of the token vectors) holds its block at every point, for any proof data whose
    array is `V`'s and whose body leaves the block in place: fetched there, the fetch put it; unfetched, the block
    index has not moved. The window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the eight rows before the time tile, of the same array) likewise. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the whole projection matrix, block index constant: fetched at the first point only) likewise. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the whole bias row, block index constant: fetched at the first point only) likewise. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [1, 256, 1024] buffer: the time tile's load, and the output's load and store. -/
abbrev r1_0 : Rect S1x256x1024 := Rect.unit (s := S1x256x1024) ![0, 0, 0] S1x256x1024.size inb_S1x256x1024_S1x256x1024_0_0_0
/-- Rows 5, 6, 7 of the [1, 8, 1024] buffer: the three rows just before the time tile. -/
abbrev r1_1 : Rect S1x8x1024 := Rect.unit (s := S1x8x1024) ![0, 5, 0] S1x3x1024.size inb_S1x8x1024_S1x3x1024_0_5_0
/-- The whole [1024, 1024] matrix. -/
abbrev r1_2 : Rect S1024x1024 := Rect.unit (s := S1024x1024) ![0, 0] S1024x1024.size inb_S1024x1024_S1024x1024_0_0
/-- The whole [1, 1024] bias row. -/
abbrev r1_3 : Rect S1x1024 := Rect.unit (s := S1x1024) ![0, 0] S1x1024.size inb_S1x1024_S1x1024_0_0

/-! ## What the body leaves in the output window's buffer -/

/-- Window 4's staging buffer after the body at grid point `i`, from the four input blocks: its one store, whose
    payload is the projected bundle of the time tile `x0`, the three rows `x1` holds before it (zeroed when the
    point's time coordinate is 0), the matrix `x2` and the bias row `x3`. -/
def out1_4 (i : grid1.Coords) (x0 : Vec F S1x256x1024 .f32) (x1 : Vec F S1x8x1024 .f32) (x2 : Vec F S1024x1024 .bf16) (x3 : Vec F S1x1024 .f32) : Vec F S1x256x1024 .f32 :=
  View.canon [⟨r1_0, k1_pay1 (k1_pay2 i (View.ld x1 r1_1) (View.ld x0 r1_0) (View.ld x2 r1_2) (View.ld x3 r1_3))⟩]

/-- The one store is of the whole buffer, so it covers it. -/
theorem cover1_4 (p0 : Vec F S1x256x1024 .f32) (y : S1x256x1024.Idx) :
    ∃ pc ∈ ([⟨r1_0, p0⟩] : List (View.Piece (Elt F) S1x256x1024 .f32)), y ∈ pc.1.set :=
  View.cover_of_tiled [⟨r1_0, p0⟩] S1x256x1024.size (by rfl) y

/-! ## The body's triple -/

set_option maxHeartbeats 1000000 in
/-- The kernel body at grid point `i` on whole staging memrefs, the four inputs' at read contents `x0 … x3` and the
    output's at anything (the body loads it once and uses nothing of the value), runs to the continuation holding the
    inputs' as they were and the output's at `out1_4` of the inputs'. -/
theorem sound_kernel1 (c : Dev nD) (E : Set ℕ) (i : grid1.Coords)
    (arg2 : Memref sig .tc .vmem S1x256x1024 .f32) (harg2 : arg2.IsWhole) (arg3 : Memref sig .tc .vmem S1x8x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x256x1024 .f32) (harg6 : arg6.IsWhole)
    (x0 : Vec F S1x256x1024 .f32) (x1 : Vec F S1x8x1024 .f32) (x2 : Vec F S1024x1024 .bf16) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 i x0 x1 x2 x3)) -∗ K ⟨⟩))
      ⊢ wp frame (wpE (defs₀ (F := F)) Variants.none c none) E (cc1__bundle_proj_kernel i arg2 harg2 arg3 harg3 arg4 harg4 arg5 harg5 arg6 harg6) K := by
  simp only [cc1__bundle_proj_kernel_eq_skeleton]; unfold cc1__bundle_proj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant the scoped rest
    and the generator register, untouched; nothing owed. Windows 0 and 1 read ONE array, the token vectors: they hold
    the two halves of its full share; every other window's array is held whole. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies at the point's
    coordinates; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's loop, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Bundle

end
-- ==== Proof.KI.Gather.lean ====
/-
  Region 0 of the idealized kernel program is a row gather. A table of 8192 words sits whole in scalar memory; an
  embedding table of 32000 rows of 1024 numbers sits whole in HBM; the output, 8192 rows of 1024 numbers, is written
  block by block, block i being rows 8i to 8i+7. At grid point i the body reads the words 8i, …, 8i+7 of the table,
  takes each as a row number of the embedding table, copies that row into row j of the block by a transfer of its own
  on semaphore cell 2+j, and waits for the eight transfers in order.

  This module states what the body does on separation-logic resources. All eight transfers are in flight before the
  first wait, so each one borrows only what it needs: its own row of the block (the rows are disjoint, and rejoin to
  the block once the waits are done) and its own read share of the embedding table (two words may name the same row,
  so the rows read need not be disjoint: the table is held as one read share per cell, rejoined at the end). The words
  must address rows of the embedding table, `TokOk`: from it each side condition the body assumes. After the body the
  block's buffer holds eight pieces, piece j the row the j-th word names, read back as one function (`out0_A_0`).
  The proof data `dat0` carries the invariant `ΦG`: the parts of `Pipeline.ΦD` (scoped rest, generator register,
  the eight cells at zero, the embedding table at its entry contents) and the table held whole at its contents.
-/
import proofs.«427312_j87016037416990_3_alg».proof.Proof.Gen.KernelIdeal.Launch
import proofs.«427312_j87016037416990_3_alg».proof.Proof.Gen.KernelIdeal.Skeleton
import proofs.«427312_j87016037416990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Transfers

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands the pipeline does not stage -/

/-- The embedding table, left in HBM, whole. -/
abbrev hbM0_0 : Memref sig .tc .hbm S32000x1024 .f32 := Memref.whole main_arg1
/-- The prefetched table of words, in scalar memory, whole. -/
abbrev tbM0_0 : Memref sig .tc .smem S8192 .i32 := Memref.whole main_v0
/-- Memref `M`'s buffer on core `c`: its contents type, -/
abbrev HbBuf0 (c : Dev nD) {sp : Space} {S : Shape} {e : EltTy} (M : Memref sig .tc sp S e) : Type := Buf (Elt F) (M.view.loc (c : Thread nD τ))
/-- it held whole at the full share at `f`, -/
abbrev hbPt0 (c : Dev nD) {sp : Space} {S : Shape} {e : EltTy} (M : Memref sig .tc sp S e) (f : HbBuf0 (F := F) c M) : sProp 𝕄 :=
  M.view.loc (c : Thread nD τ) ↦{fullShare} f
/-- and it held whole at the `n`-th read share of the full share: the full share halved `n` times, then the right half. -/
abbrev hbTok0 (c : Dev nD) {sp : Space} {S : Shape} {e : EltTy} (M : Memref sig .tc sp S e) (n : ℕ) (f : HbBuf0 (F := F) c M) : sProp 𝕄 :=
  M.view.loc (c : Thread nD τ) ↦{Transfers.shareTokN fullShare n} f
/-- What is left of the embedding table's full share once the read shares 2 to 9 are taken off it: the full share halved
    ten times, and the read shares 0 and 1. -/
def hbRest0 (c : Dev nD) (f : HbBuf0 (F := F) c hbM0_0) : sProp 𝕄 :=
  iprop((hbM0_0.view.loc (c : Thread nD τ) ↦{Transfers.shareDrop fullShare 10} f) ∗ hbTok0 c hbM0_0 0 f ∗ hbTok0 c hbM0_0 1 f)

/-- The embedding table whole at the full share is one read share per DMA cell (cells 2 to 9) and the rest:
    eight transfers read it at once, and two of them may read the same row. -/
theorem hbToks0 (c : Dev nD) (f : HbBuf0 (F := F) c hbM0_0) :
    hbPt0 c hbM0_0 f ⊣⊢ iprop(hbRest0 c f ∗ hbTok0 c hbM0_0 2 f ∗ hbTok0 c hbM0_0 3 f ∗ hbTok0 c hbM0_0 4 f ∗ hbTok0 c hbM0_0 5 f
        ∗ hbTok0 c hbM0_0 6 f ∗ hbTok0 c hbM0_0 7 f ∗ hbTok0 c hbM0_0 8 f ∗ hbTok0 c hbM0_0 9 f) := by
  have h := Transfers.pointsTo_toks_range (Ix := Unit) (Name := ℕ) (U := Pipeline.UD sig nD τ) (Lvl := ℕ) (nD := nD) (τ := τ) (sig := sig) (Val := Elt F)
    (ℓ := hbM0_0.view.loc (c : Thread nD τ)) (S := Finset.univ) (f := f) fullShare 10
  rw [BI.bigSep_eq_bigSepL_of_eq [0, 1, 2, 3, 4, 5, 6, 7, 8, 9] (by decide) (by decide)] at h
  have h : (hbPt0 c hbM0_0 f : sProp 𝕄) ⊣⊢ iprop((hbM0_0.view.loc (c : Thread nD τ) ↦{Transfers.shareDrop fullShare 10} f)
      ∗ hbTok0 c hbM0_0 0 f ∗ hbTok0 c hbM0_0 1 f ∗ hbTok0 c hbM0_0 2 f ∗ hbTok0 c hbM0_0 3 f ∗ hbTok0 c hbM0_0 4 f ∗ hbTok0 c hbM0_0 5 f
      ∗ hbTok0 c hbM0_0 6 f ∗ hbTok0 c hbM0_0 7 f ∗ hbTok0 c hbM0_0 8 f ∗ hbTok0 c hbM0_0 9 f) := h
  unfold hbRest0
  constructor
  · refine h.1.trans ?_
    iintro ⟨Hd, Ha, Hb, H2, H3, H4, H5, H6, H7, H8, H9⟩
    isplitl [Hd Ha Hb]
    · isplitl [Hd]; · iexact Hd
      isplitl [Ha]; · iexact Ha
      iexact Hb
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · refine BIBase.Entails.trans ?_ h.2
    iintro ⟨⟨Hd, Ha, Hb⟩, H2, H3, H4, H5, H6, H7, H8, H9⟩
    isplitl [Hd]; · iexact Hd
    isplitl [Ha]; · iexact Ha
    isplitl [Hb]; · iexact Hb
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## Eight rows written through squeezed slices are eight pieces -/

/-- A payload over a squeezed shape, indexed by the shape it was squeezed from. -/
abbrev unsq {Val : EltTy → Type} {s s' : Shape} {e : EltTy} (hq : s.Squeezes s') (w : s'.Idx → Val e) : s.Idx → Val e :=
  fun x => w ((Shape.reshapeEquiv hq.numel_eq).symm x)

/-- An unmasked write through a squeezed slice of a memref is the write of the re-indexed payload through the slice's
    rectangle (`View.write_reshape_univ`: a squeeze is a reshape). -/
theorem write_row {Val : EltTy → Type} {κ : Kind} {sp : Space} {s s' : Shape} {e : EltTy} (m : Memref sig κ sp s e) (R : Rect s)
    (hr : ∀ a, R.stride a = 1) (hq : R.shape.Squeezes s') (g : m.view.ty.Contents Val) (w : s'.Idx → Val e) :
    View.write Val ((m.slice R hr).squeeze s' hq).view g w Finset.univ
      = View.write Val (m.view.slice R) g (unsq hq w) Finset.univ :=
  View.write_reshape_univ (m.view.slice R) hq.numel_eq g w

/-- A write through a squeezed slice over a list of writes is that list with the slice's piece consed on. -/
theorem write_row_cons {Val : EltTy → Type} {κ : Kind} {sp : Space} {s s' : Shape} {e : EltTy} (m : Memref sig κ sp s e) (R : Rect s)
    (hr : ∀ a, R.stride a = 1) (hq : R.shape.Squeezes s') (f : m.view.ty.Contents Val) (L : List (View.Piece Val s e)) (w : s'.Idx → Val e) :
    View.write Val ((m.slice R hr).squeeze s' hq).view (m.view.writes Val f L) w Finset.univ
      = m.view.writes Val f (⟨R, unsq hq w⟩ :: L) :=
  write_row m R hr hq (m.view.writes Val f L) w

set_option maxHeartbeats 1000000 in
/-- The eight rows of an [8,1024] buffer written one after the other through squeezed row slices, row 0 first, are the
    list of their eight pieces, the last written first. -/
theorem rows8 {Val : EltTy → Type} (m : Memref sig .tc .vmem S8x1024 .f32)
    (h0 : ∀ a, (Rect.unit (s := S8x1024) ![0, 0] S1x1024.size inb_S8x1024_S1x1024_0_0).stride a = 1) (h1 : ∀ a, (Rect.unit (s := S8x1024) ![1, 0] S1x1024.size inb_S8x1024_S1x1024_1_0).stride a = 1) (h2 : ∀ a, (Rect.unit (s := S8x1024) ![2, 0] S1x1024.size inb_S8x1024_S1x1024_2_0).stride a = 1) (h3 : ∀ a, (Rect.unit (s := S8x1024) ![3, 0] S1x1024.size inb_S8x1024_S1x1024_3_0).stride a = 1) (h4 : ∀ a, (Rect.unit (s := S8x1024) ![4, 0] S1x1024.size inb_S8x1024_S1x1024_4_0).stride a = 1) (h5 : ∀ a, (Rect.unit (s := S8x1024) ![5, 0] S1x1024.size inb_S8x1024_S1x1024_5_0).stride a = 1) (h6 : ∀ a, (Rect.unit (s := S8x1024) ![6, 0] S1x1024.size inb_S8x1024_S1x1024_6_0).stride a = 1) (h7 : ∀ a, (Rect.unit (s := S8x1024) ![7, 0] S1x1024.size inb_S8x1024_S1x1024_7_0).stride a = 1)
    (g : m.view.ty.Contents Val) (w0 w1 w2 w3 w4 w5 w6 w7 : S1024.Idx → Val .f32) :
    (View.write Val ((m.slice (Rect.unit (s := S8x1024) ![7, 0] S1x1024.size inb_S8x1024_S1x1024_7_0) h7).squeeze S1024 squeezes_S1x1024_S1024).view (View.write Val ((m.slice (Rect.unit (s := S8x1024) ![6, 0] S1x1024.size inb_S8x1024_S1x1024_6_0) h6).squeeze S1024 squeezes_S1x1024_S1024).view (View.write Val ((m.slice (Rect.unit (s := S8x1024) ![5, 0] S1x1024.size inb_S8x1024_S1x1024_5_0) h5).squeeze S1024 squeezes_S1x1024_S1024).view (View.write Val ((m.slice (Rect.unit (s := S8x1024) ![4, 0] S1x1024.size inb_S8x1024_S1x1024_4_0) h4).squeeze S1024 squeezes_S1x1024_S1024).view (View.write Val ((m.slice (Rect.unit (s := S8x1024) ![3, 0] S1x1024.size inb_S8x1024_S1x1024_3_0) h3).squeeze S1024 squeezes_S1x1024_S1024).view (View.write Val ((m.slice (Rect.unit (s := S8x1024) ![2, 0] S1x1024.size inb_S8x1024_S1x1024_2_0) h2).squeeze S1024 squeezes_S1x1024_S1024).view (View.write Val ((m.slice (Rect.unit (s := S8x1024) ![1, 0] S1x1024.size inb_S8x1024_S1x1024_1_0) h1).squeeze S1024 squeezes_S1x1024_S1024).view (View.write Val ((m.slice (Rect.unit (s := S8x1024) ![0, 0] S1x1024.size inb_S8x1024_S1x1024_0_0) h0).squeeze S1024 squeezes_S1x1024_S1024).view g w0 Finset.univ) w1 Finset.univ) w2 Finset.univ) w3 Finset.univ) w4 Finset.univ) w5 Finset.univ) w6 Finset.univ) w7 Finset.univ)
      = m.view.writes Val g [⟨(Rect.unit (s := S8x1024) ![7, 0] S1x1024.size inb_S8x1024_S1x1024_7_0), unsq squeezes_S1x1024_S1024 w7⟩, ⟨(Rect.unit (s := S8x1024) ![6, 0] S1x1024.size inb_S8x1024_S1x1024_6_0), unsq squeezes_S1x1024_S1024 w6⟩, ⟨(Rect.unit (s := S8x1024) ![5, 0] S1x1024.size inb_S8x1024_S1x1024_5_0), unsq squeezes_S1x1024_S1024 w5⟩, ⟨(Rect.unit (s := S8x1024) ![4, 0] S1x1024.size inb_S8x1024_S1x1024_4_0), unsq squeezes_S1x1024_S1024 w4⟩, ⟨(Rect.unit (s := S8x1024) ![3, 0] S1x1024.size inb_S8x1024_S1x1024_3_0), unsq squeezes_S1x1024_S1024 w3⟩, ⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] := by
  have e0 := write_row_cons (Val := Val) m (Rect.unit (s := S8x1024) ![0, 0] S1x1024.size inb_S8x1024_S1x1024_0_0) h0 squeezes_S1x1024_S1024 g [] w0
  have e1 := write_row_cons (Val := Val) m (Rect.unit (s := S8x1024) ![1, 0] S1x1024.size inb_S8x1024_S1x1024_1_0) h1 squeezes_S1x1024_S1024 g [⟨(Rect.unit (s := S8x1024) ![0, 0] S1x1024.size inb_S8x1024_S1x1024_0_0), unsq squeezes_S1x1024_S1024 w0⟩] w1
  have e2 := write_row_cons (Val := Val) m (Rect.unit (s := S8x1024) ![2, 0] S1x1024.size inb_S8x1024_S1x1024_2_0) h2 squeezes_S1x1024_S1024 g [⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w2
  have e3 := write_row_cons (Val := Val) m (Rect.unit (s := S8x1024) ![3, 0] S1x1024.size inb_S8x1024_S1x1024_3_0) h3 squeezes_S1x1024_S1024 g [⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w3
  have e4 := write_row_cons (Val := Val) m (Rect.unit (s := S8x1024) ![4, 0] S1x1024.size inb_S8x1024_S1x1024_4_0) h4 squeezes_S1x1024_S1024 g [⟨(Rect.unit (s := S8x1024) ![3, 0] S1x1024.size inb_S8x1024_S1x1024_3_0), unsq squeezes_S1x1024_S1024 w3⟩, ⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w4
  have e5 := write_row_cons (Val := Val) m (Rect.unit (s := S8x1024) ![5, 0] S1x1024.size inb_S8x1024_S1x1024_5_0) h5 squeezes_S1x1024_S1024 g [⟨(Rect.unit (s := S8x1024) ![4, 0] S1x1024.size inb_S8x1024_S1x1024_4_0), unsq squeezes_S1x1024_S1024 w4⟩, ⟨(Rect.unit (s := S8x1024) ![3, 0] S1x1024.size inb_S8x1024_S1x1024_3_0), unsq squeezes_S1x1024_S1024 w3⟩, ⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w5
  have e6 := write_row_cons (Val := Val) m (Rect.unit (s := S8x1024) ![6, 0] S1x1024.size inb_S8x1024_S1x1024_6_0) h6 squeezes_S1x1024_S1024 g [⟨(Rect.unit (s := S8x1024) ![5, 0] S1x1024.size inb_S8x1024_S1x1024_5_0), unsq squeezes_S1x1024_S1024 w5⟩, ⟨(Rect.unit (s := S8x1024) ![4, 0] S1x1024.size inb_S8x1024_S1x1024_4_0), unsq squeezes_S1x1024_S1024 w4⟩, ⟨(Rect.unit (s := S8x1024) ![3, 0] S1x1024.size inb_S8x1024_S1x1024_3_0), unsq squeezes_S1x1024_S1024 w3⟩, ⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w6
  have e7 := write_row_cons (Val := Val) m (Rect.unit (s := S8x1024) ![7, 0] S1x1024.size inb_S8x1024_S1x1024_7_0) h7 squeezes_S1x1024_S1024 g [⟨(Rect.unit (s := S8x1024) ![6, 0] S1x1024.size inb_S8x1024_S1x1024_6_0), unsq squeezes_S1x1024_S1024 w6⟩, ⟨(Rect.unit (s := S8x1024) ![5, 0] S1x1024.size inb_S8x1024_S1x1024_5_0), unsq squeezes_S1x1024_S1024 w5⟩, ⟨(Rect.unit (s := S8x1024) ![4, 0] S1x1024.size inb_S8x1024_S1x1024_4_0), unsq squeezes_S1x1024_S1024 w4⟩, ⟨(Rect.unit (s := S8x1024) ![3, 0] S1x1024.size inb_S8x1024_S1x1024_3_0), unsq squeezes_S1x1024_S1024 w3⟩, ⟨(Rect.unit (s := S8x1024) ![2, 0] S1x1024.size inb_S8x1024_S1x1024_2_0), unsq squeezes_S1x1024_S1024 w2⟩, ⟨(Rect.unit (s := S8x1024) ![1, 0] S1x1024.size inb_S8x1024_S1x1024_1_0), unsq squeezes_S1x1024_S1024 w1⟩, ⟨(Rect.unit (s := S8x1024) ![0, 0] S1x1024.size inb_S8x1024_S1x1024_0_0), unsq squeezes_S1x1024_S1024 w0⟩] w7
  rw [← e7, ← e6, ← e5, ← e4, ← e3, ← e2, ← e1, ← e0]
  rfl

/-! ## The kernel's own semaphores, the operand left in HBM, the invariant -/

section Region
variable (V : (c : Dev nD) → (b : Ref sig .tc) → Buf (Elt F) ((c : Thread nD τ).loc b))
variable (a : (pcfg0 (F := F)).Adm)

/-- The body's own DMA semaphores, cell by cell: cells 2 to 9 of the pool, one per row of the block. -/
abbrev osem0 : Fin 8 → SemLoc sig := fun j => (![SemLoc.dma 2, SemLoc.dma 3, SemLoc.dma 4, SemLoc.dma 5, SemLoc.dma 6, SemLoc.dma 7, SemLoc.dma 8, SemLoc.dma 9] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5, 6, 7] (by decide) (by decide)]; rfl
/-- The HBM operand the body's transfers read: unscoped, no window's array, no prefetched table. -/
def H0 : Finset (Ref sig .tc) := {main_arg1}
theorem H0_sub : H0 ⊆ Pipeline.restRefsP sig pre0 spec0 := by decide
/-- Its points-to at the region-entry contents. -/
theorem hbmPts0_eq (c : Dev nD) :
    (bigSep H0 (fun b => ((c : Thread nD τ).loc b) ↦{fullShare} V c b) : sProp 𝕄) = iprop(hbPt0 c hbM0_0 (V c main_arg1)) := by
  rw [BI.bigSep_eq_bigSepL_of_eq [main_arg1] (by decide) (by decide)]; rfl

/-- The invariant of a body with transfers of its own, conjunct by conjunct: the scoped rest at some contents, the
    generator register at some state, the eight own cells at zero, the embedding table at its region-entry contents. -/
theorem PhiD0_eq (c : Dev nD) :
    (Pipeline.ΦD osem0 spec0 H0 V c : sProp 𝕄)
      = iprop(Pipeline.scopedRest (Ix := Unit) (Name := ℕ) (U := Pipeline.UD sig nD τ) (Lvl := ℕ) (Val := Elt F) spec0 c ∗ (∃ r, prngReg c r)
          ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_0 (V c main_arg1))) := by
  rw [Pipeline.ΦD_eq, ownSems00_eq, hbmPts0_eq]

/-- Every word of the table addresses a row of the embedding table. -/
def TokOk (tbl : S8192.Idx → BitVec 32) : Prop := ∀ k, (tbl k).toNat < 32000

/-- The region invariant: the four parts of `Pipeline.ΦD`, and the prefetched table held whole at the full share at its
    contents `a.1`. -/
def ΦG (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) a.1)

/-- The one prefetched table's points-to. -/
theorem prefHeld0_eq (c : Dev nD) :
    (Pipeline.prefHeld (Ix := Unit) (Name := ℕ) (U := Pipeline.UD sig nD τ) (Lvl := ℕ) pre0 c (fun _ => fullShare) a.1 : sProp 𝕄)
      = iprop(hbPt0 c tbM0_0 (a.1 0)) := by
  unfold Pipeline.prefHeld
  exact bigSep_W0 _

/-! ## The side conditions the body assumes, from the table's range -/

/-- A row index below 32000 and column 0 place a [1,1024] block inside the [32000,1024] table. -/
theorem offs_inb (v : BitVec 32) (h : v.toNat < 32000) :
    ∀ a, (![v.toNat, 0] : Fin 2 → Nat) a + S1x1024.size a ≤ S32000x1024.size a := by
  intro a
  fin_cases a
  · show v.toNat + 1 ≤ 32000
    omega
  · show 0 + 1024 ≤ 1024
    omega

theorem chk1_of (v : BitVec 32) (h : v.toNat < 32000) : k0_chk1 v := by unfold k0_chk1; exact ⟨offs_inb v h, offs_inb v h⟩
theorem chk2_of (v : BitVec 32) (h : v.toNat < 32000) : k0_chk2 v := by unfold k0_chk2; exact ⟨offs_inb v h, offs_inb v h⟩
theorem chk3_of (v : BitVec 32) (h : v.toNat < 32000) : k0_chk3 v := by unfold k0_chk3; exact ⟨offs_inb v h, offs_inb v h⟩
theorem chk4_of (v : BitVec 32) (h : v.toNat < 32000) : k0_chk4 v := by unfold k0_chk4; exact ⟨offs_inb v h, offs_inb v h⟩
theorem chk5_of (v : BitVec 32) (h : v.toNat < 32000) : k0_chk5 v := by unfold k0_chk5; exact ⟨offs_inb v h, offs_inb v h⟩
theorem chk6_of (v : BitVec 32) (h : v.toNat < 32000) : k0_chk6 v := by unfold k0_chk6; exact ⟨offs_inb v h, offs_inb v h⟩
theorem chk7_of (v : BitVec 32) (h : v.toNat < 32000) : k0_chk7 v := by unfold k0_chk7; exact ⟨offs_inb v h, offs_inb v h⟩
theorem chk8_of (v : BitVec 32) (h : v.toNat < 32000) : k0_chk8 v := by unfold k0_chk8; exact offs_inb v h

/-- A word read off the table held whole is an entry of the table, so it is in range when every entry is. -/
theorem word_ok (c : Dev nD) (ft : HbBuf0 (F := F) c tbM0_0) (hT : TokOk ft) (r : LoadRect S8192) (x : r.shape.Idx) :
    (tbM0_0.view.readAt (Elt F) r ft x : BitVec 32).toNat < 32000 := by
  rw [View.readAt_apply, View.read_apply]
  simp only [cast_eq]
  exact hT _

/-! ## The kernel body on any staging memref: a subtype the run finds -/

set_option maxHeartbeats 4000000 in
set_option sl_exec.dmaWindow true in
set_option sl_exec.dmaWindowSet true in
/-- What the body's eight transfers leave in the output's staging memref, as pieces (last first), WITH the proof that on a
    whole staging memref at any contents, the table whole at `ft0`, the embedding table whole at `fh0`, the eight cells at
    zero and the core's `owes`, given that each word the body reads addresses a row of the embedding table, the body runs
    to the continuation holding the table, the embedding table and the cells as they were, the waits recorded, and the
    output's buffer with its pieces written. Each transfer lends its own row of the staging memref and its own read share
    of the embedding table (two words may name one row), and its wait takes them back. -/
noncomputable def kernelRun0_A (c : Dev nD) (i : grid0.Coords) (arg3 : Memref sig .tc .vmem S8x1024 .f32) (harg3 : arg3.IsWhole)
    (ft0 : HbBuf0 (F := F) c tbM0_0) (fh0 : HbBuf0 (F := F) c hbM0_0)
    (k0_hw1 : k0_chk1 (tbM0_0.view.readAt (Elt F) (Rect.unit (s := S8192) (k0_off1 i) S1.size (k0_off1_inb i)).toLoadRect ft0 (Shape.Idx.first (numel1_S1.symm ▸ Nat.one_pos))))
    (k0_hw2 : k0_chk2 (tbM0_0.view.readAt (Elt F) (Rect.unit (s := S8192) (k0_off3 i) S1.size (k0_off3_inb i)).toLoadRect ft0 (Shape.Idx.first (numel1_S1.symm ▸ Nat.one_pos))))
    (k0_hw3 : k0_chk3 (tbM0_0.view.readAt (Elt F) (Rect.unit (s := S8192) (k0_off5 i) S1.size (k0_off5_inb i)).toLoadRect ft0 (Shape.Idx.first (numel1_S1.symm ▸ Nat.one_pos))))
    (k0_hw4 : k0_chk4 (tbM0_0.view.readAt (Elt F) (Rect.unit (s := S8192) (k0_off7 i) S1.size (k0_off7_inb i)).toLoadRect ft0 (Shape.Idx.first (numel1_S1.symm ▸ Nat.one_pos))))
    (k0_hw5 : k0_chk5 (tbM0_0.view.readAt (Elt F) (Rect.unit (s := S8192) (k0_off9 i) S1.size (k0_off9_inb i)).toLoadRect ft0 (Shape.Idx.first (numel1_S1.symm ▸ Nat.one_pos))))
    (k0_hw6 : k0_chk6 (tbM0_0.view.readAt (Elt F) (Rect.unit (s := S8192) (k0_off11 i) S1.size (k0_off11_inb i)).toLoadRect ft0 (Shape.Idx.first (numel1_S1.symm ▸ Nat.one_pos))))
    (k0_hw7 : k0_chk7 (tbM0_0.view.readAt (Elt F) (Rect.unit (s := S8192) (k0_off13 i) S1.size (k0_off13_inb i)).toLoadRect ft0 (Shape.Idx.first (numel1_S1.symm ▸ Nat.one_pos))))
    (k0_hw8 : k0_chk8 (tbM0_0.view.readAt (Elt F) (Rect.unit (s := S8192) (k0_off15 i) S1.size (k0_off15_inb i)).toLoadRect ft0 (Shape.Idx.first (numel1_S1.symm ▸ Nat.one_pos)))) :
    { L0 : List (View.Piece (Elt F) S8x1024 .f32) //
      ∀ (W : Waits sig Unit) (K : PUnit → sProp 𝕄),
        iprop((∃ d, owns (c : Thread nD τ) arg3 fullShare d) ∗ hbPt0 c tbM0_0 ft0
            ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
            ∗ hbPt0 c hbM0_0 fh0 ∗ owes (c : Thread nD τ) 0 W
            ∗ (iprop((∃ f, arg3.view.loc (c : Thread nD τ) ↦[arg3.view.set]{fullShare} arg3.view.writes (Elt F) f L0) ∗ hbPt0 c tbM0_0 ft0
                ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
                ∗ hbPt0 c hbM0_0 fh0 ∗ (∃ W', owes (c : Thread nD τ) 0 W')) -∗ K ⟨⟩))
          ⊢ wp frame (wpE (defs₀ (F := F)) Variants.none c none) Set.univ (cc0__gather_kernel i (Memref.whole main_v0) (Memref.isWhole_whole _) (Memref.whole main_arg1) (Memref.isWhole_whole _) arg3 harg3 cc0_scratch0) K } := by
  refine ⟨?_, fun W K => ?run⟩
  case run =>
    simp only [cc0__gather_kernel_eq_skeleton]; unfold cc0__gather_kernel_skel
    simp only [k0_part1_eq_skeleton, k0_part2_eq_skeleton, k0_part3_eq_skeleton]
    unfold owns
    iintro ⟨⟨%d1, %f1, -, H1⟩, Ht, Hq0, Hq1, Hq2, Hq3, Hq4, Hq5, Hq6, Hq7, Hh0, HW, Hk⟩
    ihave Hh := (hbToks0 c fh0).1 $$ Hh0
    icases Hh with ⟨Hr, T0, T1, T2, T3, T4, T5, T6, T7⟩
    sl_exec (disch := first | sl_exact k0_hw1 | sl_exact k0_hw2 | sl_exact k0_hw3 | sl_exact k0_hw4 | sl_exact k0_hw5 | sl_exact k0_hw6 | sl_exact k0_hw7 | sl_exact k0_hw8)
    sl_step
    ihave H1' := (BIBase.Entails.of_eq (congrArg (fun x => (arg3.view.loc (c : Thread nD τ) ↦[arg3.view.set]{fullShare} x : sProp 𝕄)) (rows8 (Val := Elt F) arg3 _ _ _ _ _ _ _ _ f1 _ _ _ _ _ _ _ _))) $$ H1
    iapply Hk
    isplitl [H1']; · iexists f1; iexact H1'
    isplitl [Ht]; · iexact Ht
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hr T0 T1 T2 T3 T4 T5 T6 T7]
    · iapply (hbToks0 c fh0).2
      isplitl [Hr]; · iexact Hr
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexists _; iexact HW

end Region

/-! ## What the run leaves in the output's staging buffer -/

section Region
variable (V : (c : Dev nD) → (b : Ref sig .tc) → Buf (Elt F) ((c : Thread nD τ).loc b))
variable (a : (pcfg0 (F := F)).Adm)

/-- One staging buffer of the output window, through which its contents are stated (the choice does not matter). -/
abbrev VO0_0 : View sig .tc .vmem S8x1024 .f32 := (Memref.whole cc0_stg0_0 : Memref sig .tc .vmem S8x1024 .f32).view
/-- The output window's current staging memref at point `t`, spelled as the pipeline passes it, and its wholeness. -/
abbrev ms0_0 (t : Fin (cfg0 a).N) : Memref sig .tc .vmem S8x1024 .f32 := spec0_0.stage ((cfg0 a).slots t 0)
abbrev hs0_0 (t : Fin (cfg0 a).N) : (ms0_0 a t).IsWhole := hstage0_0 (((cfg0 a).slots t 0).cast nbuf0_0)

/-- The run's eight pieces are the eight rows of the block: they tile it, so they cover it. -/
theorem cover0_A_0 (c : Dev nD) (i : grid0.Coords) (arg3 : Memref sig .tc .vmem S8x1024 .f32) (harg3 : arg3.IsWhole)
    (ft0 : HbBuf0 (F := F) c tbM0_0) (fh0 : HbBuf0 (F := F) c hbM0_0)
    (k0_hw1 : k0_chk1 (tbM0_0.view.readAt (Elt F) (Rect.unit (s := S8192) (k0_off1 i) S1.size (k0_off1_inb i)).toLoadRect ft0 (Shape.Idx.first (numel1_S1.symm ▸ Nat.one_pos))))
    (k0_hw2 : k0_chk2 (tbM0_0.view.readAt (Elt F) (Rect.unit (s := S8192) (k0_off3 i) S1.size (k0_off3_inb i)).toLoadRect ft0 (Shape.Idx.first (numel1_S1.symm ▸ Nat.one_pos))))
    (k0_hw3 : k0_chk3 (tbM0_0.view.readAt (Elt F) (Rect.unit (s := S8192) (k0_off5 i) S1.size (k0_off5_inb i)).toLoadRect ft0 (Shape.Idx.first (numel1_S1.symm ▸ Nat.one_pos))))
    (k0_hw4 : k0_chk4 (tbM0_0.view.readAt (Elt F) (Rect.unit (s := S8192) (k0_off7 i) S1.size (k0_off7_inb i)).toLoadRect ft0 (Shape.Idx.first (numel1_S1.symm ▸ Nat.one_pos))))
    (k0_hw5 : k0_chk5 (tbM0_0.view.readAt (Elt F) (Rect.unit (s := S8192) (k0_off9 i) S1.size (k0_off9_inb i)).toLoadRect ft0 (Shape.Idx.first (numel1_S1.symm ▸ Nat.one_pos))))
    (k0_hw6 : k0_chk6 (tbM0_0.view.readAt (Elt F) (Rect.unit (s := S8192) (k0_off11 i) S1.size (k0_off11_inb i)).toLoadRect ft0 (Shape.Idx.first (numel1_S1.symm ▸ Nat.one_pos))))
    (k0_hw7 : k0_chk7 (tbM0_0.view.readAt (Elt F) (Rect.unit (s := S8192) (k0_off13 i) S1.size (k0_off13_inb i)).toLoadRect ft0 (Shape.Idx.first (numel1_S1.symm ▸ Nat.one_pos))))
    (k0_hw8 : k0_chk8 (tbM0_0.view.readAt (Elt F) (Rect.unit (s := S8192) (k0_off15 i) S1.size (k0_off15_inb i)).toLoadRect ft0 (Shape.Idx.first (numel1_S1.symm ▸ Nat.one_pos)))) (y : S8x1024.Idx) :
    ∃ pc ∈ (kernelRun0_A c i arg3 harg3 ft0 fh0 k0_hw1 k0_hw2 k0_hw3 k0_hw4 k0_hw5 k0_hw6 k0_hw7 k0_hw8).1, y ∈ pc.1.set :=
  View.cover_of_tiledL (kernelRun0_A c i arg3 harg3 ft0 fh0 k0_hw1 k0_hw2 k0_hw3 k0_hw4 k0_hw5 k0_hw6 k0_hw7 k0_hw8).1 S1x1024.size (by sl_kernel_rfl) y

/-- What the run leaves in the output's staging buffer: its pieces read back over junk. -/
def out0_A_0 (c : Dev nD) (i : grid0.Coords) (arg3 : Memref sig .tc .vmem S8x1024 .f32) (harg3 : arg3.IsWhole)
    (ft0 : HbBuf0 (F := F) c tbM0_0) (fh0 : HbBuf0 (F := F) c hbM0_0)
    (k0_hw1 : k0_chk1 (tbM0_0.view.readAt (Elt F) (Rect.unit (s := S8192) (k0_off1 i) S1.size (k0_off1_inb i)).toLoadRect ft0 (Shape.Idx.first (numel1_S1.symm ▸ Nat.one_pos))))
    (k0_hw2 : k0_chk2 (tbM0_0.view.readAt (Elt F) (Rect.unit (s := S8192) (k0_off3 i) S1.size (k0_off3_inb i)).toLoadRect ft0 (Shape.Idx.first (numel1_S1.symm ▸ Nat.one_pos))))
    (k0_hw3 : k0_chk3 (tbM0_0.view.readAt (Elt F) (Rect.unit (s := S8192) (k0_off5 i) S1.size (k0_off5_inb i)).toLoadRect ft0 (Shape.Idx.first (numel1_S1.symm ▸ Nat.one_pos))))
    (k0_hw4 : k0_chk4 (tbM0_0.view.readAt (Elt F) (Rect.unit (s := S8192) (k0_off7 i) S1.size (k0_off7_inb i)).toLoadRect ft0 (Shape.Idx.first (numel1_S1.symm ▸ Nat.one_pos))))
    (k0_hw5 : k0_chk5 (tbM0_0.view.readAt (Elt F) (Rect.unit (s := S8192) (k0_off9 i) S1.size (k0_off9_inb i)).toLoadRect ft0 (Shape.Idx.first (numel1_S1.symm ▸ Nat.one_pos))))
    (k0_hw6 : k0_chk6 (tbM0_0.view.readAt (Elt F) (Rect.unit (s := S8192) (k0_off11 i) S1.size (k0_off11_inb i)).toLoadRect ft0 (Shape.Idx.first (numel1_S1.symm ▸ Nat.one_pos))))
    (k0_hw7 : k0_chk7 (tbM0_0.view.readAt (Elt F) (Rect.unit (s := S8192) (k0_off13 i) S1.size (k0_off13_inb i)).toLoadRect ft0 (Shape.Idx.first (numel1_S1.symm ▸ Nat.one_pos))))
    (k0_hw8 : k0_chk8 (tbM0_0.view.readAt (Elt F) (Rect.unit (s := S8192) (k0_off15 i) S1.size (k0_off15_inb i)).toLoadRect ft0 (Shape.Idx.first (numel1_S1.symm ▸ Nat.one_pos)))) : Vec F S8x1024 .f32 :=
  VO0_0.read (Elt F) (VO0_0.writes (Elt F) VO0_0.junk (kernelRun0_A c i arg3 harg3 ft0 fh0 k0_hw1 k0_hw2 k0_hw3 k0_hw4 k0_hw5 k0_hw6 k0_hw7 k0_hw8).1)

/-- What the output's staging buffer holds after the body at point `t`: the run's contents at the point's memref, the
    table's contents `a.1 0` and the embedding table's region-entry contents, the side conditions from the table's range. -/
def outsAt0 (hT : TokOk (a.1 0)) (c : Dev nD) (t : Fin (cfg0 a).N) : Vec F S8x1024 .f32 :=
  out0_A_0 c (grid0.coords t) (ms0_0 a t) (hs0_0 a t) (a.1 0) (V c main_arg1) (chk1_of _ (word_ok c (a.1 0) hT _ _)) (chk2_of _ (word_ok c (a.1 0) hT _ _)) (chk3_of _ (word_ok c (a.1 0) hT _ _)) (chk4_of _ (word_ok c (a.1 0) hT _ _)) (chk5_of _ (word_ok c (a.1 0) hT _ _)) (chk6_of _ (word_ok c (a.1 0) hT _ _)) (chk7_of _ (word_ok c (a.1 0) hT _ _)) (chk8_of _ (word_ok c (a.1 0) hT _ _))

/-! ## The pipeline's proof data -/

/-- The proof data of pipeline 0 on core `c`: the array as the region finds it (`V`); after the body at point `t` the
    output's buffer at `outsAt0`; the invariant `ΦG`; nothing owed; full shares. -/
def dat0 (hT : TokOk (a.1 0)) (c : Dev nD) : Dat τ (Elt F) Unit ℕ (Pipeline.UD sig nD τ) ℕ (cfg0 a) c where
  A w := V c (Pipeline.arrRef spec0 w)
  after w t := match w with
    | ⟨0, _⟩ => outsAt0 V a hT c t
  Φ _ := ΦG V a c
  q _ := fullShare
  owed _ := 0

/-- The proof data's arrays are the region-entry contents. -/
theorem A_eq0 (hT : TokOk (a.1 0)) (c : Dev nD) (w : Fin (cfg0 a).W) : (dat0 V a hT c).A w = V c (Pipeline.arrRef spec0 w) := by
  dsimp only [dat0]

/-- What the body leaves in the output window. -/
theorem after0_0 (hT : TokOk (a.1 0)) (c : Dev nD) (t : Fin (cfg0 a).N) : (dat0 V a hT c).after 0 t = outsAt0 V a hT c t := by
  dsimp only [dat0]
  rfl

end Region

end Cert.KernelIdeal.Gather

end
-- ==== Proof.KI.GatherBody.lean ====
/-
  The body obligation of region 0, the row gather (KI/Gather.lean): at every grid point the region invariant hands the
  body the table of words, the embedding table and its eight semaphore cells at zero; the body's run applies at the
  words of the table's contents, each addressing a row of the embedding table; it gives everything back as it was,
  records its eight waits, and leaves the block's buffer at the eight gathered rows.
-/
import proofs.«427312_j87016037416990_3_alg».proof.Proof.KI.Gather

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body obligation, at a generic point -/

section Body
variable (V : (c : Dev nD) → (b : Ref sig .tc) → Buf (Elt F) ((c : Thread nD τ).loc b))
variable (a : (pcfg0 (F := F)).Adm)

/-- The kernel body at point `t`, on what the pipeline calls it with: the table and the embedding table whole, the output
    window's current staging memref, the eight semaphores. -/
abbrev bodyAt0 (t : Fin (cfg0 a).N) : Prog (TpuEff nD τ sig (Elt F) Λ₀ .tc) PUnit :=
  cc0__gather_kernel (grid0.coords t) (Memref.whole main_v0) (Memref.isWhole_whole _) (Memref.whole main_arg1) (Memref.isWhole_whole _) (spec0_0.stage ((cfg0 a).slots t 0)) (hstage0_0 (((cfg0 a).slots t 0).cast nbuf0_0)) cc0_scratch0

/-- What the body is called with at point `t`, -/
def bodyPre0 (hT : TokOk (a.1 0)) (c : Dev nD) (t : Fin (cfg0 a).N) : sProp 𝕄 :=
  iprop((dat0 V a hT c).Φ t.castSucc ∗ (dat0 V a hT c).owesAt () t.castSucc
    ∗ (∃ d, owns (c : Thread nD τ) (ms0_0 a t) fullShare ((dat0 V a hT c).before 0 t d)))

/-- and what it returns. -/
def bodyPost0 (hT : TokOk (a.1 0)) (c : Dev nD) (t : Fin (cfg0 a).N) : sProp 𝕄 :=
  iprop((dat0 V a hT c).Φ t.succ ∗ (dat0 V a hT c).owesAt () t.succ
    ∗ owns (c : Thread nD τ) (ms0_0 a t) fullShare ((dat0 V a hT c).after 0 t))

/-- The body at any point: the invariant hands the run the table, the embedding table, the eight cells at zero; the run
    applies at the words of the table's contents, each in range by `hT`; everything comes back as it was, the core's
    `owes` with this point's waits, the output's buffer at the run's pieces read back. -/
theorem sound_body0 (hT : TokOk (a.1 0)) (c : Dev nD) (t : Fin (cfg0 a).N) :
    bodyPre0 V a hT c t ⊢ wp frame (wpE (defs₀ (F := F)) Variants.none c none) Set.univ (bodyAt0 a t) (fun _ => bodyPost0 V a hT c t) := by
  unfold bodyPre0 bodyPost0 bodyAt0
  rw [show (dat0 V a hT c).Φ t.succ = (dat0 V a hT c).Φ t.castSucc from rfl, after0_0]
  rw [show (dat0 V a hT c).Φ t.castSucc = ΦG V a c from rfl]
  unfold ΦG
  rw [PhiD0_eq, prefHeld0_eq]
  unfold Dat.owesAt Pipeline.owesWithin
  rw [show (dat0 V a hT c).owed t.castSucc = 0 from rfl, show (dat0 V a hT c).owed t.succ = 0 from rfl]
  unfold outsAt0
  unfold out0_A_0
  iintro ⟨⟨⟨HR, Hg, ⟨Hq0, Hq1, Hq2, Hq3, Hq4, Hq5, Hq6, Hq7⟩, Hh0⟩, Ht⟩, ⟨%W, -, HW⟩, ⟨%d0, H0⟩⟩
  iapply ((kernelRun0_A c (grid0.coords t) _ _ (a.1 0) (V c main_arg1) (chk1_of _ (word_ok c (a.1 0) hT _ _)) (chk2_of _ (word_ok c (a.1 0) hT _ _)) (chk3_of _ (word_ok c (a.1 0) hT _ _)) (chk4_of _ (word_ok c (a.1 0) hT _ _)) (chk5_of _ (word_ok c (a.1 0) hT _ _)) (chk6_of _ (word_ok c (a.1 0) hT _ _)) (chk7_of _ (word_ok c (a.1 0) hT _ _)) (chk8_of _ (word_ok c (a.1 0) hT _ _))).2 W _)
  isplitl [H0]; · iexists _; iexact H0
  isplitl [Ht]; · iexact Ht
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨⟨%e1, H1⟩, Ht, Hq0, Hq1, Hq2, Hq3, Hq4, Hq5, Hq6, Hq7, Hh0, ⟨%W', HW'⟩⟩
  isplitl [HR Hg Hq0 Hq1 Hq2 Hq3 Hq4 Hq5 Hq6 Hq7 Hh0 Ht]
  · isplitl [HR Hg Hq0 Hq1 Hq2 Hq3 Hq4 Hq5 Hq6 Hq7 Hh0]
    · isplitl [HR]; · iexact HR
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    iexact Ht
  isplitl [HW']
  · iexists W'; isplitr; · ipureintro; exact fun _ _ => Or.inl trivial
    iexact HW'
  unfold owns; iexists _; isplitr
  swap; · iexact H1
  ipureintro; exact View.read_writes_of_cover _ _ _ _ _ (cover0_A_0 c _ _ _ _ _ _ _ _ _ _ _ _ _)

/-- The library's body obligation, at every point. -/
theorem body_obligation0 (hT : TokOk (a.1 0)) (c : Dev nD) :
    BodyObligation (dat0 (F := F) V a hT c) (defs₀ (F := F)) Variants.none () Set.univ := fun t => by
  rw [bigSep_W0, bigSep_W0]
  exact sound_body0 V a hT c t

end Body

end Cert.KernelIdeal.Gather

end
-- ==== Proof.KI.Run.lean ====
import proofs.«427312_j87016037416990_3_alg».proof.Proof.Gen.KernelIdeal.Launch
import proofs.«427312_j87016037416990_3_alg».proof.Proof.Gen.KernelIdeal.Skeleton
import proofs.«427312_j87016037416990_3_alg».proof.Proof.Gen.KernelIdeal.Points
import proofs.«427312_j87016037416990_3_alg».proof.Proof.Gen.KernelIdeal.Regions
import proofs.«427312_j87016037416990_3_alg».proof.Proof.KI.Bundle
import proofs.«427312_j87016037416990_3_alg».proof.Proof.KI.GatherBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary of the program -/

/-- Core `c`'s buffers at launch. -/
abbrev W0 : Dev nD → Valuation τ sig (Elt F) := fun c b => (s₀ m ρ).mem ((c : Dev nD), b)
/-- After the first host stretch (the token ids flattened): the gather region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The flat table of token ids the gather region prefetches, as it stands at that region's entry. -/
def adm0 : (pcfg0 (F := F)).Adm := ⟨fun k => match k with | ⟨0, _⟩ => V1 m ρ 0 main_v0, trivial⟩

/-- Every pipeline's admissible table contents: the gather's is the flat token table, the projection has none. -/
def adm : (p : Fin 2) → (pcfgs (F := F) p).Adm
  | ⟨0, _⟩ => adm0 m ρ
  | ⟨1, _⟩ => cfg1.toPCfg_adm

-- Every word of the token table addresses a row of the embedding table: what the gather's row copies need.
variable (hT : Gather.TokOk ((adm0 (F := F) m ρ).1 0))

/-- At the gather region's exit: its output array holds what the pipeline's write-backs leave, every other buffer as
    entered. -/
def W2 (c : Dev nD) : Valuation τ sig (Elt F) :=
  Pipeline.withArrays spec0 c (W1 m ρ c) fun w => (Gather.dat0 (V1 m ρ) (adm0 m ρ) hT c).arrAt w (cfg0 (adm0 m ρ)).N
theorem W2_arr (c : Dev nD) (w : Fin (cfg0 (adm0 (F := F) m ρ)).W) :
    W2 m ρ hT c (Proc.devRef .tc (Pipeline.arrRef spec0 w)) = (Gather.dat0 (V1 m ρ) (adm0 m ρ) hT c).arrAt w (cfg0 (adm0 m ρ)).N := by
  unfold W2; exact Pipeline.withArrays_arr spec0 winFacts0.arr_inj c _ _ w
theorem W2_of_ne (c : Dev nD) (b : Ref sig .tc) (hb : ∀ w, Pipeline.arrRef spec0 w ≠ b) :
    W2 m ρ hT c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ hT c b

/-- After the second host stretch (the gathered rows regrouped by batch, the matrix transposed and narrowed, the bias
    as a row): the projection region's entry. -/
abbrev W3 : Dev nD → Valuation τ sig (Elt F) := fun c => StableHlo.after hostOps1 (W2 m ρ hT c)
abbrev V3 : (c : Dev nD) → (b : Ref sig .tc) → Buf (Elt F) ((c : Thread nD τ).loc b) := fun c b => W3 m ρ hT c b

/-- At the projection region's exit: its one output array holds what the write-backs leave; its inputs, two of them
    windows on one array, and every other buffer are as entered. -/
def W4 (c : Dev nD) : Valuation τ sig (Elt F) :=
  Function.update (W3 m ρ hT c) (Proc.devRef .tc main_v6) ((Bundle.dat1 (V3 m ρ hT) c).arrAt 4 cfg1.N)
abbrev V4 : (c : Dev nD) → (b : Ref sig .tc) → Buf (Elt F) ((c : Thread nD τ).loc b) := fun c b => W4 m ρ hT c b

/-! ## The proof data family and the thread state -/

def pdats : (p : Fin 2) → (c : Dev nD) → Dat τ (Elt F) Unit ℕ (Pipeline.UD sig nD τ) ℕ (Pipeline.pin (pcfgs (F := F)) (adm m ρ) p) c
  | ⟨0, _⟩ => fun c => Gather.dat0 (V1 m ρ) (adm0 m ρ) hT c
  | ⟨1, _⟩ => fun c => Bundle.dat1 (V3 m ρ hT) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ hT c) ∗ ∃ r, prngReg c r)

/-! ## The gather region as a segment -/

/-- The one table of the gather region read off the buffers at its entry is the admissible contents chosen for it
    (there is one core). -/
theorem tbl_eq (c : Dev nD) : (fun k => V1 m ρ c (pre0.ref k)) = (adm0 (F := F) m ρ).1 := by
  obtain rfl : c = 0 := Subsingleton.elim _ _
  funext k
  match k with
  | ⟨0, _⟩ => rfl

theorem hF0 (c : Dev nD) (w : Fin (cfg0 (adm0 (F := F) m ρ)).W) :
    (Gather.dat0 (V1 m ρ) (adm0 m ρ) hT c).arrAt w (cfg0 (adm0 m ρ)).N = V2 m ρ hT c (Pipeline.arrRef spec0 w) :=
  (W2_arr m ρ hT c w).symm
theorem hrest0 (c : Dev nD) : ∀ b, b ∉ Finset.univ.image (Pipeline.arrRef spec0) → V2 m ρ hT c b = V1 m ρ c b :=
  fun b hb => W2_of_ne m ρ hT c b fun w e => hb (Finset.mem_image.mpr ⟨w, Finset.mem_univ _, e⟩)

set_option backward.isDefEq.respectTransparency.types false in
/-- The gather region over the thread state: entered from every unscoped buffer at `W1`, left at `W2`. Its output
    array is split out of the unscoped buffers and put back at the exit contents; the token table, the embedding table
    it copies rows of, its eight transfer counters at zero and the generator register pass through its invariant and
    come back unchanged; nothing is owed. -/
def reg0 :
    Pipeline.RegionSeg (pcfgs (F := F)) (adm m ρ) (pdats m ρ hT) () defs₀ 𝒱₀ L lv 0 where
  win := winFacts0.to₀
  block_pos := block_pos0
  stage_whole := stage_whole0
  K := Fin 8
  osem := Gather.osem0
  ho := Gather.ownSemFacts0
  hbody c := (Gather.body_obligation0 (V1 m ρ) (adm0 m ρ) hT c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hT c) ∗ R c)
  X c := iprop((∃ r, prngReg c r) ∗ Pipeline.ownSems0 (Ix := Unit) (Name := ℕ) (U := Pipeline.UD sig nD τ) (Lvl := ℕ) (Val := Elt F) (τ := τ) Gather.osem0 c
    ∗ (bigSep Gather.H0 fun b => (((c : Thread nD τ)).loc b) ↦{fullShare} V1 m ρ c b))
  Y c := iprop((∃ r, prngReg c r) ∗ (bigSep Gather.H0 fun b => (((c : Thread nD τ)).loc b) ↦{fullShare} V1 m ρ c b)
    ∗ Pipeline.prefHeld pre0 c (fun _ => fullShare) (adm0 m ρ).1)
  Z c := bigSep (Pipeline.restRefsP sig pre0 spec0 \ Gather.H0) fun b => (((c : Thread nD τ)).loc b) ↦{fullShare} V1 m ρ c b
  hentry c := by
    have hsplit := Pipeline.arrays_of_unscopedBufs (p := 0) (pcfgs (F := F)) (adm m ρ) (pdats m ρ hT) winFacts0 arr_whole0 c
      ((pdats m ρ hT 0 c).share_full fun _ => rfl) (V1 m ρ c) fun _ => rfl
    rw [Pipeline.unscopedBufs_held] at hsplit
    have hT1 := Pipeline.unscopedRest_split (Ix := Unit) (Name := ℕ) (U := Pipeline.UD sig nD τ) (Lvl := ℕ) preFacts0 c (V1 m ρ c)
    have hH := Pipeline.unscopedRestP_sdiff (Val := Elt F) pre0 spec0 Gather.H0 Gather.H0_sub c (V1 m ρ c)
    rw [tbl_eq m ρ c] at hT1
    iintro ⟨⟨Hub, Hp, HO⟩, Hos, -⟩
    ihave H := hsplit $$ Hub
    icases H with ⟨Ha, Hrest⟩
    ihave H' := (Entails.of_eq hT1) $$ Hrest
    icases H' with ⟨Htb, HrestP⟩
    ihave H'' := (Entails.of_eq hH) $$ HrestP
    icases H'' with ⟨HH, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ hT 0 c).Φ 0 = Gather.ΦG (V1 m ρ) (adm0 m ρ) c from rfl]
    unfold Gather.ΦG
    rw [Pipeline.ΦD_eq]
    iintro ⟨⟨Hp, Ho, HH⟩, Htb, Hr⟩
    isplitl [Hr Hp Ho HH]
    · isplitl [Hr]; · iexact Hr
      isplitl [Hp]; · iexact Hp
      isplitl [Ho]; · iexact Ho
      iexact HH
    iexact Htb
  hout c := by
    rw [show (pdats m ρ hT 0 c).Φ (Fin.last _) = Gather.ΦG (V1 m ρ) (adm0 m ρ) c from rfl]
    unfold Gather.ΦG
    rw [Pipeline.ΦD_eq]
    iintro ⟨⟨Hr, Hp, Ho, HH⟩, Htb⟩
    isplitl [Hp HH Htb]
    · isplitl [Hp]; · iexact Hp
      isplitl [HH]; · iexact HH
      iexact Htb
    isplitl [Ho]; · iexact Ho
    iexact Hr
  hexit c := by
    have hjoin := Pipeline.unscopedBufs_of_arrays (p := 0) (pcfgs (F := F)) (adm m ρ) (Ix := Unit) (Name := ℕ) (U := Pipeline.UD sig nD τ) (Lvl := ℕ)
      winFacts0 arr_whole0 c (pdats m ρ hT) ((pdats m ρ hT 0 c).share_full fun _ => rfl)
      (V1 m ρ c) (V2 m ρ hT c) ((pdats m ρ hT 0 c).arrAt · (cfg0 (adm0 m ρ)).N) (hF0 m ρ hT c) (hrest0 m ρ hT c)
    rw [Pipeline.unscopedBufs_held] at hjoin
    have hT1 := Pipeline.unscopedRest_split (Ix := Unit) (Name := ℕ) (U := Pipeline.UD sig nD τ) (Lvl := ℕ) preFacts0 c (V1 m ρ c)
    have hH := Pipeline.unscopedRestP_sdiff (Val := Elt F) pre0 spec0 Gather.H0 Gather.H0_sub c (V1 m ρ c)
    rw [tbl_eq m ρ c] at hT1
    iintro ⟨Ha, HO, ⟨HY, HH, Htb⟩, HR⟩
    ihave HrestP := (Entails.of_eq hH.symm) $$ [HH HR]
    · isplitl [HH]; · iexact HH
      iexact HR
    ihave Hrest := (Entails.of_eq hT1.symm) $$ [Htb HrestP]
    · isplitl [Htb]; · iexact Htb
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The projection region as a segment

Two of its input windows (the time tile and its halo) read ONE array, the gathered vectors: each holds a half of the
full share of it, and the two halves are split off the whole buffer at the region's entry and joined at its exit. -/

/-- The projection region's arrays, at contents that one valuation gives per array, are the four distinct buffers
    behind them whole at that valuation: the shared array's two halves joined. -/
theorem arrays1 (c : Dev nD) (dat : Dat τ (Elt F) Unit ℕ (Pipeline.UD sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (dat.arrays Fw : sProp 𝕄) ⊣⊢ Pipeline.arrBufs (Ix := Unit) (Name := ℕ) (U := Pipeline.UD sig nD τ) (Lvl := ℕ) spec1 c V := by
  have s0 : dat.share 0 = fullShare.left := by unfold Dat.share; rw [if_neg (by decide)]; exact hq0
  have s1 : dat.share 1 = fullShare.right := by unfold Dat.share; rw [if_neg (by decide)]; exact hq1
  have s2 : dat.share 2 = fullShare := by unfold Dat.share; rw [if_neg (by decide)]; exact hq2
  have s3 : dat.share 3 = fullShare := by unfold Dat.share; rw [if_neg (by decide)]; exact hq3
  have s4 : dat.share 4 = fullShare := by unfold Dat.share; rw [if_pos (by decide)]
  unfold Dat.arrays Pipeline.arrBufs
  rw [bigSep_W1, BI.bigSep_eq_bigSepL_of_eq [main_v2, main_v4, main_v5, main_v6] (by decide) (by decide)]
  rw [(arr_whole1 0).set_eq_univ, (arr_whole1 2).set_eq_univ, (arr_whole1 3).set_eq_univ, (arr_whole1 4).set_eq_univ,
    s0, s1, s2, s3, s4, hF 0, hF 1, hF 2, hF 3, hF 4]
  have hsh : ((((c : Thread nD τ).loc main_v2) ↦{fullShare} V main_v2 : sProp 𝕄))
      ⊣⊢ iprop((((c : Thread nD τ).loc main_v2) ↦{fullShare.left} V main_v2) ∗ ((c : Thread nD τ).loc main_v2) ↦{fullShare.right} V main_v2) :=
    pointsTo_share (PosShare.mem_left_op_right fullShare)
  show _ ⊣⊢ iprop((((c : Thread nD τ).loc main_v2) ↦{fullShare} V main_v2) ∗ (((c : Thread nD τ).loc main_v4) ↦{fullShare} V main_v4)
    ∗ (((c : Thread nD τ).loc main_v5) ↦{fullShare} V main_v5) ∗ (((c : Thread nD τ).loc main_v6) ↦{fullShare} V main_v6))
  constructor
  · iintro ⟨H0, H1, H2, H3, H4⟩
    isplitl [H0 H1]
    · iapply hsh.2; isplitl [H0]; · iexact H0
      iexact H1
    isplitl [H2]; · iexact H2
    isplitl [H3]; · iexact H3
    iexact H4
  · iintro ⟨H2, H4, H5, H6⟩
    ihave H := hsh.1 $$ H2
    icases H with ⟨H0, H1⟩
    isplitl [H0]; · iexact H0
    isplitl [H1]; · iexact H1
    isplitl [H4]; · iexact H4
    isplitl [H5]; · iexact H5
    iexact H6

theorem W4_v6 (c : Dev nD) : W4 m ρ hT c (Proc.devRef .tc main_v6) = (Bundle.dat1 (V3 m ρ hT) c).arrAt 4 cfg1.N := by
  unfold W4; exact Function.update_self ..
theorem W4_of_ne (c : Dev nD) (b : Ref sig .tc) (hb : b ≠ main_v6) :
    W4 m ρ hT c (Proc.devRef .tc b) = W3 m ρ hT c (Proc.devRef .tc b) := by
  unfold W4; exact Function.update_of_ne (StableHlo.devRef_ne_of_ne hb) _ _

/-- At the projection region's exit each of its arrays holds what the valuation `W4` says: the inputs what they held
    at entry (no write-back touches them), the output what the write-backs leave. -/
theorem hF1 (c : Dev nD) (w : Fin cfg1.W) : (Bundle.dat1 (V3 m ρ hT) c).arrAt w cfg1.N = V4 m ρ hT c (Pipeline.arrRef spec1 w) :=
  match w with
  | ⟨0, _⟩ => (((Bundle.dat1 (V3 m ρ hT) c).arrAt_in 0 rfl _).trans (Bundle.A_eq1 (V3 m ρ hT) c 0)).trans (W4_of_ne m ρ hT c main_v2 (by decide)).symm
  | ⟨1, _⟩ => (((Bundle.dat1 (V3 m ρ hT) c).arrAt_in 1 rfl _).trans (Bundle.A_eq1 (V3 m ρ hT) c 1)).trans (W4_of_ne m ρ hT c main_v2 (by decide)).symm
  | ⟨2, _⟩ => (((Bundle.dat1 (V3 m ρ hT) c).arrAt_in 2 rfl _).trans (Bundle.A_eq1 (V3 m ρ hT) c 2)).trans (W4_of_ne m ρ hT c main_v4 (by decide)).symm
  | ⟨3, _⟩ => (((Bundle.dat1 (V3 m ρ hT) c).arrAt_in 3 rfl _).trans (Bundle.A_eq1 (V3 m ρ hT) c 3)).trans (W4_of_ne m ρ hT c main_v5 (by decide)).symm
  | ⟨4, _⟩ => (W4_v6 m ρ hT c).symm

/-- Off the projection region's arrays nothing changed. -/
theorem rest1_eq (c : Dev nD) :
    (Pipeline.unscopedRest (Ix := Unit) (Name := ℕ) (U := Pipeline.UD sig nD τ) (Lvl := ℕ) spec1 c (V3 m ρ hT c) : sProp 𝕄)
      = Pipeline.unscopedRest spec1 c (V4 m ρ hT c) := by
  unfold Pipeline.unscopedRest
  refine bigSep_congr fun b hb => ?_
  have hne : b ≠ main_v6 := fun e => (Finset.mem_sdiff.mp hb).2 (Finset.mem_image.mpr ⟨4, Finset.mem_univ _, e.symm⟩)
  rw [show V4 m ρ hT c b = V3 m ρ hT c b from W4_of_ne m ρ hT c b hne]

set_option backward.isDefEq.respectTransparency.types false in
/-- The projection region over the thread state: entered from every unscoped buffer at `W3`, left at `W4`. -/
def reg1 : Pipeline.RegionSeg (pcfgs (F := F)) (adm m ρ) (pdats m ρ hT) () defs₀ 𝒱₀ L lv 1 where
  win := winFacts₀1
  block_pos := block_pos1
  stage_whole := stage_whole1
  K := PEmpty
  osem k := k.elim
  ho := Pipeline.OwnSemFacts.none _
  hbody c := (Bundle.body_obligation1 (V3 m ρ hT) c).loose
  hwaits := Pipeline.hwaits_of_owed_zero _ _ _ _ L lv 1 fun _ _ => rfl
  pre c := iprop(StableHlo.held (c : Thread nD τ) (Pipeline.ucRefs τ sig) (W3 m ρ hT c) ∗ R c)
  post c := iprop(Tₙ m ρ hT c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m ρ hT c)
  hentry c := by
    rw [Pipeline.ownSems0_none]
    have hsp := Pipeline.unscopedBufs_split₀ (Ix := Unit) (Name := ℕ) (U := Pipeline.UD sig nD τ) (Lvl := ℕ)
      (Pipeline.pin (pcfgs (F := F)) (adm m ρ)) 1 winFacts₀1.arr_unscoped c (V3 m ρ hT c)
    rw [Pipeline.unscopedBufs_held] at hsp
    have harr := (arrays1 c (pdats m ρ hT 1 c) rfl rfl rfl rfl (V3 m ρ hT c) ((pdats m ρ hT 1 c).arrAt · 0) (fun _ => rfl)).2
    iintro ⟨⟨Hub, Hp, HO⟩, -, -⟩
    ihave H := (Entails.of_eq hsp) $$ Hub
    icases H with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hT 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hT 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := Pipeline.UD sig nD τ) (Lvl := ℕ)
      (Pipeline.pin (pcfgs (F := F)) (adm m ρ)) 1 winFacts₀1.arr_unscoped c (V4 m ρ hT c)
    rw [Pipeline.unscopedBufs_held] at hsp
    have harr := (arrays1 c (pdats m ρ hT 1 c) rfl rfl rfl rfl (V4 m ρ hT c) ((pdats m ρ hT 1 c).arrAt · cfg1.N) (hF1 m ρ hT c)).1
    have hrest := rest1_eq m ρ hT c
    iintro ⟨Ha, HO, HY, Hrest⟩
    ihave Hab := harr $$ Ha
    ihave Hrest' := (Entails.of_eq hrest) $$ Hrest
    ihave Hub := (Entails.of_eq hsp.symm) $$ [Hab Hrest']
    · isplitl [Hab]; · iexact Hab
      iexact Hrest'
    imodintro
    isplitl [Hub HY]
    · isplitl [Hub]; · iexact Hub
      iexact HY
    unfold Pipeline.Dat.owesAt Pipeline.owesWithin
    icases HO with ⟨%W, -, HO⟩; iexists W; iexact HO

/-! ## The program as segments, and the launch -/

abbrev segs : List (Pipeline.Seg (pcfgs (F := F)) (adm m ρ) (pdats m ρ hT) () defs₀ 𝒱₀ L lv) :=
  [ .host (hseg hostOps0 hostOps0_sub hostOps0_fresh (W0 m ρ)),
    .region (reg0 m ρ hT),
    .host (hseg hostOps1 hostOps1_sub hostOps1_fresh (W2 m ρ hT)),
    .region (reg1 m ρ hT) ]
theorem main_run (c : Dev nD) : main (F := F) c = Pipeline.Seg.run (segs m ρ hT) :=
  (main_chain c).trans (by chain_rfl)

set_option backward.isDefEq.respectTransparency.types false in
/-- Under the range hypothesis on the token table, every weakly fair execution of the program terminates, nothing
    faulting, and every final memory holds each unscoped buffer at the last boundary's contents `W4`. -/
theorem run :
    θ_run defs (onTc (τ := τ) (main (F := F))) ⟨m, fun _ => 0, ρ⟩
      (fun r => ∀ c : Dev nD, ∀ b ∈ Pipeline.ucRefs τ sig, r.2.mem (((c : Thread nD τ)).1, b) = W4 m ρ hT c b) :=
  Pipeline.θ_run_regions_kit (pcfgs (F := F)) (adm m ρ) (pdats m ρ hT) () (cellOf_inj (adm m ρ)) embL defs₀ 𝒱₀ L lv m ρ main (segs m ρ hT)
    (fun c Q => by rw [main_run m ρ hT c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ))) (Pipeline.launchToks (Pipeline.pin (pcfgs (F := F)) (adm m ρ)) (cellOf_inj (adm m ρ))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hT)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ hT c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ hT c) s')
      isplitl [Hh] <;> iassumption)
    (hQ := fun s h c => h c)

/-! ## What the last boundary's contents are -/

theorem W4_arg (c : Dev nD) (b : Ref sig .tc) (h0 : b ∉ hostOps0_W) (h1 : b ∉ hostOps1_W) (hv1 : b ≠ main_v1) (hv6 : b ≠ main_v6) :
    W4 m ρ hT c (Proc.devRef .tc b) = m ((c : Thread nD τ).loc b) :=
  calc W4 m ρ hT c (Proc.devRef .tc b)
    _ = W3 m ρ hT c (Proc.devRef .tc b) := W4_of_ne m ρ hT c b hv6
    _ = W2 m ρ hT c (Proc.devRef .tc b) := StableHlo.after_of_writes_sub hostOps1 _ hostOps1_writes h1
    _ = W1 m ρ c (Proc.devRef .tc b) := W2_of_ne m ρ hT c b (fun w => by
          match w with
          | ⟨0, _⟩ => exact fun e => hv1 e.symm)
    _ = W0 m ρ c (Proc.devRef .tc b) := StableHlo.after_of_writes_sub hostOps0 _ hostOps0_writes h0
    _ = m ((c : Thread nD τ).loc b) := rfl

include hT in
/-- THE FRAME, under the range hypothesis on the token table: the program runs to the end, nothing faulting, and the
    four argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_arg m ρ hT c main_arg0 (by decide) (by decide) (by decide) (by decide)),
     (h c _ (mem_uc main_arg1 (by decide))).trans (W4_arg m ρ hT c main_arg1 (by decide) (by decide) (by decide) (by decide)),
     (h c _ (mem_uc main_arg2 (by decide))).trans (W4_arg m ρ hT c main_arg2 (by decide) (by decide) (by decide) (by decide)),
     (h c _ (mem_uc main_arg3 (by decide))).trans (W4_arg m ρ hT c main_arg3 (by decide) (by decide) (by decide) (by decide))⟩) (run m ρ hT)

/-- The token table the gather region prefetches is the token ids flattened. -/
theorem tbl_val : ((adm0 (F := F) m ρ).1 0 : S8192.Idx → BitVec 32)
    = shapeCast S8192 (m (((0 : Dev nD) : Thread nD τ).loc main_arg0)) shapeCasts_S4x2048_S8192 := by
  unfold adm0
  change V1 m ρ 0 main_v0 = _
  show StableHlo.after hostOps0 _ (Proc.devRef .tc main_v0) = _
  after_results
  rfl

/-- The vectors the projection region reads are the gathered rows regrouped by batch and time. -/
theorem V3_v2 (c : Dev nD) : (V3 m ρ hT c main_v2 : S4x2048x1024.Idx → Elt F .f32)
    = shapeCast S4x2048x1024 (V2 m ρ hT c main_v1 : S8192x1024.Idx → Elt F .f32) shapeCasts_S8192x1024_S4x2048x1024 := by
  show StableHlo.after hostOps1 _ (Proc.devRef .tc main_v2) = _
  after_results
  rfl

/-- The matrix it reads is the weight matrix transposed (and narrowed). -/
theorem V3_v4 (c : Dev nD) : (V3 m ρ hT c main_v4 : S1024x1024.Idx → Elt F .bf16)
    = truncf .bf16 (transpose S1024x1024 [1, 0] (V2 m ρ hT c main_arg2 : S1024x1024.Idx → Elt F .f32) transposes_S1024x1024_S1024x1024_1_0) bitsLt_bf16_f32 := by
  show StableHlo.after hostOps1 _ (Proc.devRef .tc main_v4) = _
  after_results

/-- The bias row it reads is the bias vector as one row. -/
theorem V3_v5 (c : Dev nD) : (V3 m ρ hT c main_v5 : S1x1024.Idx → Elt F .f32)
    = shapeCast S1x1024 (V2 m ρ hT c main_arg3 : S1024.Idx → Elt F .f32) shapeCasts_S1024_S1x1024 := by
  show StableHlo.after hostOps1 _ (Proc.devRef .tc main_v5) = _
  after_results
  rfl

theorem V2_arg (c : Dev nD) (b : Ref sig .tc) (h0 : b ∉ hostOps0_W) (hv1 : b ≠ main_v1) : V2 m ρ hT c b = m ((c : Thread nD τ).loc b) :=
  (W2_of_ne m ρ hT c b (fun w => by
    match w with
    | ⟨0, _⟩ => exact fun e => hv1 e.symm)).trans ((StableHlo.after_of_writes_sub hostOps0 _ hostOps0_writes h0).trans rfl)

/-- Token ids that address rows of the embedding table make a token table that does. -/
theorem tokOk_of_range (h : ∀ i, ((m (((0 : Dev nD) : Thread nD τ).loc main_arg0) : S4x2048.Idx → BitVec 32) i).toNat < 32000) :
    Gather.TokOk ((adm0 (F := F) m ρ).1 0) := by
  intro k
  rw [tbl_val m ρ]
  unfold shapeCast
  exact h _

end Cert.KernelIdeal.Run

end
-- ==== Proof.Spec.lean ====
/-
  The mathematics both programs compute, over the extended reals and literal shapes, as functions of one index.

  A sequence of token vectors x[b, t, ·] (batch b, time t, 1024 features) is bundled into n-grams of orders one to
  four: the order-n term at time t multiplies the vectors at times t, t-1, …, t-n+1 (zero before the sequence
  starts), the vector k steps back in time rolled n-1-k … places around the feature axis; precisely, with
  s_k the sequence delayed by k steps and ρ_k the roll by k places (entry d reads entry d - k modulo 1024),
    bundle = s_0 + s_1 · ρ_1 s_0 + (s_2 · ρ_1 s_1) · ρ_2 s_0 + ((s_3 · ρ_1 s_2) · ρ_2 s_1) · ρ_3 s_0.
  The bundle is scaled by a quarter and projected by a matrix, and a bias is added.
-/
import Idealize.ShloMosaic.PureOps.Ideal
import Idealize.ShloMosaic.Lib.ValueIdx

noncomputable section

namespace Cert.HdcSpec

open Idealize.ShloMosaic Idealize.ShloMosaic.ValueIdx
open scoped BigOperators

/-- Token vectors per batch and time: [4, 2048, 1024]. -/
abbrev SV : Shape := ⟨3, ![4, 2048, 1024]⟩
/-- A square matrix of the feature dimension: [1024, 1024]. -/
abbrev SW : Shape := ⟨2, ![1024, 1024]⟩
/-- A feature vector: [1024]. -/
abbrev SB : Shape := ⟨1, ![1024]⟩
/-- A feature vector as one row: [1, 1024]. -/
abbrev SB2 : Shape := ⟨2, ![1, 1024]⟩
/-- The token ids: [4, 2048]. -/
abbrev ST : Shape := ⟨2, ![4, 2048]⟩
/-- The embedding table: [32000, 1024]. -/
abbrev SE : Shape := ⟨2, ![32000, 1024]⟩

/-- The sequence delayed by `k` time steps, zero before its start. -/
def delay (x : SV.Idx → EReal) (k : ℕ) (b : Fin 4) (t : Fin 2048) (d : Fin 1024) : EReal :=
  if h : k ≤ t.val then x (ix3 b ⟨t.val - k, by have := t.isLt; omega⟩ d) else 0

/-- The feature position that a roll by `k` places reads at position `d`: `d - k` modulo 1024. -/
def rolled (k : ℕ) (d : Fin 1024) : Fin 1024 := ⟨(d.val + (1024 - k % 1024)) % 1024, Nat.mod_lt _ (by norm_num)⟩

/-- The sum of the n-gram terms of orders one to four at (b, t, d), grouped as both programs group them. -/
def bundleSum (x : SV.Idx → EReal) (b : Fin 4) (t : Fin 2048) (d : Fin 1024) : EReal :=
  ((delay x 0 b t d + delay x 1 b t d * delay x 0 b t (rolled 1 d))
      + (delay x 2 b t d * delay x 1 b t (rolled 1 d)) * delay x 0 b t (rolled 2 d))
    + ((delay x 3 b t d * delay x 2 b t (rolled 1 d)) * delay x 1 b t (rolled 2 d)) * delay x 0 b t (rolled 3 d)

/-- The projection as the kernel spells it: the bundle times a scale `c`, contracted with a matrix laid out
    [feature in, feature out], plus a bias held as one row. -/
def outK (x : SV.Idx → EReal) (wt : SW.Idx → EReal) (b2 : SB2.Idx → EReal) (c : EReal) (b : Fin 4) (t : Fin 2048) (e : Fin 1024) : EReal :=
  (∑ d : Fin 1024, (bundleSum x b t d * c) * wt (ix2 d e)) + b2 (ix2 0 e)

/-- The projection as the reference spells it: the bundle divided by `c4`, contracted with a matrix laid out
    [feature out, feature in], plus a bias vector. -/
def outR (x : SV.Idx → EReal) (w : SW.Idx → EReal) (bias : SB.Idx → EReal) (c4 : EReal) (b : Fin 4) (t : Fin 2048) (e : Fin 1024) : EReal :=
  (∑ d : Fin 1024, Ideal.div (bundleSum x b t d) c4 * w (ix2 e d)) + bias (ix1 e)

/-- The rows of the embedding table the token ids select, for ids that address a row. -/
def gathered (tok : ST.Idx → BitVec 32) (tv : SE.Idx → EReal) (h : ∀ i, (tok i).toNat < 32000) : SV.Idx → EReal :=
  fun j => tv (ix2 ⟨(tok (ix2 (j 0) (j 1))).toNat, h _⟩ (j 2))

end Cert.HdcSpec

end
-- ==== Proof.Consts.lean ====
/-
  The two float constants that scale the bundle — the kernel's 0.25 and the reference's 4.0 — as the extended reals
  their bit patterns denote, and the law that joins the two programs there: dividing by four is multiplying by a
  quarter, on every extended real (the infinities included: the quarter is a positive real).
-/
import Idealize.ShloMosaic.PureOps.Ideal

noncomputable section

namespace Cert.HdcConsts

open Idealize.ShloMosaic

/-- The pattern of 0.25 denotes the real 1/4. -/
theorem ofBits_quarter : Ideal.ofBits .f32 0x3E800000#32 = ((1 / 4 : ℝ) : EReal) := by
  simp [Ideal.ofBits, Ideal.ieee, -EReal.coe_mul]; norm_num

/-- The pattern of 4.0 denotes the real 4. -/
theorem ofBits_four : Ideal.ofBits .f32 0x40800000#32 = ((4 : ℝ) : EReal) := by
  simp [Ideal.ofBits, Ideal.ieee, -EReal.coe_mul]; norm_num

/-- Multiplying by the kernel's quarter is dividing by the reference's four. -/
theorem mul_quarter_eq_div_four (x : EReal) :
    x * Ideal.ofBits .f32 0x3E800000#32 = Ideal.div x (Ideal.ofBits .f32 0x40800000#32) := by
  rw [ofBits_quarter, ofBits_four, Ideal.div_coe (by norm_num : (4 : ℝ) ≠ 0)]

end Cert.HdcConsts

end
-- ==== Proof.SpecLaws.lean ====
/-
  Two facts about the specification, over arbitrary arrays.

  (1) Rows selected by a flat table of 8192 token ids, regrouped as [4, 2048] rows, are the rows selected by the
      ids laid out [4, 2048], when word 2048·b + t of the flat table is id (b, t).
  (2) The projection with the matrix laid out [in, out], a bias row and a factor of a quarter is the projection with
      the matrix laid out [out, in], a bias vector and a division by four, when the two matrices are transposes of one
      another and the bias row is the bias vector: the quarter is the division by four on every extended real.
-/
import proofs.«427312_j87016037416990_3_alg».proof.Proof.Spec
import proofs.«427312_j87016037416990_3_alg».proof.Proof.Consts

noncomputable section

namespace Cert.HdcSpec

open Idealize.ShloMosaic Idealize.ShloMosaic.ValueIdx
open scoped BigOperators

/-- Regrouped rows of a flat gather are the gather by the ids laid out by batch and time. -/
theorem gathered_of_rows (tok : ST.Idx → BitVec 32) (tv : SE.Idx → EReal) (hr : ∀ i, (tok i).toNat < 32000)
    (tbl : (⟨1, ![8192]⟩ : Shape).Idx → BitVec 32) (hT : ∀ k, (tbl k).toNat < 32000)
    (htbl : ∀ (b : Fin 4) (t : Fin 2048) (hb : 2048 * b.val + t.val < 8192), tbl (ix1 ⟨2048 * b.val + t.val, hb⟩) = tok (ix2 b t))
    (rows : (⟨2, ![8192, 1024]⟩ : Shape).Idx → EReal)
    (hrows : ∀ (r : Fin 8192) (d : Fin 1024), rows (ix2 r d) = tv (ix2 ⟨(tbl (ix1 r)).toNat, hT _⟩ d))
    (x : SV.Idx → EReal)
    (hx : ∀ (b : Fin 4) (t : Fin 2048) (d : Fin 1024) (hb : 2048 * b.val + t.val < 8192), x (ix3 b t d) = rows (ix2 ⟨2048 * b.val + t.val, hb⟩ d)) :
    x = gathered tok tv hr := by
  funext i
  obtain ⟨b, t, d, rfl⟩ : ∃ b t d, i = ix3 b t d := ⟨i 0, i 1, i 2, eq_ix3 i⟩
  have hb : 2048 * b.val + t.val < 8192 := by have := b.isLt; have := t.isLt; omega
  rw [hx b t d hb, hrows]
  unfold gathered
  refine congrArg tv (funext fun a => ?_)
  match a with
  | ⟨0, _⟩ => exact Fin.ext (congrArg BitVec.toNat (htbl b t hb))
  | ⟨1, _⟩ => rfl

/-- The kernel's spelling of the projection is the reference's. -/
theorem outK_eq_outR (x : SV.Idx → EReal) (wt w : SW.Idx → EReal) (b2 : SB2.Idx → EReal) (bias : SB.Idx → EReal)
    (hw : ∀ d e : Fin 1024, wt (ix2 d e) = w (ix2 e d)) (hb : ∀ e : Fin 1024, b2 (ix2 0 e) = bias (ix1 e))
    (b : Fin 4) (t : Fin 2048) (e : Fin 1024) :
    outK x wt b2 (Ideal.ofBits .f32 0x3E800000#32) b t e = outR x w bias (Ideal.ofBits .f32 0x40800000#32) b t e := by
  unfold outK outR
  rw [hb e]
  congr 1
  refine Finset.sum_congr rfl fun d _ => ?_
  rw [hw d e, Cert.HdcConsts.mul_quarter_eq_div_four]

end Cert.HdcSpec

end
-- ==== Proof.KI.KValue.lean ====
import proofs.«427312_j87016037416990_3_alg».proof.Proof.KI.Run
import proofs.«427312_j87016037416990_3_alg».proof.Proof.Spec
import proofs.«427312_j87016037416990_3_alg».proof.Proof.Consts
import proofs.«427312_j87016037416990_3_alg».proof.Proof.SpecLaws
import Idealize.ShloMosaic.Lib.Pipeline.Value
import Idealize.ShloMosaic.Lib.ValueIdx

set_option maxRecDepth 16384

noncomputable section

/-! The kernel program's result as one function of its four arguments, over the extended reals.

The gather region leaves row r of its output at the embedding-table row the r-th token id names; the host regroups the
rows by batch and time, transposes the weight matrix and lays the bias out as a row; the projection region leaves the
bundle of those vectors, scaled by a quarter, contracted with the transposed matrix, plus the bias row. Read through
the host operations this is the reference's own formula: the contraction over the transposed matrix is the
contraction with the matrix's rows, and the quarter is the division by four. -/

namespace Cert.KernelIdeal.KValue

open Cert.KernelIdeal Cert.KernelIdeal.Gen Cert.KernelIdeal.Run
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)
-- Every word of the token table addresses a row of the embedding table.
variable (hT : Gather.TokOk ((adm0 (F := Ideal) m ρ).1 0))

/-- The four arguments on core `c`, at their literal types. -/
abbrev tokA (c : Dev nD) : S4x2048.Idx → BitVec 32 := m ((c : Thread nD τ).loc main_arg0)
abbrev tvA (c : Dev nD) : S32000x1024.Idx → EReal := m ((c : Thread nD τ).loc main_arg1)
abbrev wA (c : Dev nD) : S1024x1024.Idx → EReal := m ((c : Thread nD τ).loc main_arg2)
abbrev bA (c : Dev nD) : S1024.Idx → EReal := m ((c : Thread nD τ).loc main_arg3)

/-- Word 2048·b + t of the flat token table is token id (b, t). -/
theorem tbl_at (b : Fin 4) (t : Fin 2048) (h : 2048 * b.val + t.val < 8192) :
    ((adm0 (F := Ideal) m ρ).1 0 : S8192.Idx → BitVec 32) (ix1 ⟨2048 * b.val + t.val, h⟩) = tokA m 0 (ix2 b t) := by
  rw [tbl_val m ρ]
  refine shapeCast_apply _ _ _ (ix2 b t) ?_
  rw [Shape.rowMajor_val_two, Shape.rowMajor_val_one]
  show b.val * 2048 + t.val = 2048 * b.val + t.val
  omega

/-- The vectors the projection reads at (b, t, ·) are row 2048·b + t of what the gather left. -/
theorem x_at (c : Dev nD) (b : Fin 4) (t : Fin 2048) (d : Fin 1024) (h : 2048 * b.val + t.val < 8192) :
    (V3 m ρ hT c main_v2 : S4x2048x1024.Idx → EReal) (ix3 b t d)
      = (V2 m ρ hT c main_v1 : S8192x1024.Idx → EReal) (ix2 ⟨2048 * b.val + t.val, h⟩ d) := by
  rw [V3_v2 m ρ hT c]
  refine shapeCast_apply _ _ _ _ ?_
  show (S8192x1024.rowMajor (ix2 ⟨2048 * b.val + t.val, h⟩ d)).val = (S4x2048x1024.rowMajor (ix3 b t d)).val
  rw [Shape.rowMajor_val_two, Shape.rowMajor_val_three]
  show (2048 * b.val + t.val) * 1024 + d.val = (b.val * 2048 + t.val) * 1024 + d.val
  omega

/-- The matrix the projection reads at (d, e) is the weight matrix at (e, d). -/
theorem wt_at (c : Dev nD) (d e : Fin 1024) :
    (V3 m ρ hT c main_v4 : S1024x1024.Idx → EReal) (ix2 d e) = wA m c (ix2 e d) := by
  rw [V3_v4 m ρ hT c, truncf_apply]
  rw [transpose_apply _ _ _ (ix2 d e) (ix2 e d) (fun a => by match a with | ⟨0, _⟩ => rfl | ⟨1, _⟩ => rfl)]
  exact congrFun (V2_arg m ρ hT c main_arg2 (by decide) (by decide)) _

/-- The bias row the projection reads at (0, e) is the bias at e. -/
theorem b2_at (c : Dev nD) (e : Fin 1024) :
    (V3 m ρ hT c main_v5 : S1x1024.Idx → EReal) (ix2 0 e) = bA m c (ix1 e) := by
  rw [V3_v5 m ρ hT c]
  rw [shapeCast_apply _ _ (ix2 (0 : Fin 1) e) (ix1 e) (by
    show (S1024.rowMajor (ix1 e)).val = (S1x1024.rowMajor (ix2 (0 : Fin 1) e)).val
    rw [Shape.rowMajor_val_two, Shape.rowMajor_val_one]; show e.val = 0 * 1024 + e.val; omega)]
  exact congrFun (V2_arg m ρ hT c main_arg3 (by decide) (by decide)) _

/-- THE KERNEL PROGRAM'S RESULT: given what the gather region leaves in its output array (row r is the
    embedding-table row that word r of the token table names) and what the projection region leaves in the result
    array (the projected bundle of the arrays it reads), the result array holds, at (b, t, e), the reference's formula
    of the four arguments. -/
theorem kernel_value (c : Dev nD) (hr : ∀ i, (tokA m c i).toNat < 32000)
    (hV2 : ∀ (r : Fin 8192) (d : Fin 1024), (V2 m ρ hT c main_v1 : S8192x1024.Idx → EReal) (ix2 r d)
      = tvA m c (ix2 ⟨(((adm0 (F := Ideal) m ρ).1 0 : S8192.Idx → BitVec 32) (ix1 r)).toNat, hT _⟩ d))
    (hV4 : (W4 m ρ hT c (Proc.devRef .tc main_v6) : S4x2048x1024.Idx → EReal)
      = fun j => Cert.HdcSpec.outK (V3 m ρ hT c main_v2) (V3 m ρ hT c main_v4) (V3 m ρ hT c main_v5) (Ideal.ofBits .f32 0x3E800000#32) (j 0) (j 1) (j 2)) :
    (W4 m ρ hT c (Proc.devRef .tc main_v6) : S4x2048x1024.Idx → EReal)
      = fun j => Cert.HdcSpec.outR (Cert.HdcSpec.gathered (tokA m c) (tvA m c) hr) (wA m c) (bA m c)
          (Ideal.ofBits .f32 0x40800000#32) (j 0) (j 1) (j 2) := by
  obtain rfl : c = 0 := Subsingleton.elim _ _
  have hx := Cert.HdcSpec.gathered_of_rows (tokA m 0) (tvA m 0) hr ((adm0 (F := Ideal) m ρ).1 0) hT
    (fun b t hb => tbl_at m ρ b t hb) (V2 m ρ hT 0 main_v1) hV2 (V3 m ρ hT 0 main_v2) (fun b t d hb => x_at m ρ hT 0 b t d hb)
  rw [hV4]
  funext j
  rw [hx]
  exact Cert.HdcSpec.outK_eq_outR _ _ _ _ _ (wt_at m ρ hT 0) (b2_at m ρ hT 0) _ _ _

end Cert.KernelIdeal.KValue

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.KI.BundlePayload.lean ====
/- The arithmetic of the body of custom_call 1 over the extended reals, read at an index over explicit coordinates:
   the payload of its one store at entry (0, r, e) of the output tile is the specification's output
   (`Cert.HdcSpec.outK`) at the tile's batch, time `256·tt + r` and feature `e`, given what the four loaded blocks read
   of the arrays. Nothing here names a window: the blocks are variables of their literal vector types. -/
import proofs.«427312_j87016037416990_3_alg».proof.Proof.Gen.KernelIdeal.Skeleton
import proofs.«427312_j87016037416990_3_alg».proof.Proof.Spec
import proofs.«427312_j87016037416990_3_alg».proof.Proof.LibContract
import Idealize.ShloMosaic.Lib.Pipeline.Value
import Idealize.ShloMosaic.Lib.ValueIdx
import Idealize.ShloMosaic.Lib.KernelVsHost

set_option maxRecDepth 16384

noncomputable section

namespace Cert.KernelIdeal.BundleValue

open Cert.KernelIdeal Cert.KernelIdeal.Gen Cert.HdcSpec
open Idealize.ShloMosaic Idealize.ShloMosaic.ValueIdx Idealize.SL.Sem
open scoped BigOperators

/-! ## The body's arithmetic, named

The payload of the body's one store, split into the pieces the reads below name: the 259-row extended tile (three rows
of history, zeroed at the first time tile of a sequence, then the 256 rows of the tile), its four 256-row slices (the
tile delayed by 0, 1, 2, 3 rows), and the bundle of n-gram terms over them. -/

/-- The bit "this is the first time tile of its sequence": grid coordinate 1 compared with 0. -/
abbrev firstBit (i : grid1.Coords) : BitVec 1 := Scalar.cmpi .eq (BitVec.ofNat 32 (i 1).val) 0#32

/-- The extended tile: rows 0, 1, 2 the history rows `hl` (zeros when `firstBit`), rows 3 … 258 the tile `x`. -/
def extT (i : grid1.Coords) (hl : Vec Ideal S1x3x1024 .f32) (x : Vec Ideal S1x256x1024 .f32) : FVec Ideal S259x1024 .f32 :=
  concatenate S259x1024 0
    [⟨S3x1024, Scalar.select (firstBit i) (broadcast S3x1024 (Scalar.ofBits .f32 0x00000000#32 : Ideal .f32)) (shapeCast S3x1024 hl shapeCasts_S1x3x1024_S3x1024)⟩,
     ⟨S256x1024, shapeCast S256x1024 x shapeCasts_S1x256x1024_S256x1024⟩] concatenates_S3x1024_S256x1024_S259x1024_d0

/-- The tile delayed by 0, 1, 2, 3 rows: the slices of the extended tile at row offsets 3, 2, 1, 0. -/
abbrev dT0 (i : grid1.Coords) (hl : Vec Ideal S1x3x1024 .f32) (x : Vec Ideal S1x256x1024 .f32) : FVec Ideal S256x1024 .f32 :=
  extractStridedSlice S256x1024 ![3, 0] (extT i hl x) slices_S259x1024_o3_0_S256x1024
abbrev dT1 (i : grid1.Coords) (hl : Vec Ideal S1x3x1024 .f32) (x : Vec Ideal S1x256x1024 .f32) : FVec Ideal S256x1024 .f32 :=
  extractStridedSlice S256x1024 ![2, 0] (extT i hl x) slices_S259x1024_o2_0_S256x1024
abbrev dT2 (i : grid1.Coords) (hl : Vec Ideal S1x3x1024 .f32) (x : Vec Ideal S1x256x1024 .f32) : FVec Ideal S256x1024 .f32 :=
  extractStridedSlice S256x1024 ![1, 0] (extT i hl x) slices_S259x1024_o1_0_S256x1024
abbrev dT3 (i : grid1.Coords) (hl : Vec Ideal S1x3x1024 .f32) (x : Vec Ideal S1x256x1024 .f32) : FVec Ideal S256x1024 .f32 :=
  extractStridedSlice S256x1024 ![0, 0] (extT i hl x) slices_S259x1024_o0_0_S256x1024

/-- A roll of the feature axis by `k` places. -/
abbrev rollT (k : BitVec 32) (v : FVec Ideal S256x1024 .f32) : FVec Ideal S256x1024 .f32 :=
  dynamicRotate 1 k none v rotates_S256x1024_d1

/-- The bundle over the tile: the n-gram terms of orders one to four, added in the body's order. -/
def bundT (i : grid1.Coords) (hl : Vec Ideal S1x3x1024 .f32) (x : Vec Ideal S1x256x1024 .f32) : FVec Ideal S256x1024 .f32 :=
  addf (addf (addf (dT0 i hl x) (mulf (dT1 i hl x) (rollT 1#32 (dT0 i hl x))))
      (mulf (mulf (dT2 i hl x) (rollT 1#32 (dT1 i hl x))) (rollT 2#32 (dT0 i hl x))))
    (mulf (mulf (mulf (dT3 i hl x) (rollT 1#32 (dT2 i hl x))) (rollT 2#32 (dT1 i hl x))) (rollT 3#32 (dT0 i hl x)))

/-- The body's payload is the bundle, scaled, narrowed, multiplied by the matrix into zeros, plus the bias row on
    every row: the printed sequence of operations with its intermediate values substituted. -/
theorem pay2_eq (i : grid1.Coords) (hl : Vec Ideal S1x3x1024 .f32) (x : Vec Ideal S1x256x1024 .f32)
    (w : Vec Ideal S1024x1024 .bf16) (bs : Vec Ideal S1x1024 .f32) :
    k1_pay2 (F := Ideal) i hl x w bs
      = addf (matmul dot_S256x1024_S1024x1024_S256x1024_1_0_0_1_n_n none
            (truncf .bf16 (mulf (bundT i hl x) (broadcast S256x1024 (Scalar.ofBits .f32 0x3E800000#32 : Ideal .f32))) bitsLt_bf16_f32)
            (shapeCast S1024x1024 w shapeCasts_S1024x1024_S1024x1024 : FVec Ideal S1024x1024 .bf16) (constant S256x1024 .f32 0x00000000#32))
          (broadcastTo S256x1024 (shapeCast S1x1024 bs shapeCasts_S1x1024_S1x1024) broadcasts_S1x1024_S256x1024) := rfl

/-! ## The arithmetic read at an index, over explicit coordinates -/

/-- A select between two vectors, read at an index, selects between the entries. -/
theorem select_vec_apply {S : Shape} (z : BitVec 1) (A B : S.Idx → EReal) (j : S.Idx) :
    (Scalar.select z A B) j = Scalar.select z (A j) (B j) := by
  unfold Scalar.select; split <;> rfl

/-- A row of the extended tile at or after row 3 is a row of the tile. -/
theorem extT_hi (i : grid1.Coords) (hl : Vec Ideal S1x3x1024 .f32) (x : Vec Ideal S1x256x1024 .f32)
    (q : Fin 259) (hq : 3 ≤ q.val) (d : Fin 1024) :
    extT i hl x (ix2 q d) = x (ix3 0 ⟨q.val - 3, by have := q.isLt; omega⟩ d) := by
  unfold extT
  refine (concatenate_pair_apply_right (t := S259x1024) (s₁ := S3x1024) (s₂ := S256x1024) (0 : Fin 2) _ _ concatenates_S3x1024_S256x1024_S259x1024_d0 (ix2 q d) rfl rfl (ix2 ⟨q.val - 3, by have := q.isLt; omega⟩ d) (fun b hb => ?_) ?_).trans ?_
  · match b with
    | ⟨0, _⟩ => exact absurd rfl hb
    | ⟨1, _⟩ => rfl
  · show (q.val - 3) + 3 = q.val; omega
  · refine shapeCast_apply x _ _ _ ?_
    rw [Shape.rowMajor_val_three, Shape.rowMajor_val_two]
    show ((0 : ℕ) * 256 + (q.val - 3)) * 1024 + d.val = (q.val - 3) * 1024 + d.val
    omega

/-- A row of the extended tile before row 3 is a history row, or zero at the first time tile. -/
theorem extT_lo (i : grid1.Coords) (hl : Vec Ideal S1x3x1024 .f32) (x : Vec Ideal S1x256x1024 .f32)
    (q : Fin 259) (hq : q.val < 3) (d : Fin 1024) :
    extT i hl x (ix2 q d) = Scalar.select (firstBit i) (0 : EReal) (hl (ix3 0 ⟨q.val, hq⟩ d)) := by
  unfold extT
  refine (concatenate_pair_apply_left (t := S259x1024) (s₁ := S3x1024) (s₂ := S256x1024) (0 : Fin 2) _ _ concatenates_S3x1024_S256x1024_S259x1024_d0 (ix2 q d) rfl (ix2 ⟨q.val, hq⟩ d) (fun b => ?_)).trans ?_
  · match b with
    | ⟨0, _⟩ => rfl
    | ⟨1, _⟩ => rfl
  · rw [select_vec_apply]
    congr 1
    · exact Ideal.ofBits_zero_f32
    · refine shapeCast_apply hl _ _ _ ?_
      rw [Shape.rowMajor_val_three, Shape.rowMajor_val_two]
      show ((0 : ℕ) * 3 + q.val) * 1024 + d.val = q.val * 1024 + d.val
      omega

/-- A 256-row slice of a 259-row vector at row offset `o`, read at row `r`, is row `o + r`. -/
theorem slice_apply (o : ℕ) (ho : o ≤ 3) (v : FVec Ideal S259x1024 .f32) (h : S259x1024.Slices ![o, 0] S256x1024)
    (r : Fin 256) (d : Fin 1024) :
    extractStridedSlice S256x1024 ![o, 0] v h (ix2 r d) = v (ix2 ⟨o + r.val, by have := r.isLt; omega⟩ d) :=
  extractStridedSlice_apply _ v h (ix2 r d) (ix2 ⟨o + r.val, by have := r.isLt; omega⟩ d) fun a => by
    match a with
    | ⟨0, _⟩ => rfl
    | ⟨1, _⟩ => show d.val = 0 + d.val; omega

/-- A roll of the feature axis by `k` places, read at feature `d`, is feature `d - k` modulo 1024. -/
theorem rollT_apply (kb : BitVec 32) (v : FVec Ideal S256x1024 .f32) (r : Fin 256) (d : Fin 1024) :
    rollT kb v (ix2 r d) = v (ix2 r (rolled kb.toNat d)) :=
  dynamicRotate_apply (1 : Fin 2) kb v rotates_S256x1024_d1 (ix2 r d) (ix2 r (rolled kb.toNat d)) fun b => by
    match b with
    | ⟨0, h0⟩ =>
      show r.val = if (⟨0, h0⟩ : Fin 2) = 1 then _ else r.val
      rw [if_neg (fun h => absurd (congrArg Fin.val h) (by decide : ¬((0 : ℕ) = 1)))]
    | ⟨1, h1⟩ =>
      show (rolled kb.toNat d).val = if (⟨1, h1⟩ : Fin 2) = 1 then (d.val + 1024 - kb.toNat % 1024) % 1024 else d.val
      rw [if_pos (show (⟨1, h1⟩ : Fin 2) = 1 from rfl)]
      show (d.val + (1024 - kb.toNat % 1024)) % 1024 = (d.val + 1024 - kb.toNat % 1024) % 1024
      have := Nat.mod_lt kb.toNat (show 0 < 1024 by norm_num)
      congr 1; omega

/-- The tile delayed by `k` rows, entry (r, d): row `r - k` of the tile when it has one, else history row
    `3 + r - k` (zero at the first time tile). -/
def dl (z : BitVec 1) (hl : Vec Ideal S1x3x1024 .f32) (x : Vec Ideal S1x256x1024 .f32) (k : ℕ) (r : Fin 256) (d : Fin 1024) : EReal :=
  if h : k ≤ r.val then x (ix3 0 ⟨r.val - k, by have := r.isLt; omega⟩ d)
  else Scalar.select z (0 : EReal) (hl (ix3 0 ⟨3 + r.val - k, by omega⟩ d))

/-- Row `3 - k + r` of the extended tile is entry `r` of the tile delayed by `k`. -/
theorem extT_at (i : grid1.Coords) (hl : Vec Ideal S1x3x1024 .f32) (x : Vec Ideal S1x256x1024 .f32)
    (k : ℕ) (hk : k ≤ 3) (r : Fin 256) (d : Fin 1024) :
    extT i hl x (ix2 ⟨3 - k + r.val, by have := r.isLt; omega⟩ d) = dl (firstBit i) hl x k r d := by
  unfold dl
  split
  · next h =>
    refine (extT_hi i hl x _ (by show 3 ≤ 3 - k + r.val; omega) d).trans ?_
    exact congrArg (fun a => x (ix3 0 a d)) (Fin.ext (by show 3 - k + r.val - 3 = r.val - k; omega))
  · next h =>
    refine (extT_lo i hl x _ (by show 3 - k + r.val < 3; omega) d).trans ?_
    exact congrArg (fun a => Scalar.select (firstBit i) (0 : EReal) (hl (ix3 0 a d))) (Fin.ext (by show 3 - k + r.val = 3 + r.val - k; omega))

theorem dT0_apply (i : grid1.Coords) (hl : Vec Ideal S1x3x1024 .f32) (x : Vec Ideal S1x256x1024 .f32) (r : Fin 256) (d : Fin 1024) :
    dT0 i hl x (ix2 r d) = dl (firstBit i) hl x 0 r d :=
  (slice_apply 3 (by omega) _ _ r d).trans (extT_at i hl x 0 (by omega) r d)
theorem dT1_apply (i : grid1.Coords) (hl : Vec Ideal S1x3x1024 .f32) (x : Vec Ideal S1x256x1024 .f32) (r : Fin 256) (d : Fin 1024) :
    dT1 i hl x (ix2 r d) = dl (firstBit i) hl x 1 r d :=
  (slice_apply 2 (by omega) _ _ r d).trans (extT_at i hl x 1 (by omega) r d)
theorem dT2_apply (i : grid1.Coords) (hl : Vec Ideal S1x3x1024 .f32) (x : Vec Ideal S1x256x1024 .f32) (r : Fin 256) (d : Fin 1024) :
    dT2 i hl x (ix2 r d) = dl (firstBit i) hl x 2 r d :=
  (slice_apply 1 (by omega) _ _ r d).trans (extT_at i hl x 2 (by omega) r d)
theorem dT3_apply (i : grid1.Coords) (hl : Vec Ideal S1x3x1024 .f32) (x : Vec Ideal S1x256x1024 .f32) (r : Fin 256) (d : Fin 1024) :
    dT3 i hl x (ix2 r d) = dl (firstBit i) hl x 3 r d :=
  (slice_apply 0 (by omega) _ _ r d).trans (extT_at i hl x 3 (by omega) r d)

/-- The bundle at (r, d), over the delayed tiles: the specification's grouping. -/
theorem bundT_apply (i : grid1.Coords) (hl : Vec Ideal S1x3x1024 .f32) (x : Vec Ideal S1x256x1024 .f32) (r : Fin 256) (d : Fin 1024) :
    bundT i hl x (ix2 r d)
      = ((dl (firstBit i) hl x 0 r d + dl (firstBit i) hl x 1 r d * dl (firstBit i) hl x 0 r (rolled 1 d))
          + (dl (firstBit i) hl x 2 r d * dl (firstBit i) hl x 1 r (rolled 1 d)) * dl (firstBit i) hl x 0 r (rolled 2 d))
        + ((dl (firstBit i) hl x 3 r d * dl (firstBit i) hl x 2 r (rolled 1 d)) * dl (firstBit i) hl x 1 r (rolled 2 d)) * dl (firstBit i) hl x 0 r (rolled 3 d) := by
  unfold bundT
  simp only [addf_apply, mulf_apply, rollT_apply, dT0_apply, dT1_apply, dT2_apply, dT3_apply]
  rfl

/-- The store's payload at entry (0, r, e) of the output tile: the bundle of row `r`, scaled, contracted with column
    `e` of the matrix, plus entry `e` of the bias row. -/
theorem pay_apply (i : grid1.Coords) (hl : Vec Ideal S1x3x1024 .f32) (x : Vec Ideal S1x256x1024 .f32)
    (w : Vec Ideal S1024x1024 .bf16) (bs : Vec Ideal S1x1024 .f32) (p : Fin 1) (r : Fin 256) (e : Fin 1024) :
    k1_pay1 (k1_pay2 (F := Ideal) i hl x w bs) (ix3 p r e)
      = (∑ d : Fin 1024, (bundT i hl x (ix2 r d) * Ideal.ofBits .f32 0x3E800000#32) * w (ix2 d e)) + bs (ix2 0 e) := by
  rw [pay2_eq]
  unfold k1_pay1
  refine (shapeCast_apply _ _ (ix3 p r e) (ix2 r e) ?_).trans ?_
  · rw [Shape.rowMajor_val_three, Shape.rowMajor_val_two]
    show r.val * 1024 + e.val = (p.val * 256 + r.val) * 1024 + e.val
    have := p.isLt; omega
  rw [addf_apply]
  congr 1
  · refine (Cert.LibContract.matmul_plain dot_S256x1024_S1024x1024_S256x1024_1_0_0_1_n_n rfl rfl rfl rfl rfl rfl none _ _ r e).trans ?_
    refine Finset.sum_congr rfl fun d _ => ?_
    rw [shapeCast_self]
    rfl
  · rw [shapeCast_self]
    refine broadcastTo_apply bs _ (ix2 r e) (ix2 0 e) fun a => ?_
    match a with
    | ⟨0, _⟩ => exact (if_pos rfl).symm
    | ⟨1, _⟩ => exact (if_neg (show ¬((1024 : ℕ) = 1) by decide)).symm

/-! ## The bridge to the specification -/

theorem delay_of_le (xs : SV.Idx → EReal) (k : ℕ) (b : Fin 4) (t : Fin 2048) (d : Fin 1024) (h : k ≤ t.val) :
    delay xs k b t d = xs (ix3 b ⟨t.val - k, by have := t.isLt; omega⟩ d) := dif_pos h

theorem delay_of_lt (xs : SV.Idx → EReal) (k : ℕ) (b : Fin 4) (t : Fin 2048) (d : Fin 1024) (h : t.val < k) :
    delay xs k b t d = 0 := dif_neg (by omega)

/-- The tile of time tile `tt` of batch `B` delayed by `k ≤ 3` rows is the sequence delayed by `k` steps at the tile's
    times: row `r` is time `256·tt + r`; for `r < k` the delayed row is a history row, time `256·tt + r - k` when
    `tt ≥ 1` and zero when `tt = 0`, where the sequence has not started. -/
theorem dl_eq_delay (xs : SV.Idx → EReal) (B : Fin 4) (tt : Fin 8) (z : BitVec 1)
    (hz1 : tt.val = 0 → z = 1#1) (hz0 : tt.val ≠ 0 → z = 0#1)
    (hl : Vec Ideal S1x3x1024 .f32) (x : Vec Ideal S1x256x1024 .f32)
    (hx : ∀ (q : Fin 256) (d : Fin 1024), x (ix3 0 q d) = xs (ix3 B ⟨256 * tt.val + q.val, by have := tt.isLt; have := q.isLt; omega⟩ d))
    (hhl : tt.val ≠ 0 → ∀ (u : Fin 3) (d : Fin 1024), hl (ix3 0 u d) = xs (ix3 B ⟨256 * tt.val - 3 + u.val, by have := tt.isLt; have := u.isLt; omega⟩ d))
    (k : ℕ) (hk : k ≤ 3) (r : Fin 256) (d : Fin 1024) :
    dl z hl x k r d = delay xs k B ⟨256 * tt.val + r.val, by have := tt.isLt; have := r.isLt; omega⟩ d := by
  unfold dl
  by_cases h : k ≤ r.val
  · rw [dif_pos h, delay_of_le xs k B _ d (by show k ≤ 256 * tt.val + r.val; omega), hx]
    exact congrArg (fun a => xs (ix3 B a d)) (Fin.ext (by show 256 * tt.val + (r.val - k) = 256 * tt.val + r.val - k; omega))
  · rw [dif_neg h]
    by_cases ht : tt.val = 0
    · rw [hz1 ht, select_one, delay_of_lt xs k B _ d (by show 256 * tt.val + r.val < k; omega)]
    · rw [hz0 ht, select_zero, delay_of_le xs k B _ d (by show k ≤ 256 * tt.val + r.val; omega), hhl ht]
      exact congrArg (fun a => xs (ix3 B a d)) (Fin.ext (by show 256 * tt.val - 3 + (3 + r.val - k) = 256 * tt.val + r.val - k; omega))

/-- So the bundle over the tile is the specification's bundle at the tile's times. -/
theorem bundT_eq_bundleSum (xs : SV.Idx → EReal) (B : Fin 4) (tt : Fin 8) (i : grid1.Coords)
    (hz1 : tt.val = 0 → firstBit i = 1#1) (hz0 : tt.val ≠ 0 → firstBit i = 0#1)
    (hl : Vec Ideal S1x3x1024 .f32) (x : Vec Ideal S1x256x1024 .f32)
    (hx : ∀ (q : Fin 256) (d : Fin 1024), x (ix3 0 q d) = xs (ix3 B ⟨256 * tt.val + q.val, by have := tt.isLt; have := q.isLt; omega⟩ d))
    (hhl : tt.val ≠ 0 → ∀ (u : Fin 3) (d : Fin 1024), hl (ix3 0 u d) = xs (ix3 B ⟨256 * tt.val - 3 + u.val, by have := tt.isLt; have := u.isLt; omega⟩ d))
    (r : Fin 256) (d : Fin 1024) :
    bundT i hl x (ix2 r d) = bundleSum xs B ⟨256 * tt.val + r.val, by have := tt.isLt; have := r.isLt; omega⟩ d := by
  have hD := dl_eq_delay xs B tt (firstBit i) hz1 hz0 hl x hx hhl
  rw [bundT_apply]
  unfold bundleSum
  have h0 := hD 0 (by omega) r
  have h1 := hD 1 (by omega) r
  have h2 := hD 2 (by omega) r
  have h3 := hD 3 (by omega) r
  simp only [h0, h1, h2, h3]

/-- The store's payload at entry (0, r, e) is the specification's output at batch `B`, time `256·tt + r`, feature `e`,
    for the matrix `wt` and bias row `b2` the staged blocks read. -/
theorem pay_eq_outK (xs : SV.Idx → EReal) (wt : SW.Idx → EReal) (b2 : SB2.Idx → EReal) (B : Fin 4) (tt : Fin 8) (i : grid1.Coords)
    (hz1 : tt.val = 0 → firstBit i = 1#1) (hz0 : tt.val ≠ 0 → firstBit i = 0#1)
    (hl : Vec Ideal S1x3x1024 .f32) (x : Vec Ideal S1x256x1024 .f32) (w : Vec Ideal S1024x1024 .bf16) (bs : Vec Ideal S1x1024 .f32)
    (hx : ∀ (q : Fin 256) (d : Fin 1024), x (ix3 0 q d) = xs (ix3 B ⟨256 * tt.val + q.val, by have := tt.isLt; have := q.isLt; omega⟩ d))
    (hhl : tt.val ≠ 0 → ∀ (u : Fin 3) (d : Fin 1024), hl (ix3 0 u d) = xs (ix3 B ⟨256 * tt.val - 3 + u.val, by have := tt.isLt; have := u.isLt; omega⟩ d))
    (hw : ∀ a e : Fin 1024, w (ix2 a e) = wt (ix2 a e)) (hbs : ∀ e : Fin 1024, bs (ix2 0 e) = b2 (ix2 0 e))
    (p : Fin 1) (r : Fin 256) (e : Fin 1024) :
    k1_pay1 (k1_pay2 (F := Ideal) i hl x w bs) (ix3 p r e)
      = outK xs wt b2 (Ideal.ofBits .f32 0x3E800000#32) B ⟨256 * tt.val + r.val, by have := tt.isLt; have := r.isLt; omega⟩ e := by
  rw [pay_apply]
  unfold outK
  rw [hbs e]
  congr 1
  refine Finset.sum_congr rfl fun d _ => ?_
  rw [bundT_eq_bundleSum xs B tt i hz1 hz0 hl x hx hhl r d, hw d e]

end Cert.KernelIdeal.BundleValue

end
-- ==== Proof.KI.BundleBlocks.lean ====
/-
  The window side of the projection region's value: where each window's block at a grid point (b, tt) of the
  [4, 8] grid lies in its array. The time tile and the output tile are block (b, tt, 0) of size [1, 256, 1024] of
  the [4, 2048, 1024] arrays: tile row q is time 256 tt + q of batch b. The halo is block (b, 32 tt - 1, 0) of size
  [1, 8, 1024] (block (b, 0, 0) when tt = 0): its rows 5, 6, 7 are times 256 tt - 3, 256 tt - 2, 256 tt - 1 when
  tt is not 0. The matrix and the bias row are their whole arrays at every point. The output's 32 blocks tile its
  array: (b, t, e) is in the block of the point with coordinates (b, t / 256).
-/
import proofs.«427312_j87016037416990_3_alg».proof.Proof.KI.Bundle
import Idealize.ShloMosaic.Lib.Pipeline.Value
import Idealize.ShloMosaic.Lib.ValueIdx

set_option maxRecDepth 16384

noncomputable section

namespace Cert.KernelIdeal.BundleBlocks

open Cert.KernelIdeal Cert.KernelIdeal.Gen
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-! ## The printed index maps, decided once over the 32 grid points -/

/-- Each window's block index at a point, from the point's coordinates (b, tt): the time tile and the output at
    (b, tt, 0), the halo at (b, 32 tt - 1, 0) (the subtraction stops at 0), the matrix and the bias row at 0. -/
theorem idx_facts : ∀ t : Fin cfg1.N,
    win1_0.index t (0 : Fin 3) = (grid1.coords t 0).val ∧ win1_0.index t (1 : Fin 3) = (grid1.coords t 1).val
    ∧ win1_0.index t (2 : Fin 3) = 0
    ∧ win1_1.index t (0 : Fin 3) = (grid1.coords t 0).val ∧ win1_1.index t (1 : Fin 3) = 32 * (grid1.coords t 1).val - 1
    ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = (grid1.coords t 0).val ∧ win1_4.index t (1 : Fin 3) = (grid1.coords t 1).val
    ∧ win1_4.index t (2 : Fin 3) = 0 :=
  (by decide +kernel : ∀ t : Fin grid1.N, _)

/-- Every block (b, tt, 0) of the output is some point's. -/
theorem idx_onto4 : ∀ (q0 : Fin 4) (q1 : Fin 8), ∃ t : Fin cfg1.N, win1_4.index t = ![q0.val, q1.val, 0] :=
  (by decide +kernel : ∀ (q0 : Fin 4) (q1 : Fin 8), ∃ t : Fin grid1.N, win1_4.index t = ![q0.val, q1.val, 0])

/-- The time coordinate of a point is below 8, the batch coordinate below 4. -/
theorem tt_lt (t : Fin cfg1.N) : (grid1.coords t 1).val < 8 := (grid1.coords t 1).isLt
theorem b_lt (t : Fin cfg1.N) : (grid1.coords t 0).val < 4 := (grid1.coords t 0).isLt

/-! ## Each input block read where its rectangle says -/

/-- The time tile at a point: row q of the tile is time 256 tt + q of batch b. -/
theorem blk0_apply (c : Dev nD) (t : Fin cfg1.N) (q : Fin 256) (d : Fin 1024) :
    (Bundle.iblk1 V c 0 t : Vec Ideal S1x256x1024 .f32) (ix3 0 q d)
      = (V c main_v2 : S4x2048x1024.Idx → EReal)
          (ix3 (grid1.coords t 0) ⟨256 * (grid1.coords t 1).val + q.val, by have := tt_lt t; have := q.isLt; omega⟩ d) := by
  obtain ⟨e0, e1, e2, -⟩ := idx_facts t
  unfold Bundle.iblk1
  rw [View.read_apply]
  show V c main_v2 _ = V c main_v2 _
  congr 1
  funext a
  apply Fin.ext
  match a with
  | ⟨0, _⟩ => show win1_0.index t (0 : Fin 3) * 1 + 1 * 0 = (grid1.coords t 0).val; omega
  | ⟨1, _⟩ => show win1_0.index t (1 : Fin 3) * 256 + 1 * q.val = 256 * (grid1.coords t 1).val + q.val; omega
  | ⟨2, _⟩ => show win1_0.index t (2 : Fin 3) * 1024 + 1 * d.val = d.val; omega

/-- The halo block at a point, at row r of its eight: batch b, time 8 (32 tt - 1) + r. -/
theorem blk1_apply (c : Dev nD) (t : Fin cfg1.N) (r : Fin 8) (d : Fin 1024) :
    (Bundle.iblk1 V c 1 t : Vec Ideal S1x8x1024 .f32) (ix3 0 r d)
      = (V c main_v2 : S4x2048x1024.Idx → EReal)
          (ix3 (grid1.coords t 0) ⟨(32 * (grid1.coords t 1).val - 1) * 8 + r.val, by have := tt_lt t; have := r.isLt; omega⟩ d) := by
  obtain ⟨-, -, -, e0, e1, e2, -⟩ := idx_facts t
  unfold Bundle.iblk1
  rw [View.read_apply]
  show V c main_v2 _ = V c main_v2 _
  congr 1
  funext a
  apply Fin.ext
  match a with
  | ⟨0, _⟩ => show win1_1.index t (0 : Fin 3) * 1 + 1 * 0 = (grid1.coords t 0).val; omega
  | ⟨1, _⟩ => show win1_1.index t (1 : Fin 3) * 8 + 1 * r.val = (32 * (grid1.coords t 1).val - 1) * 8 + r.val; omega
  | ⟨2, _⟩ => show win1_1.index t (2 : Fin 3) * 1024 + 1 * d.val = d.val; omega

/-- The three rows the body reads of the halo (rows 5, 6, 7), at a point whose time coordinate is not 0: the three
    times just before the tile, 256 tt - 3 + u for u = 0, 1, 2, of batch b. -/
theorem halo_apply (c : Dev nD) (t : Fin cfg1.N) (ht : (grid1.coords t 1).val ≠ 0) (u : Fin 3) (d : Fin 1024) :
    View.ld (Bundle.iblk1 V c 1 t : Vec Ideal S1x8x1024 .f32) Bundle.r1_1 (ix3 0 u d)
      = (V c main_v2 : S4x2048x1024.Idx → EReal)
          (ix3 (grid1.coords t 0) ⟨256 * (grid1.coords t 1).val - 3 + u.val, by have := tt_lt t; have := u.isLt; omega⟩ d) := by
  have h8 := tt_lt t
  have hu := u.isLt
  show (Bundle.iblk1 V c 1 t : Vec Ideal S1x8x1024 .f32) (Bundle.r1_1.idx (ix3 0 u d)) = _
  have hi : Bundle.r1_1.idx (ix3 (0 : Fin 1) u d) = ix3 (0 : Fin 1) (⟨5 + u.val, by omega⟩ : Fin 8) d := by
    funext a
    apply Fin.ext
    match a with
    | ⟨0, _⟩ => show 0 + 1 * 0 = 0; omega
    | ⟨1, _⟩ => show 5 + 1 * u.val = 5 + u.val; omega
    | ⟨2, _⟩ => show 0 + 1 * d.val = d.val; omega
  rw [hi, blk1_apply]
  congr 1
  funext a
  apply Fin.ext
  match a with
  | ⟨0, _⟩ => rfl
  | ⟨1, _⟩ => show (32 * (grid1.coords t 1).val - 1) * 8 + (5 + u.val) = 256 * (grid1.coords t 1).val - 3 + u.val; omega
  | ⟨2, _⟩ => rfl

/-- The matrix's block at every point is the whole matrix. -/
theorem blk2_apply (c : Dev nD) (t : Fin cfg1.N) (a e : Fin 1024) :
    (Bundle.iblk1 V c 2 t : Vec Ideal S1024x1024 .bf16) (ix2 a e) = (V c main_v4 : S1024x1024.Idx → EReal) (ix2 a e) := by
  obtain ⟨-, -, -, -, -, -, e0, e1, -⟩ := idx_facts t
  unfold Bundle.iblk1
  rw [View.read_apply]
  show V c main_v4 _ = V c main_v4 _
  congr 1
  funext x
  apply Fin.ext
  match x with
  | ⟨0, _⟩ => show win1_2.index t (0 : Fin 2) * 1024 + 1 * a.val = a.val; omega
  | ⟨1, _⟩ => show win1_2.index t (1 : Fin 2) * 1024 + 1 * e.val = e.val; omega

/-- The bias row's block at every point is the whole row. -/
theorem blk3_apply (c : Dev nD) (t : Fin cfg1.N) (e : Fin 1024) :
    (Bundle.iblk1 V c 3 t : Vec Ideal S1x1024 .f32) (ix2 0 e) = (V c main_v5 : S1x1024.Idx → EReal) (ix2 0 e) := by
  obtain ⟨-, -, -, -, -, -, -, -, e0, e1, -⟩ := idx_facts t
  unfold Bundle.iblk1
  rw [View.read_apply]
  show V c main_v5 _ = V c main_v5 _
  congr 1
  funext x
  apply Fin.ext
  match x with
  | ⟨0, _⟩ => show win1_3.index t (0 : Fin 2) * 1 + 1 * 0 = 0; omega
  | ⟨1, _⟩ => show win1_3.index t (1 : Fin 2) * 1024 + 1 * e.val = e.val; omega

/-! ## The output's blocks -/

/-- Row q of the output tile at a point is time 256 tt + q of batch b. -/
theorem out_emb (t : Fin cfg1.N) (p : Fin 1) (q : Fin 256) (s : Fin 1024) :
    (((cfg1.win 4).blk t).view.emb (ix3 p q s : S1x256x1024.Idx) : S4x2048x1024.Idx)
      = ix3 (grid1.coords t 0) ⟨256 * (grid1.coords t 1).val + q.val, by have := tt_lt t; have := q.isLt; omega⟩ s := by
  obtain ⟨-, -, -, -, -, -, -, -, -, -, e0, e1, e2⟩ := idx_facts t
  have hp : p.val = 0 := by have := p.isLt; omega
  funext a
  apply Fin.ext
  match a with
  | ⟨0, _⟩ => show win1_4.index t (0 : Fin 3) * 1 + 1 * p.val = (grid1.coords t 0).val; omega
  | ⟨1, _⟩ => show win1_4.index t (1 : Fin 3) * 256 + 1 * q.val = 256 * (grid1.coords t 1).val + q.val; omega
  | ⟨2, _⟩ => show win1_4.index t (2 : Fin 3) * 1024 + 1 * s.val = s.val; omega

/-- An index of the output array is in a point's block iff each coordinate is in the block's range on its axis. -/
theorem mem_blk4 (t : Fin cfg1.N) (i : S4x2048x1024.Idx) :
    i ∈ ((cfg1.win 4).blk t).view.set ↔ ∀ a : Fin 3, win1_4.index t a * S1x256x1024.size a ≤ (i a).val
      ∧ (i a).val < win1_4.index t a * S1x256x1024.size a + S1x256x1024.size a := by
  show i ∈ ((View.whole main_v6).slice (win1_4.rect t)).set ↔ _
  rw [View.set_slice_whole, Rect.mem_set_unit]
  exact Iff.rfl

/-- THE COVER: every index (b, t, e) of the output array is in the block of a point that writes back, the one whose
    block index is (b, t / 256, 0). -/
theorem cover4 (j : S4x2048x1024.Idx) :
    ∃ t : Fin cfg1.N, (cfg1.win 4).flush t = true ∧ j ∈ ((cfg1.win 4).blk t).view.set := by
  have h0 : (j 0).val < 4 := (j 0).isLt
  have h1 : (j 1).val < 2048 := (j 1).isLt
  have h2 : (j 2).val < 1024 := (j 2).isLt
  obtain ⟨t, ht⟩ := idx_onto4 ⟨(j 0).val, h0⟩ ⟨(j 1).val / 256, by omega⟩
  have q0 : win1_4.index t (0 : Fin 3) = (j 0).val := congrFun ht 0
  have q1 : win1_4.index t (1 : Fin 3) = (j 1).val / 256 := congrFun ht 1
  have q2 : win1_4.index t (2 : Fin 3) = 0 := congrFun ht 2
  refine ⟨t, flush1_4 t, ?_⟩
  rw [mem_blk4]
  intro a
  match a with
  | ⟨0, _⟩ => show win1_4.index t (0 : Fin 3) * 1 ≤ (j 0).val ∧ (j 0).val < win1_4.index t (0 : Fin 3) * 1 + 1; omega
  | ⟨1, _⟩ => show win1_4.index t (1 : Fin 3) * 256 ≤ (j 1).val ∧ (j 1).val < win1_4.index t (1 : Fin 3) * 256 + 256; omega
  | ⟨2, _⟩ => show win1_4.index t (2 : Fin 3) * 1024 ≤ (j 2).val ∧ (j 2).val < win1_4.index t (2 : Fin 3) * 1024 + 1024; omega

/-! ## The bit "the point's time coordinate is 0" -/

/-- The body's comparison of the time coordinate's word with 0: the bit is 1 at the first time tile, 0 elsewhere. -/
theorem firstBit : ∀ t : Fin cfg1.N,
    ((grid1.coords t 1).val = 0 → Scalar.cmpi .eq (BitVec.ofNat 32 (grid1.coords t 1).val) 0#32 = 1#1)
    ∧ ((grid1.coords t 1).val ≠ 0 → Scalar.cmpi .eq (BitVec.ofNat 32 (grid1.coords t 1).val) 0#32 = 0#1) :=
  (by decide +kernel : ∀ t : Fin grid1.N, _)

end Cert.KernelIdeal.BundleBlocks

end
-- ==== Proof.KI.BundleValue.lean ====
/- What custom_call 1 leaves in its output array, as ONE function of the arrays it read: every write-back is a block
   of the specification's output (`Cert.HdcSpec.outK`) of the token vectors, the matrix laid out [feature in, feature
   out] and the bias row, and the output's blocks tile its array. -/
import proofs.«427312_j87016037416990_3_alg».proof.Proof.KI.Bundle
import proofs.«427312_j87016037416990_3_alg».proof.Proof.KI.BundlePayload
import proofs.«427312_j87016037416990_3_alg».proof.Proof.KI.BundleBlocks
import Idealize.ShloMosaic.Lib.Pipeline.Value
import Idealize.ShloMosaic.Lib.ValueIdx
import Idealize.ShloMosaic.Lib.Tactic

set_option maxRecDepth 16384

noncomputable section

namespace Cert.KernelIdeal.BundleValue

open Cert.KernelIdeal Cert.KernelIdeal.Gen Cert.HdcSpec
open Idealize.ShloMosaic Idealize.ShloMosaic.TcCoe Idealize.ShloMosaic.ValueIdx Idealize.SL.Sem
open Idealize.ShloMosaic.Pipeline (Dat)
open scoped BigOperators

/-! ## From the blocks to the array -/

variable (V : (c : Dev nD) → (b : Ref sig .tc) → Buf (Elt Ideal) ((c : Thread nD τ).loc b))

/-- What region 1 leaves in its output array, as one function of the arrays it read: the specification's output of the
    token vectors, the matrix laid out [feature in, feature out] and the bias row, at the scale a quarter. -/
abbrev G1 (c : Dev nD) : S4x2048x1024.Idx → EReal :=
  fun j => outK (V c main_v2) (V c main_v4) (V c main_v5) (Ideal.ofBits .f32 0x3E800000#32) (j 0) (j 1) (j 2)

theorem hz3 : (![0, 0, 0] : Fin 3 → Nat) = fun _ => 0 := funext fun a => by fin_cases a <;> rfl
theorem hz2 : (![0, 0] : Fin 2 → Nat) = fun _ => 0 := funext fun a => by fin_cases a <;> rfl

/-- What point `t` writes back is block `t` of `G1`. -/
theorem flushed_eq (c : Dev nD) (t : Fin cfg1.N) :
    (Bundle.dat1 V c).flushed 4 t = ((cfg1.win 4).blk t).view.read (Elt Ideal) (G1 V c) := by
  show (cfg1.win 4).cut (grid1.coords t) ((Bundle.dat1 V c).after 4 t) = _
  rw [Bundle.after1_4]
  unfold Bundle.out1_4
  rw [View.canon_unit_zero hz3]
  simp only [View.ld_unit_zero (S := S1x256x1024) hz3, View.ld_unit_zero (S := S1024x1024) hz2, View.ld_unit_zero (S := S1x1024) hz2]
  refine funext fun (y : S1x256x1024.Idx) => ?_
  obtain ⟨p, q, s, rfl⟩ : ∃ p q s, y = ix3 p q s := ⟨y 0, y 1, y 2, eq_ix3 y⟩
  rw [View.read_apply, BundleBlocks.out_emb]
  obtain ⟨hz1, hz0⟩ := BundleBlocks.firstBit t
  exact pay_eq_outK (V c main_v2) (V c main_v4) (V c main_v5) (grid1.coords t 0) (grid1.coords t 1) (grid1.coords t) hz1 hz0
    (View.ld (Bundle.iblk1 V c 1 t) Bundle.r1_1) (Bundle.iblk1 V c 0 t) (Bundle.iblk1 V c 2 t) (Bundle.iblk1 V c 3 t)
    (BundleBlocks.blk0_apply V c t) (fun ht => BundleBlocks.halo_apply V c t ht) (BundleBlocks.blk2_apply V c t) (BundleBlocks.blk3_apply V c t) p q s

/-- The output's blocks tile its array, so after the run the array is `G1`. -/
theorem final1 (c : Dev nD) :
    ((Bundle.dat1 V c).arrAt 4 cfg1.N : S4x2048x1024.Idx → EReal)
      = fun j => outK (V c main_v2) (V c main_v4) (V c main_v5) (Ideal.ofBits .f32 0x3E800000#32) (j 0) (j 1) (j 2) :=
  (Bundle.dat1 V c).arrAt_eq_of_cover 4 (G1 V c) (fun t _ => flushed_eq V c t) BundleBlocks.cover4

end Cert.KernelIdeal.BundleValue

end
-- ==== Proof.KI.GatherBlocks.lean ====
/-
  The window side of the gather region's value. Its pipeline has one window, the output array [8192, 1024] in
  blocks [8, 1024] on a grid of 1024 points; the window's index map sends point t to block (t, 0) and does not read
  the prefetched table, so every fact here holds for any admissible contents of the table, kept a variable. Block
  row p of point t is row 8 t + p of the array; every point writes its block back; the 1024 blocks tile the array:
  row r is in the block of point r / 8.
-/
import proofs.«427312_j87016037416990_3_alg».proof.Proof.Gen.KernelIdeal.Launch
import Idealize.ShloMosaic.Lib.Pipeline.Value
import Idealize.ShloMosaic.Lib.ValueIdx

set_option maxRecDepth 16384

noncomputable section

namespace Cert.KernelIdeal.GatherBlocks

open Cert.KernelIdeal Cert.KernelIdeal.Gen
open Idealize.ShloMosaic Idealize.ShloMosaic.TcCoe Idealize.ShloMosaic.ValueIdx
open Idealize.SL Idealize.SL.Sem

variable {F : FTy → Type} [FloatOps F] (a : (pcfg0 (F := F)).Adm)

/-! ## The grid -/

/-- The grid has 1024 points. -/
theorem N0 : (cfg0 a).N = 1024 := N_0

/-- A point's number is below 1024. -/
theorem t_lt (t : Fin (cfg0 a).N) : t.val < 1024 := by
  exact lt_of_lt_of_eq t.isLt (N0 a)

/-- A point's one coordinate is its number. -/
theorem coords0 (t : Fin (cfg0 a).N) : ((cfg0 a).grid.coords t 0).val = t.val := by
  have ht := t_lt a t
  show t.val / grid0.stride 0 % 1024 = t.val
  rw [show grid0.stride 0 = 1 from by decide]
  omega

/-! ## The window's block index -/

/-- The window's index map is the printed one at the point's coordinates, whatever the table holds. -/
theorem index0 (t : Fin (cfg0 a).N) : ((cfg0 a).win 0).index t = cc0_transform_1 ((cfg0 a).grid.coords t) := rfl

/-- Point t's block is block (t, 0). -/
theorem idx_facts0 (t : Fin (cfg0 a).N) :
    ((cfg0 a).win 0).index t (0 : Fin 2) = t.val ∧ ((cfg0 a).win 0).index t (1 : Fin 2) = 0 := by
  have ht := t_lt a t
  rw [index0]
  refine ⟨?_, rfl⟩
  show (BitVec.ofNat 32 ((cfg0 a).grid.coords t 0).val).toNat = t.val
  rw [coords0, BitVec.toNat_ofNat]
  omega

/-! ## The output's blocks -/

/-- Row p of the block of point t is row 8 t + p of the array. -/
theorem out_emb0 (t : Fin (cfg0 a).N) (p : Fin 8) (s : Fin 1024) :
    ((((cfg0 a).win 0).blk t).view.emb (ix2 p s : S8x1024.Idx) : S8192x1024.Idx)
      = ix2 ⟨8 * t.val + p.val, by have := t_lt a t; have := p.isLt; omega⟩ s := by
  obtain ⟨e0, e1⟩ := idx_facts0 a t
  funext x
  apply Fin.ext
  match x with
  | ⟨0, _⟩ => show ((cfg0 a).win 0).index t (0 : Fin 2) * 8 + 1 * p.val = 8 * t.val + p.val; omega
  | ⟨1, _⟩ => show ((cfg0 a).win 0).index t (1 : Fin 2) * 1024 + 1 * s.val = s.val; omega

/-- Every point writes its block back: the next point's block index differs, and the last point always does. -/
theorem flush0 (t : Fin (cfg0 a).N) : ((cfg0 a).win 0).flush t = true := by
  have ht := t_lt a t
  have hN := N0 a
  unfold Pipeline.Window.flush
  rw [show ((cfg0 a).win 0).isOut = true from rfl, Bool.true_and, Bool.or_eq_true, decide_eq_true_eq, decide_eq_true_eq]
  by_cases h : t.val + 1 = (cfg0 a).grid.N
  · exact Or.inl h
  · refine Or.inr ⟨by have : (cfg0 a).grid.N = 1024 := hN; omega, fun he => ?_⟩
    have e := congrFun he (0 : Fin 2)
    rw [(idx_facts0 a _).1, (idx_facts0 a _).1] at e
    simp at e

/-- An index of the output array is in a point's block iff each coordinate is in the block's range on its axis. -/
theorem mem_blk0 (t : Fin (cfg0 a).N) (i : S8192x1024.Idx) :
    i ∈ (((cfg0 a).win 0).blk t).view.set ↔ ∀ x : Fin 2, ((cfg0 a).win 0).index t x * S8x1024.size x ≤ (i x).val
      ∧ (i x).val < ((cfg0 a).win 0).index t x * S8x1024.size x + S8x1024.size x := by
  refine Iff.trans (Iff.of_eq (congrArg (fun S => i ∈ S)
    (View.set_slice_whole main_v1 (((cfg0 a).win 0).rect t)))) ?_
  exact Rect.mem_set_unit

/-- THE COVER: row r of the output array is in the block of point r / 8, which writes it back. -/
theorem cover0 (j : S8192x1024.Idx) :
    ∃ t : Fin (cfg0 a).N, ((cfg0 a).win 0).flush t = true ∧ j ∈ (((cfg0 a).win 0).blk t).view.set := by
  have h0 : (j 0).val < 8192 := (j 0).isLt
  have h1 : (j 1).val < 1024 := (j 1).isLt
  refine ⟨⟨(j 0).val / 8, by rw [N0 a]; omega⟩, flush0 a _, ?_⟩
  rw [mem_blk0]
  obtain ⟨e0, e1⟩ := idx_facts0 a ⟨(j 0).val / 8, by rw [N0 a]; omega⟩
  intro x
  match x with
  | ⟨0, _⟩ =>
    show ((cfg0 a).win 0).index _ (0 : Fin 2) * 8 ≤ (j 0).val ∧ (j 0).val < ((cfg0 a).win 0).index _ (0 : Fin 2) * 8 + 8
    rw [e0]
    show (j 0).val / 8 * 8 ≤ (j 0).val ∧ (j 0).val < (j 0).val / 8 * 8 + 8
    omega
  | ⟨1, _⟩ =>
    show ((cfg0 a).win 0).index _ (1 : Fin 2) * 1024 ≤ (j 1).val ∧ (j 1).val < ((cfg0 a).win 0).index _ (1 : Fin 2) * 1024 + 1024
    rw [e1]
    omega

/-! ## The scalar-memory offsets the body loads at -/

/-- At the point with coordinate i, the body's eight loads of the token table are at offsets 8 i, 8 i + 1, …, 8 i + 7. -/
theorem offsets (i : grid0.Coords) :
    k0_off1 i = ![8 * (i 0).val] ∧ k0_off3 i = ![8 * (i 0).val + 1] ∧ k0_off5 i = ![8 * (i 0).val + 2]
    ∧ k0_off7 i = ![8 * (i 0).val + 3] ∧ k0_off9 i = ![8 * (i 0).val + 4] ∧ k0_off11 i = ![8 * (i 0).val + 5]
    ∧ k0_off13 i = ![8 * (i 0).val + 6] ∧ k0_off15 i = ![8 * (i 0).val + 7] :=
  ⟨k0_off1_eq i, k0_off3_eq i, k0_off5_eq i, k0_off7_eq i, k0_off9_eq i, k0_off11_eq i, k0_off13_eq i, k0_off15_eq i⟩

end Cert.KernelIdeal.GatherBlocks

end
-- ==== Proof.KI.GatherValue.lean ====
/- What custom_call 0 (the row gather) leaves in its output array, as ONE function of the table of words and the
   embedding table: row r of the result is row tok[r] of the embedding table. The body's eight transfers are eight
   pieces of the output block; the transfer of row j reads the word at table offset 8 t + j and copies that row of the
   embedding table, so at point t the block is rows 8 t … 8 t + 7 of that function; the 1024 blocks tile the array. -/
import proofs.«427312_j87016037416990_3_alg».proof.Proof.KI.Gather
import proofs.«427312_j87016037416990_3_alg».proof.Proof.KI.GatherBlocks
import Idealize.ShloMosaic.Lib.Pipeline.Value
import Idealize.ShloMosaic.Lib.ValueIdx
import Idealize.ShloMosaic.Lib.Tactic

set_option maxRecDepth 16384

noncomputable section

namespace Cert.KernelIdeal.GatherValue

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)

variable {F : FTy → Type} [FloatOps F]

/-! ## One word of the table, one row of the embedding table, one row of the block -/

/-- The one-word load at offset `n` of the table held whole reads the table's word `n`. -/
theorem word_at (ft : S8192.Idx → BitVec 32) (off : Fin 1 → Nat) (n : Fin 8192) (hoff : off 0 = n.val)
    (inb : ∀ a, off a + S1.size a ≤ S8192.size a) (h1 : 0 < S1.numel) :
    (Memref.whole main_v0 : Memref sig .tc .smem S8192 .i32).view.readAt (Elt F) (Rect.unit (s := S8192) off S1.size inb).toLoadRect ft (Shape.Idx.first h1)
      = ft (ix1 n) := by
  rw [View.readAt_eq_ld]
  show ft _ = ft _
  congr 1
  funext a
  apply Fin.ext
  match a with
  | ⟨0, _⟩ =>
    show off 0 + 1 * (Shape.Idx.first h1 (0 : Fin 1)).val = n.val
    have : (Shape.Idx.first h1 (0 : Fin 1)).val = 0 := by
      have := (Shape.Idx.first h1 (0 : Fin 1)).isLt
      have e : S1.size (0 : Fin 1) = 1 := by decide
      omega
    rw [this, hoff]; omega

/-- What a transfer of row `v` of the embedding table, read through its squeezed [1, 1024] slice, moves: entry `z` is
    entry (v, z) of the table. -/
theorem row_read (fh : S32000x1024.Idx → Elt F .f32) (off : Fin 2 → Nat) (v : Fin 32000) (hoff : off 0 = v.val ∧ off 1 = 0)
    (inb : ∀ a, off a + S1x1024.size a ≤ S32000x1024.size a)
    (hr : ∀ a, (Rect.unit (s := S32000x1024) off S1x1024.size inb).stride a = 1) (z : Fin 1024) :
    ReadAs.same.apply (View.read (Elt F) (((Memref.whole main_arg1 : Memref sig .tc .hbm S32000x1024 .f32).slice (Rect.unit (s := S32000x1024) off S1x1024.size inb) hr).squeeze S1024 squeezes_S1x1024_S1024).view fh) (ix1 z)
      = fh (ix2 v z) := by
  rw [ReadAs.apply_same]
  have hc0 : S1x1024.ShapeCasts S1024 := by decide
  have hc : (Rect.unit (s := S32000x1024) off S1x1024.size inb).shape.ShapeCasts S1024 := hc0
  rw [Memref.read_squeeze_slice (Memref.whole main_arg1) _ hr squeezes_S1x1024_S1024 hc fh]
  refine (shapeCast_apply _ hc (ix1 z) (ix2 0 z) ?_).trans ?_
  · rw [Shape.rowMajor_val_two, Shape.rowMajor_val_one]
    show (0 : ℕ) * 1024 + z.val = z.val
    omega
  rw [View.readAt_eq_ld]
  show fh _ = fh _
  congr 1
  funext a
  apply Fin.ext
  match a with
  | ⟨0, _⟩ => show off 0 + 1 * (0 : ℕ) = v.val; rw [hoff.1]; omega
  | ⟨1, _⟩ => show off 1 + 1 * z.val = z.val; rw [hoff.2]; omega

/-- A payload over [1024] re-indexed by [1, 1024], as a squeezed row's write lays it: entry (0, s) is entry s. -/
theorem unsq_apply {Val : EltTy → Type} (hq : S1x1024.Squeezes S1024) (w : S1024.Idx → Val .f32) (p : Fin 1) (s : Fin 1024) :
    w ((Shape.reshapeEquiv hq.numel_eq).symm (ix2 p s)) = w (ix1 s) := by
  congr 1
  rw [Shape.reshapeEquiv_symm]
  refine Shape.reshapeEquiv_eq_of_rowMajor _ ?_
  rw [Shape.rowMajor_val_two, Shape.rowMajor_val_one]
  show s.val = p.val * 1024 + s.val
  have := p.isLt; omega

/-- Row `j`'s rectangle of the [8, 1024] block puts entry (0, s) of its payload at (j, s). -/
theorem emb_row (j : ℕ) (hj : j < 8) (inb : ∀ a, (![j, 0] : Fin 2 → Nat) a + S1x1024.size a ≤ S8x1024.size a) (p : Fin 1) (s : Fin 1024) :
    (Rect.unit (s := S8x1024) ![j, 0] S1x1024.size inb).emb (ix2 p s) = ix2 ⟨j, hj⟩ s := by
  funext a
  apply Fin.ext
  match a with
  | ⟨0, _⟩ => show j + 1 * p.val = j; have := p.isLt; omega
  | ⟨1, _⟩ => show 0 + 1 * s.val = s.val; omega

/-! ## The block a point leaves -/

section Region
variable (V : (c : Dev nD) → (b : Ref sig .tc) → Buf (Elt F) ((c : Thread nD τ).loc b))
variable (a : (pcfg0 (F := F)).Adm) (hT : Gather.TokOk (a.1 0))

/-- The table's word `r`, as a row of the embedding table. -/
abbrev tokRow (r : Fin 8192) : Fin 32000 := ⟨((a.1 0 : S8192.Idx → BitVec 32) (ix1 r)).toNat, hT _⟩

/-- What region 0 leaves in its output array: row `r` is row `tok[r]` of the embedding table. -/
abbrev G0 (c : Dev nD) : S8192x1024.Idx → Elt F .f32 :=
  fun y => (V c main_arg1 : S32000x1024.Idx → Elt F .f32) (ix2 (tokRow a hT (y 0)) (y 1))

/-- Block `t` of it: rows `8 t … 8 t + 7`. -/
abbrev blockAt (c : Dev nD) (t : Fin (cfg0 a).N) : S8x1024.Idx → Elt F .f32 :=
  fun y => G0 V a hT c (ix2 ⟨8 * t.val + (y 0).val, by have := GatherBlocks.t_lt a t; have : (y 0).val < 8 := (y 0).isLt; omega⟩ (y 1))

/-- At point `t` the body's eight loads of the table are at words `8 t`, …, `8 t + 7`. -/
theorem off_at (t : Fin (cfg0 a).N) :
    k0_off1 (grid0.coords t) 0 = 8 * t.val + 0 ∧ k0_off3 (grid0.coords t) 0 = 8 * t.val + 1
    ∧ k0_off5 (grid0.coords t) 0 = 8 * t.val + 2 ∧ k0_off7 (grid0.coords t) 0 = 8 * t.val + 3
    ∧ k0_off9 (grid0.coords t) 0 = 8 * t.val + 4 ∧ k0_off11 (grid0.coords t) 0 = 8 * t.val + 5
    ∧ k0_off13 (grid0.coords t) 0 = 8 * t.val + 6 ∧ k0_off15 (grid0.coords t) 0 = 8 * t.val + 7 := by
  obtain ⟨e1, e3, e5, e7, e9, e11, e13, e15⟩ := GatherBlocks.offsets (grid0.coords t)
  have hc : ((grid0.coords t) 0).val = t.val := GatherBlocks.coords0 a t
  refine ⟨(congrFun e1 0).trans ?_, (congrFun e3 0).trans ?_, (congrFun e5 0).trans ?_, (congrFun e7 0).trans ?_,
    (congrFun e9 0).trans ?_, (congrFun e11 0).trans ?_, (congrFun e13 0).trans ?_, (congrFun e15 0).trans ?_⟩
  · show 8 * ((grid0.coords t) 0).val = 8 * t.val + 0; omega
  · show 8 * ((grid0.coords t) 0).val + 1 = 8 * t.val + 1; omega
  · show 8 * ((grid0.coords t) 0).val + 2 = 8 * t.val + 2; omega
  · show 8 * ((grid0.coords t) 0).val + 3 = 8 * t.val + 3; omega
  · show 8 * ((grid0.coords t) 0).val + 4 = 8 * t.val + 4; omega
  · show 8 * ((grid0.coords t) 0).val + 5 = 8 * t.val + 5; omega
  · show 8 * ((grid0.coords t) 0).val + 6 = 8 * t.val + 6; omega
  · show 8 * ((grid0.coords t) 0).val + 7 = 8 * t.val + 7; omega

/-- ONE PIECE: the transfer whose source row is the word loaded at table offset `8 t + j` and whose target is row `j`
    of the block leaves, at every index of its rectangle, block `t` of `G0` there. -/
theorem piece_ok (c : Dev nD) (t : Fin (cfg0 a).N) (j : ℕ) (hj : j < 8)
    (offT : Fin 1 → Nat) (hoffT : offT 0 = 8 * t.val + j) (inbT : ∀ a, offT a + S1.size a ≤ S8192.size a) (h1 : 0 < S1.numel)
    (offH : Fin 2 → Nat)
    (hoffH : offH 0 = ((Memref.whole main_v0 : Memref sig .tc .smem S8192 .i32).view.readAt (Elt F) (Rect.unit (s := S8192) offT S1.size inbT).toLoadRect (a.1 0) (Shape.Idx.first h1) : BitVec 32).toNat ∧ offH 1 = 0)
    (inbH : ∀ a, offH a + S1x1024.size a ≤ S32000x1024.size a)
    (hr : ∀ a, (Rect.unit (s := S32000x1024) offH S1x1024.size inbH).stride a = 1)
    (inbR : ∀ a, (![j, 0] : Fin 2 → Nat) a + S1x1024.size a ≤ S8x1024.size a) (x : S1x1024.Idx) :
    Gather.unsq squeezes_S1x1024_S1024 (ReadAs.same.apply (View.read (Elt F) (((Memref.whole main_arg1 : Memref sig .tc .hbm S32000x1024 .f32).slice (Rect.unit (s := S32000x1024) offH S1x1024.size inbH) hr).squeeze S1024 squeezes_S1x1024_S1024).view (V c main_arg1))) x
      = blockAt V a hT c t ((Rect.unit (s := S8x1024) ![j, 0] S1x1024.size inbR).emb x) := by
  have ht := GatherBlocks.t_lt a t
  obtain ⟨p, s, rfl⟩ : ∃ p s, x = ix2 p s := ⟨x 0, x 1, eq_ix2 x⟩
  rw [emb_row j hj inbR p s]
  refine (unsq_apply squeezes_S1x1024_S1024 _ p s).trans ?_
  have hw := word_at (F := F) (a.1 0) offT ⟨8 * t.val + j, by omega⟩ hoffT inbT h1
  refine (row_read (V c main_arg1) offH (tokRow a hT ⟨8 * t.val + j, by omega⟩) ⟨?_, hoffH.2⟩ inbH hr s).trans ?_
  · rw [hoffH.1, hw]
  · rfl

/-- THE OUTPUT BLOCK the body leaves at point `t` is block `t` of `G0`. -/
theorem outs_eq (c : Dev nD) (t : Fin (cfg0 a).N) : Gather.outsAt0 V a hT c t = blockAt V a hT c t := by
  unfold Gather.outsAt0 Gather.out0_A_0
  refine (View.read_writes_eq_canon _ _ _ (Gather.cover0_A_0 c _ _ _ _ _ _ _ _ _ _ _ _ _)).trans ?_
  funext y
  refine View.canon_apply_of_pieces (blockAt V a hT c t) _ ?_ y (Gather.cover0_A_0 c _ _ _ _ _ _ _ _ _ _ _ _ _ y)
  unfold Gather.kernelRun0_A
  dsimp only
  unfold Gather.kernelRun0_A.sl.dma8 Gather.kernelRun0_A.sl.dma7 Gather.kernelRun0_A.sl.dma6 Gather.kernelRun0_A.sl.dma5 Gather.kernelRun0_A.sl.dma4 Gather.kernelRun0_A.sl.dma3 Gather.kernelRun0_A.sl.dma2 Gather.kernelRun0_A.sl.dma1
  unfold Gather.kernelRun0_A.sl.r_7 Gather.kernelRun0_A.sl.r_6 Gather.kernelRun0_A.sl.r_5 Gather.kernelRun0_A.sl.r_4 Gather.kernelRun0_A.sl.r_3 Gather.kernelRun0_A.sl.r_2 Gather.kernelRun0_A.sl.r_1 Gather.kernelRun0_A.sl.r
  intro p hp x
  obtain ⟨o1, o3, o5, o7, o9, o11, o13, o15⟩ := off_at a t
  simp only [List.mem_cons, List.mem_nil_iff, or_false] at hp
  rcases hp with rfl | rfl | rfl | rfl | rfl | rfl | rfl | rfl
  · dsimp only
    exact piece_ok V a hT c t 7 (by omega) (k0_off15 (grid0.coords t)) o15 _ _ (k0_off16 _) ⟨rfl, rfl⟩ _ (fun _ => rfl) _ x
  · dsimp only
    exact piece_ok V a hT c t 6 (by omega) (k0_off13 (grid0.coords t)) o13 _ _ (k0_off14 _) ⟨rfl, rfl⟩ _ (fun _ => rfl) _ x
  · dsimp only
    exact piece_ok V a hT c t 5 (by omega) (k0_off11 (grid0.coords t)) o11 _ _ (k0_off12 _) ⟨rfl, rfl⟩ _ (fun _ => rfl) _ x
  · dsimp only
    exact piece_ok V a hT c t 4 (by omega) (k0_off9 (grid0.coords t)) o9 _ _ (k0_off10 _) ⟨rfl, rfl⟩ _ (fun _ => rfl) _ x
  · dsimp only
    exact piece_ok V a hT c t 3 (by omega) (k0_off7 (grid0.coords t)) o7 _ _ (k0_off8 _) ⟨rfl, rfl⟩ _ (fun _ => rfl) _ x
  · dsimp only
    exact piece_ok V a hT c t 2 (by omega) (k0_off5 (grid0.coords t)) o5 _ _ (k0_off6 _) ⟨rfl, rfl⟩ _ (fun _ => rfl) _ x
  · dsimp only
    exact piece_ok V a hT c t 1 (by omega) (k0_off3 (grid0.coords t)) o3 _ _ (k0_off4 _) ⟨rfl, rfl⟩ _ (fun _ => rfl) _ x
  · dsimp only
    exact piece_ok V a hT c t 0 (by omega) (k0_off1 (grid0.coords t)) o1 _ _ (k0_off2 _) ⟨rfl, rfl⟩ _ (fun _ => rfl) _ x

/-! ## From the blocks to the array -/

/-- What point `t` writes back is block `t` of `G0`. -/
theorem flushed_eq0 (c : Dev nD) (t : Fin (cfg0 a).N) :
    (Gather.dat0 V a hT c).flushed 0 t = (((cfg0 a).win 0).blk t).view.read (Elt F) (G0 V a hT c) := by
  show ((cfg0 a).win 0).cut ((cfg0 a).grid.coords t) ((Gather.dat0 V a hT c).after 0 t) = _
  rw [Gather.after0_0, outs_eq]
  refine funext fun (y : S8x1024.Idx) => ?_
  obtain ⟨p, s, rfl⟩ : ∃ p s, y = ix2 p s := ⟨y 0, y 1, eq_ix2 y⟩
  show _ = G0 V a hT c ((((cfg0 a).win 0).blk t).view.emb (ix2 p s))
  rw [GatherBlocks.out_emb0 a t p s]
  rfl

/-- The output's blocks tile its array, so after the run row `r` of the array is row `tok[r]` of the embedding table. -/
theorem final0 (c : Dev nD) :
    ((Gather.dat0 V a hT c).arrAt 0 (cfg0 a).N : S8192x1024.Idx → Elt F .f32)
      = fun (y : S8192x1024.Idx) => (V c main_arg1 : S32000x1024.Idx → Elt F .f32) (ix2 ⟨((a.1 0 : S8192.Idx → BitVec 32) (ix1 (y 0))).toNat, hT _⟩ (y 1)) :=
  (Gather.dat0 V a hT c).arrAt_eq_of_cover 0 (G0 V a hT c) (fun t _ => flushed_eq0 V a hT c t) (GatherBlocks.cover0 a)

end Region

end Cert.KernelIdeal.GatherValue

end
-- ==== Proof.RefLayout.lean ====
/-
  The layout operations of the reference read at an index, over literal shapes: a roll along the feature axis
  printed as a concatenation of two slices; a delay along the time axis printed as a pad in front and a slice;
  the row gather of the embedding table.
-/
import proofs.«427312_j87016037416990_3_alg».proof.Proof.Gen.ReferenceIdeal
import proofs.«427312_j87016037416990_3_alg».proof.Proof.Spec
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.RefLayout

open Idealize.ShloMosaic Idealize.ShloMosaic.ValueIdx Cert.HdcSpec

section Layout
variable {α : Type}

/-- A roll along the feature axis, spelt as the last n₁ features laid in front of the first n₂ (n₁ + n₂ = 1024):
    entry d reads entry (d + n₂) modulo 1024. -/
theorem roll_apply (n₁ n₂ : Nat) (hn : n₁ + n₂ = 1024) (y : SV.Idx → α)
    (hs₁ : SV.Slices ![0, 0, n₂] ⟨3, ![4, 2048, n₁]⟩) (hs₂ : SV.Slices ![0, 0, 0] ⟨3, ![4, 2048, n₂]⟩)
    (hc : Shape.Concatenates [⟨3, ![4, 2048, n₁]⟩, ⟨3, ![4, 2048, n₂]⟩] SV 2)
    (b : Fin 4) (t : Fin 2048) (d d' : Fin 1024) (hd : d'.val = (d.val + n₂) % 1024) :
    concatenate SV 2 [⟨⟨3, ![4, 2048, n₁]⟩, extractStridedSlice ⟨3, ![4, 2048, n₁]⟩ ![0, 0, n₂] y hs₁⟩,
        ⟨⟨3, ![4, 2048, n₂]⟩, extractStridedSlice ⟨3, ![4, 2048, n₂]⟩ ![0, 0, 0] y hs₂⟩] hc (ix3 b t d)
      = y (ix3 b t d') := by
  have hdlt := d.isLt
  by_cases hlt : d.val < n₁
  · rw [concatenate_pair_apply_left (t := SV) (s₁ := ⟨3, ![4, 2048, n₁]⟩) (s₂ := ⟨3, ![4, 2048, n₂]⟩) (2 : Fin 3) _ _ hc (ix3 b t d) rfl (ix3 b t (⟨d.val, hlt⟩ : Fin n₁)) (fun a => by
        match a with
        | ⟨0, _⟩ => rfl
        | ⟨1, _⟩ => rfl
        | ⟨2, _⟩ => rfl)]
    exact extractStridedSlice_apply _ y hs₁ _ (ix3 b t d') (fun a => by
        match a with
        | ⟨0, _⟩ => show b.val = 0 + b.val; omega
        | ⟨1, _⟩ => show t.val = 0 + t.val; omega
        | ⟨2, _⟩ => show d'.val = n₂ + d.val; omega)
  · rw [concatenate_pair_apply_right (t := SV) (s₁ := ⟨3, ![4, 2048, n₁]⟩) (s₂ := ⟨3, ![4, 2048, n₂]⟩) (2 : Fin 3) _ _ hc (ix3 b t d) rfl rfl (ix3 b t (⟨d.val - n₁, by omega⟩ : Fin n₂)) (fun a ha => by
        match a with
        | ⟨0, _⟩ => rfl
        | ⟨1, _⟩ => rfl
        | ⟨2, _⟩ => exact absurd rfl ha) (by show (d.val - n₁) + n₁ = d.val; omega)]
    exact extractStridedSlice_apply _ y hs₂ _ (ix3 b t d') (fun a => by
        match a with
        | ⟨0, _⟩ => show b.val = 0 + b.val; omega
        | ⟨1, _⟩ => show t.val = 0 + t.val; omega
        | ⟨2, _⟩ => show d'.val = 0 + (d.val - n₁); omega)

/-- A delay by k steps along the time axis, spelt as k padding rows in front and the first 2048 rows kept:
    time t reads time t - k, and the padding value before time k. -/
theorem shift_apply (k m : Nat) (y : SV.Idx → α) {u : Shape} (v : u.Idx → α)
    (hp : SV.Pads (![0, k, 0] : Fin 3 → Nat) ![0, 0, 0] ![0, 0, 0] ⟨3, ![4, m, 1024]⟩) (hu : 0 < u.numel)
    (hsl : (⟨3, ![4, m, 1024]⟩ : Shape).Slices ![0, 0, 0] SV) (b : Fin 4) (t : Fin 2048) (d : Fin 1024) :
    extractStridedSlice SV ![0, 0, 0] (pad ⟨3, ![4, m, 1024]⟩ ![0, k, 0] ![0, 0, 0] ![0, 0, 0] y v hp hu) hsl (ix3 b t d)
      = if h : k ≤ t.val then y (ix3 b ⟨t.val - k, by have := t.isLt; omega⟩ d) else v (Shape.Idx.first hu) := by
  have htlt := t.isLt
  have hm : t.val < m := by
    have e : (0 : Nat) + 2048 ≤ m := hsl.2 (1 : Fin 3)
    omega
  refine (extractStridedSlice_apply _ _ hsl (ix3 b t d) (ix3 b (⟨t.val, hm⟩ : Fin m) d) (fun a => by
    match a with
    | ⟨0, _⟩ => show b.val = 0 + b.val; omega
    | ⟨1, _⟩ => show t.val = 0 + t.val; omega
    | ⟨2, _⟩ => show d.val = 0 + d.val; omega)).trans ?_
  by_cases h : k ≤ t.val
  · rw [dif_pos h]
    exact pad_apply_of_inside _ _ _ y v hp hu _ (ix3 b ⟨t.val - k, by omega⟩ d) (fun a => by
      match a with
      | ⟨0, _⟩ => show b.val = 0 + b.val * (0 + 1); omega
      | ⟨1, _⟩ => show t.val = k + (t.val - k) * (0 + 1); omega
      | ⟨2, _⟩ => show d.val = 0 + d.val * (0 + 1); omega)
  · rw [dif_neg h]
    exact pad_apply_of_not_inside _ _ _ y v hp hu _ (1 : Fin 3) (fun hin => h hin.1)

end Layout

/-- The delay by no steps is the sequence itself. -/
theorem delay_zero (x : SV.Idx → EReal) (b : Fin 4) (t : Fin 2048) (d : Fin 1024) : delay x 0 b t d = x (ix3 b t d) := by
  unfold delay
  rw [dif_pos (Nat.zero_le _)]
  rfl

/-- Padded in front with zeros and cut back, a sequence is its delay. -/
theorem shift_delay (k m : Nat) (y : SV.Idx → EReal) {u : Shape} (v : u.Idx → EReal) (hv : ∀ i, v i = 0)
    (hp : SV.Pads (![0, k, 0] : Fin 3 → Nat) ![0, 0, 0] ![0, 0, 0] ⟨3, ![4, m, 1024]⟩) (hu : 0 < u.numel)
    (hsl : (⟨3, ![4, m, 1024]⟩ : Shape).Slices ![0, 0, 0] SV) (b : Fin 4) (t : Fin 2048) (d : Fin 1024) :
    extractStridedSlice SV ![0, 0, 0] (pad ⟨3, ![4, m, 1024]⟩ ![0, k, 0] ![0, 0, 0] ![0, 0, 0] y v hp hu) hsl (ix3 b t d)
      = delay y k b t d := by
  rw [shift_apply, hv]
  rfl

/-- The pattern of 1.0 denotes one. -/
theorem ofBits_one : Ideal.ofBits .f32 0x3F800000#32 = 1 := by
  simp [Ideal.ofBits, Ideal.ieee, -EReal.coe_mul]; norm_num

/-- The integer word zero converts to zero. -/
theorem sitofp_zero : FloatOps.sitofp (F := Ideal) .f32 (0#32 : BitVec 32) = 0 := by
  show (((0#32 : BitVec 32).toInt : ℝ) : EReal) = 0
  simp

section Gather
open Cert.ReferenceIdeal
variable {α : Type} {w : Nat} [hF : Cert.ReferenceIdeal.Facts₀]

/-- The row gather read at (b, t, d): the table at the row the start index (b, t, 0) names, read signed and clamped
    into the table's rows, and at column d. -/
theorem gather_row_apply (x : SE.Idx → α) (idx : IVec ⟨3, ![4, 2048, 1]⟩ w) (b : Fin 4) (t : Fin 2048) (d : Fin 1024) :
    Host.gather gather_S32000x1024_S4x2048x1_S4x2048x1024_2_0_n_n_0_2_11024 x idx (ix3 b t d)
      = x (ix2 ⟨min (idx (ix3 b t 0)).toInt.toNat 31999, by omega⟩ d) := by
  unfold Host.gather
  congr 1
  funext a
  refine Fin.ext ?_
  match a with
  | ⟨0, _⟩ =>
    show GatherDims.start gather_S32000x1024_S4x2048x1_S4x2048x1024_2_0_n_n_0_2_11024 (ix3 b t d) idx 0
        + GatherDims.batchCoord gather_S32000x1024_S4x2048x1_S4x2048x1024_2_0_n_n_0_2_11024 (ix3 b t d) 0
        + GatherDims.offCoord gather_S32000x1024_S4x2048x1_S4x2048x1024_2_0_n_n_0_2_11024 (ix3 b t d) 0
      = min (idx (ix3 b t 0)).toInt.toNat 31999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32000x1024_S4x2048x1_S4x2048x1024_2_0_n_n_0_2_11024).startIndexMap from
      List.mem_singleton.mpr rfl)]
    have hsi : (gather_S32000x1024_S4x2048x1_S4x2048x1024_2_0_n_n_0_2_11024).siIdx (ix3 b t d)
        ⟨List.idxOf (0 : Fin 2) (gather_S32000x1024_S4x2048x1_S4x2048x1024_2_0_n_n_0_2_11024).startIndexMap,
          List.idxOf_lt_length_iff.2 (List.mem_singleton.mpr rfl)⟩ = ix3 b t 0 := by
      funext c; refine Fin.ext ?_
      match c with
      | ⟨0, _⟩ => rfl
      | ⟨1, _⟩ => rfl
      | ⟨2, _⟩ => rfl
    rw [hsi]
    rfl
  | ⟨1, _⟩ =>
    show GatherDims.start gather_S32000x1024_S4x2048x1_S4x2048x1024_2_0_n_n_0_2_11024 (ix3 b t d) idx 1
        + GatherDims.batchCoord gather_S32000x1024_S4x2048x1_S4x2048x1024_2_0_n_n_0_2_11024 (ix3 b t d) 1
        + GatherDims.offCoord gather_S32000x1024_S4x2048x1_S4x2048x1024_2_0_n_n_0_2_11024 (ix3 b t d) 1
      = d.val
    rw [GatherDims.batchCoord_eq_zero _ _ _ List.not_mem_nil]
    unfold GatherDims.start
    rw [dif_neg (show ¬(1 : Fin 2) ∈ (gather_S32000x1024_S4x2048x1_S4x2048x1024_2_0_n_n_0_2_11024).startIndexMap by
      show ¬(1 : Fin 2) ∈ [(0 : Fin 2)]; decide)]
    unfold GatherDims.offCoord
    rw [dif_pos (show (1 : Fin 2) ∈ (gather_S32000x1024_S4x2048x1_S4x2048x1024_2_0_n_n_0_2_11024).sKept from
      (GatherDims.mem_sKept _ _).2 ⟨by show ¬(1 : Fin 2) ∈ [(0 : Fin 2)]; decide, List.not_mem_nil⟩)]
    show 0 + 0 + d.val = d.val
    omega

end Gather

end Cert.RefLayout

end
-- ==== Proof.RefValue.lean ====
/-
  The reference program's result, index by index over the extended reals, is the specification's function of its
  four arguments. Under the range hypothesis every token word is a row of the table: read signed it is not negative,
  so the select that would add 32000 keeps it and the gather's clamp does nothing. Each roll along the features is
  a concatenation of two slices, each delay along time a pad in front and a slice; the products start from a
  broadcast one and the sum from a broadcast zero, which the extended reals absorb; the quotient by the literal 4.0
  is kept as the host's quotient; the contraction is the sum over the feature the matrix's second axis carries.
-/
import proofs.«427312_j87016037416990_3_alg».proof.Proof.Gen.ReferenceIdeal.Read
import proofs.«427312_j87016037416990_3_alg».proof.Proof.Spec
import proofs.«427312_j87016037416990_3_alg».proof.Proof.RefLayout

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.HdcSpec Cert.RefLayout
open scoped BigOperators

/-- A word below 32000 is not negative read signed. -/
theorem not_neg (w : BitVec 32) (hw : w.toNat < 32000) : IntOp.cmpi .slt w 0#32 = 0#1 := by
  have h1 : ¬IntOp.cmpi .slt w 0#32 = 1#1 := by
    rw [IntOp.cmpi_slt, BitVec.toInt_eq_toNat_of_lt (by omega), show (0#32 : BitVec 32).toInt = 0 from by decide]
    omega
  revert h1
  generalize IntOp.cmpi .slt w 0#32 = c
  revert c
  decide

variable (tok : S4x2048.Idx → BitVec 32) (tv : S32000x1024.Idx → EReal)

/-- The select "add 32000 to a negative id" keeps an id below 32000. -/
theorem v4_at (h : ∀ i, (tok i).toNat < 32000) (i : S4x2048.Idx) : val_main_v4 (F := Ideal) tok i = tok i := by
  rw [val_main_v4_apply, val_main_v1_apply, val_main_v0_apply, val_main_c_apply, not_neg _ (h i), select_zero]

/-- The start index of row (b, t) is the token id there. -/
theorem v5_at (h : ∀ i, (tok i).toNat < 32000) (b : Fin 4) (t : Fin 2048) :
    val_main_v5 (F := Ideal) tok (ix3 b t 0) = tok (ix2 b t) := by
  rw [val_main_v5_apply, v4_at tok h]
  congr 1
  funext a
  match a with
  | ⟨0, _⟩ => rfl
  | ⟨1, _⟩ => rfl

/-- The gathered array is the table's rows at the token ids. -/
theorem v6_eq (h : ∀ i, (tok i).toNat < 32000) : val_main_v6 (F := Ideal) tok tv = gathered tok tv h := by
  funext j
  obtain ⟨b, t, d, rfl⟩ : ∃ b t d, j = ix3 b t d := ⟨j 0, j 1, j 2, eq_ix3 j⟩
  unfold val_main_v6
  rw [gather_row_apply]
  show tv _ = tv (ix2 ⟨(tok (ix2 b t)).toNat, h _⟩ d)
  refine congrArg tv (congrArg (fun r => ix2 r d) (Fin.ext ?_))
  show min (val_main_v5 (F := Ideal) tok (ix3 b t 0)).toInt.toNat 31999 = (tok (ix2 b t)).toNat
  have hlt := h (ix2 b t)
  rw [v5_at tok h, BitVec.toInt_eq_toNat_of_lt (by omega), Int.toNat_natCast]
  exact Nat.min_eq_left (by omega)

/-- The roll by no places of stage 6 (a concatenation with an empty slice) is that stage. -/
theorem v9_at (b : Fin 4) (t : Fin 2048) (d : Fin 1024) :
    val_main_v9 (F := Ideal) tok tv (ix3 b t d) = val_main_v6 (F := Ideal) tok tv (ix3 b t d) := by
  unfold val_main_v9 val_main_call0_v0 val_main_call0_v1
  exact roll_apply 1024 0 rfl _ _ _ _ b t d d (by have := d.isLt; omega)

/-- The roll by no places of stage 14 (a concatenation with an empty slice) is that stage. -/
theorem v15_at (b : Fin 4) (t : Fin 2048) (d : Fin 1024) :
    val_main_v15 (F := Ideal) tok tv (ix3 b t d) = val_main_v14 (F := Ideal) tok tv (ix3 b t d) := by
  unfold val_main_v15 val_main_call2_v0 val_main_call2_v1
  exact roll_apply 1024 0 rfl _ _ _ _ b t d d (by have := d.isLt; omega)

/-- The roll by 1 of stage 6: feature d reads feature d - 1 modulo 1024. -/
theorem v17_at (b : Fin 4) (t : Fin 2048) (d : Fin 1024) :
    val_main_v17 (F := Ideal) tok tv (ix3 b t d) = val_main_v6 (F := Ideal) tok tv (ix3 b t (rolled 1 d)) := by
  unfold val_main_v17 val_main_call3_v0 val_main_call3_v1
  exact roll_apply 1 1023 rfl _ _ _ _ b t d (rolled 1 d) rfl

/-- The roll by no places of stage 22 (a concatenation with an empty slice) is that stage. -/
theorem v23_at (b : Fin 4) (t : Fin 2048) (d : Fin 1024) :
    val_main_v23 (F := Ideal) tok tv (ix3 b t d) = val_main_v22 (F := Ideal) tok tv (ix3 b t d) := by
  unfold val_main_v23 val_main_call5_v0 val_main_call5_v1
  exact roll_apply 1024 0 rfl _ _ _ _ b t d d (by have := d.isLt; omega)

/-- The roll by 1 of stage 26: feature d reads feature d - 1 modulo 1024. -/
theorem v27_at (b : Fin 4) (t : Fin 2048) (d : Fin 1024) :
    val_main_v27 (F := Ideal) tok tv (ix3 b t d) = val_main_v26 (F := Ideal) tok tv (ix3 b t (rolled 1 d)) := by
  unfold val_main_v27 val_main_call7_v0 val_main_call7_v1
  exact roll_apply 1 1023 rfl _ _ _ _ b t d (rolled 1 d) rfl

/-- The roll by 2 of stage 6: feature d reads feature d - 2 modulo 1024. -/
theorem v29_at (b : Fin 4) (t : Fin 2048) (d : Fin 1024) :
    val_main_v29 (F := Ideal) tok tv (ix3 b t d) = val_main_v6 (F := Ideal) tok tv (ix3 b t (rolled 2 d)) := by
  unfold val_main_v29 val_main_call8_v0 val_main_call8_v1
  exact roll_apply 2 1022 rfl _ _ _ _ b t d (rolled 2 d) rfl

/-- The roll by no places of stage 34 (a concatenation with an empty slice) is that stage. -/
theorem v35_at (b : Fin 4) (t : Fin 2048) (d : Fin 1024) :
    val_main_v35 (F := Ideal) tok tv (ix3 b t d) = val_main_v34 (F := Ideal) tok tv (ix3 b t d) := by
  unfold val_main_v35 val_main_call10_v0 val_main_call10_v1
  exact roll_apply 1024 0 rfl _ _ _ _ b t d d (by have := d.isLt; omega)

/-- The roll by 1 of stage 38: feature d reads feature d - 1 modulo 1024. -/
theorem v39_at (b : Fin 4) (t : Fin 2048) (d : Fin 1024) :
    val_main_v39 (F := Ideal) tok tv (ix3 b t d) = val_main_v38 (F := Ideal) tok tv (ix3 b t (rolled 1 d)) := by
  unfold val_main_v39 val_main_call12_v0 val_main_call12_v1
  exact roll_apply 1 1023 rfl _ _ _ _ b t d (rolled 1 d) rfl

/-- The roll by 2 of stage 42: feature d reads feature d - 2 modulo 1024. -/
theorem v43_at (b : Fin 4) (t : Fin 2048) (d : Fin 1024) :
    val_main_v43 (F := Ideal) tok tv (ix3 b t d) = val_main_v42 (F := Ideal) tok tv (ix3 b t (rolled 2 d)) := by
  unfold val_main_v43 val_main_call14_v0 val_main_call14_v1
  exact roll_apply 2 1022 rfl _ _ _ _ b t d (rolled 2 d) rfl

/-- The roll by 3 of stage 6: feature d reads feature d - 3 modulo 1024. -/
theorem v45_at (b : Fin 4) (t : Fin 2048) (d : Fin 1024) :
    val_main_v45 (F := Ideal) tok tv (ix3 b t d) = val_main_v6 (F := Ideal) tok tv (ix3 b t (rolled 3 d)) := by
  unfold val_main_v45 val_main_call15_v0 val_main_call15_v1
  exact roll_apply 3 1021 rfl _ _ _ _ b t d (rolled 3 d) rfl

/-- Stage 14: the gathered sequence delayed by 1 (1 zero rows padded in front, the first 2048 rows kept). -/
theorem v14_at (b : Fin 4) (t : Fin 2048) (d : Fin 1024) :
    val_main_v14 (F := Ideal) tok tv (ix3 b t d) = delay (val_main_v6 (F := Ideal) tok tv) 1 b t d := by
  unfold val_main_v14 val_main_v13
  exact shift_delay 1 2049 _ (val_main_call1_v0 (F := Ideal)) (fun _ => Cert.RefLayout.sitofp_zero) _ _ _ b t d

/-- Stage 22: the gathered sequence delayed by 2 (2 zero rows padded in front, the first 2048 rows kept). -/
theorem v22_at (b : Fin 4) (t : Fin 2048) (d : Fin 1024) :
    val_main_v22 (F := Ideal) tok tv (ix3 b t d) = delay (val_main_v6 (F := Ideal) tok tv) 2 b t d := by
  unfold val_main_v22 val_main_v21
  exact shift_delay 2 2050 _ (val_main_call4_v0 (F := Ideal)) (fun _ => Cert.RefLayout.sitofp_zero) _ _ _ b t d

/-- Stage 26: the gathered sequence delayed by 1 (1 zero rows padded in front, the first 2048 rows kept). -/
theorem v26_at (b : Fin 4) (t : Fin 2048) (d : Fin 1024) :
    val_main_v26 (F := Ideal) tok tv (ix3 b t d) = delay (val_main_v6 (F := Ideal) tok tv) 1 b t d := by
  unfold val_main_v26 val_main_v25
  exact shift_delay 1 2049 _ (val_main_call6_v0 (F := Ideal)) (fun _ => Cert.RefLayout.sitofp_zero) _ _ _ b t d

/-- Stage 34: the gathered sequence delayed by 3 (3 zero rows padded in front, the first 2048 rows kept). -/
theorem v34_at (b : Fin 4) (t : Fin 2048) (d : Fin 1024) :
    val_main_v34 (F := Ideal) tok tv (ix3 b t d) = delay (val_main_v6 (F := Ideal) tok tv) 3 b t d := by
  unfold val_main_v34 val_main_v33
  exact shift_delay 3 2051 _ (val_main_call9_v0 (F := Ideal)) (fun _ => Cert.RefLayout.sitofp_zero) _ _ _ b t d

/-- Stage 38: the gathered sequence delayed by 2 (2 zero rows padded in front, the first 2048 rows kept). -/
theorem v38_at (b : Fin 4) (t : Fin 2048) (d : Fin 1024) :
    val_main_v38 (F := Ideal) tok tv (ix3 b t d) = delay (val_main_v6 (F := Ideal) tok tv) 2 b t d := by
  unfold val_main_v38 val_main_v37
  exact shift_delay 2 2050 _ (val_main_call11_v0 (F := Ideal)) (fun _ => Cert.RefLayout.sitofp_zero) _ _ _ b t d

/-- Stage 42: the gathered sequence delayed by 1 (1 zero rows padded in front, the first 2048 rows kept). -/
theorem v42_at (b : Fin 4) (t : Fin 2048) (d : Fin 1024) :
    val_main_v42 (F := Ideal) tok tv (ix3 b t d) = delay (val_main_v6 (F := Ideal) tok tv) 1 b t d := by
  unfold val_main_v42 val_main_v41
  exact shift_delay 1 2049 _ (val_main_call13_v0 (F := Ideal)) (fun _ => Cert.RefLayout.sitofp_zero) _ _ _ b t d

/-- The sum of the four n-gram terms, before the quotient: the broadcast ones and the broadcast zero drop out. -/
theorem v47_at (b : Fin 4) (t : Fin 2048) (d : Fin 1024) :
    val_main_v47 (F := Ideal) tok tv (ix3 b t d) = bundleSum (val_main_v6 (F := Ideal) tok tv) b t d := by
  simp only [val_main_v47_apply, val_main_v31_apply, val_main_v19_apply, val_main_v11_apply, val_main_v10_apply,
    val_main_v18_apply, val_main_v16_apply, val_main_v30_apply, val_main_v28_apply, val_main_v24_apply,
    val_main_v46_apply, val_main_v44_apply, val_main_v40_apply, val_main_v36_apply,
    val_main_v7_apply, val_main_cst_apply, val_main_v8_apply, val_main_cst_1_apply, val_main_v12_apply,
    val_main_cst_2_apply, val_main_v20_apply, val_main_cst_4_apply, val_main_v32_apply, val_main_cst_7_apply,
    Ideal.addf_def, Ideal.mulf_def, Ideal.ofBits_def, ofBits_one, Ideal.ofBits_zero_f32, one_mul, zero_add,
    v9_at, v15_at, v17_at, v23_at, v27_at, v29_at, v35_at, v39_at, v43_at, v45_at,
    v14_at, v22_at, v26_at, v34_at, v38_at, v42_at]
  unfold bundleSum
  simp only [delay_zero]

/-- The bundle divided by the literal 4.0, at the gathered rows. -/
theorem v49_at (h : ∀ i, (tok i).toNat < 32000) (b : Fin 4) (t : Fin 2048) (d : Fin 1024) :
    val_main_v49 (F := Ideal) tok tv (ix3 b t d)
      = Ideal.div (bundleSum (gathered tok tv h) b t d) (Ideal.ofBits .f32 0x40800000#32) := by
  rw [val_main_v49_apply, v47_at, val_main_v48_apply, val_main_cst_11_apply, v6_eq tok tv h]
  rfl

/-- THE REFERENCE IS THE SPECIFICATION: the last stage, at token ids that address rows of the table. -/
theorem ref_eq (tok : S4x2048.Idx → BitVec 32) (tv : S32000x1024.Idx → EReal) (w : S1024x1024.Idx → EReal)
    (bias : S1024.Idx → EReal) (h : ∀ i, (tok i).toNat < 32000) :
    val_main_v53 (F := Ideal) tok tv w bias
      = fun j => outR (gathered tok tv h) w bias (Ideal.ofBits .f32 0x40800000#32) (j 0) (j 1) (j 2) := by
  funext j
  obtain ⟨b, t, e, rfl⟩ : ∃ b t e, j = ix3 b t e := ⟨j 0, j 1, j 2, eq_ix3 j⟩
  rw [val_main_v53_apply, val_main_v50_apply, val_main_v52_apply, val_main_v51_apply]
  show (∑ k : Fin 1024, val_main_v49 (F := Ideal) tok tv (lidx_main_v50 (ix3 b t e) k) * w (ridx_main_v50 (ix3 b t e) k))
      + bias (idx_main_v51 (idx_main_v52 (ix3 b t e)))
    = (∑ d : Fin 1024, Ideal.div (bundleSum (gathered tok tv h) b t d) (Ideal.ofBits .f32 0x40800000#32) * w (ix2 e d))
      + bias (ix1 e)
  congr 1
  · refine Finset.sum_congr rfl fun k _ => ?_
    have el : lidx_main_v50 (ix3 b t e) k = ix3 b t k := by
      funext a
      match a with
      | ⟨0, _⟩ => rfl
      | ⟨1, _⟩ => rfl
      | ⟨2, _⟩ => rfl
    have er : ridx_main_v50 (ix3 b t e) k = ix2 e k := by
      funext a
      match a with
      | ⟨0, _⟩ => rfl
      | ⟨1, _⟩ => rfl
    rw [el, er, v49_at tok tv h]
  · congr 1
    funext a
    match a with
    | ⟨0, _⟩ => rfl

/-- The run's result term is the specification's function of the four argument buffers. -/
theorem res_eq (m : (ℓ : Loc nD τ sig) → Buf (Elt Ideal) ℓ) (c : Dev nD)
    (h : ∀ i, ((m ((c.tc : Thread nD τ).loc main_arg0) : S4x2048.Idx → BitVec 32) i).toNat < 32000) :
    (Cert.ReferenceIdeal.Value.res_main_v53 m c : S4x2048x1024.Idx → EReal)
      = fun j => outR (gathered (m ((c.tc : Thread nD τ).loc main_arg0)) (m ((c.tc : Thread nD τ).loc main_arg1)) h)
          (m ((c.tc : Thread nD τ).loc main_arg2)) (m ((c.tc : Thread nD τ).loc main_arg3))
          (Ideal.ofBits .f32 0x40800000#32) (j 0) (j 1) (j 2) := by
  rw [val_main_v53_eq]
  exact ref_eq _ _ _ _ h

end Cert.ReferenceIdeal.RefValue

end
-- ==== Proof.PreRange.lean ====
/-
  The precondition's last conjunct is jnp.all((tokens >= 0) & (tokens < 32000)): two signed comparisons of
  every token word against broadcast constants, joined by and, reduced by and over both axes, and joined to
  the three finiteness conjuncts. Read back at an index: every token word, as a natural number, is below 32000.
-/
import proofs.«427312_j87016037416990_3_alg».proof.Pre_finite_inputs
import proofs.«427312_j87016037416990_3_alg».proof.Proof.Gen.Pre_finite_inputs
import Idealize.ShloMosaic.Lib.ReduceAll
import Idealize.ShloMosaic.Lib.ValueIdx

set_option maxRecDepth 16384

noncomputable section

namespace Cert.PreRange

open Idealize.ShloMosaic

/-- The rank-0 shape has one index. -/
instance : Subsingleton Cert.Pre_finite_inputs.S_.Idx := ⟨fun a b => funext fun d => d.elim0⟩

/-- A word that is at least 0 and below 32000 read signed is below 32000 read unsigned:
    non-negative signed means the top bit is clear, and then both readings agree. -/
theorem toNat_lt_of_signed (w : BitVec 32) (h0 : IntOp.cmpi .sge w 0#32 = 1#1)
    (h1 : IntOp.cmpi .slt w 32000#32 = 1#1) : w.toNat < 32000 := by
  rw [IntOp.cmpi_sge, show (0#32 : BitVec 32).toInt = 0 from by decide] at h0
  rw [IntOp.cmpi_slt, show (32000#32 : BitVec 32).toInt = 32000 from by decide] at h1
  have hm : 2 * w.toNat < 2 ^ 32 := BitVec.toInt_pos_iff.1 h0
  rw [BitVec.toInt_eq_toNat_of_lt hm] at h1
  omega

variable {F : FTy → Type} [FloatOps F]

/-- Under the precondition every token word is a row number of the 32000-row table. -/
theorem tok_lt [hP : Cert.Pre_finite_inputs.Facts] (a0 : IVec Cert.Pre_finite_inputs.S4x2048 32)
    (a1 : FVec F Cert.Pre_finite_inputs.S32000x1024 .f32) (a2 : FVec F Cert.Pre_finite_inputs.S1024x1024 .f32)
    (a3 : FVec F Cert.Pre_finite_inputs.S1024 .f32)
    (h : Cert.Pre_finite_inputs.fn (F := F) a0 a1 a2 a3 = fun _ => 1#1) : ∀ i, (a0 i).toNat < 32000 := by
  intro i
  have e := congrFun h ValueIdx.ix0
  dsimp only [Cert.Pre_finite_inputs.fn, Cert.Pre_finite_inputs.fn_part1] at e
  have e1 := (IntOp.andi_eq_one.1 e).2
  have e2 := Host.reduce_andi_all _ _ _ _ _ e1 i
  have e3 := IntOp.andi_eq_one.1 e2
  exact toNat_lt_of_signed (a0 i) e3.1 e3.2

end Cert.PreRange

end
-- ==== Proof.lean ====
/-
  The kernel gathers one embedding-table row per token id by a direct copy, regroups the rows by batch and time, and
  in a second pass bundles the token vectors into n-grams of orders one to four (delays along time, rolls along the
  feature axis), scales the bundle by a quarter and projects it with the transposed weight matrix, adding the bias;
  the reference computes the same bundle from a gather, divides it by four and contracts it with the weight matrix's
  rows. Over the extended reals the two are one function of the four arguments, provided every token id names a row
  of the table — the precondition's range conjunct, which is also what lets each row copy start.

  The three frames: the two kernel programs by the run of their two regions between the host operations (the same
  text at the word-level instance and at the exact one), the reference by its run. The kernel's idealization rewrote
  nothing, so what it preserves is trivial. The algebraic claim: the kernel program's run with its result array read
  back through both regions and the host operations, against the reference's run read stage by stage, at the one
  specification both are.
-/
import proofs.«427312_j87016037416990_3_alg».proof.Defs
import proofs.«427312_j87016037416990_3_alg».proof.Proof.Gen.Kernel
import proofs.«427312_j87016037416990_3_alg».proof.Proof.Gen.Kernel.Skeleton
import proofs.«427312_j87016037416990_3_alg».proof.Proof.Gen.Kernel.Launch
import proofs.«427312_j87016037416990_3_alg».proof.Proof.Gen.Kernel.Regions
import proofs.«427312_j87016037416990_3_alg».proof.Proof.Gen.Kernel.Points
import proofs.«427312_j87016037416990_3_alg».proof.Proof.Gen.KernelIdeal
import proofs.«427312_j87016037416990_3_alg».proof.Proof.Gen.KernelIdeal.Skeleton
import proofs.«427312_j87016037416990_3_alg».proof.Proof.Gen.KernelIdeal.Launch
import proofs.«427312_j87016037416990_3_alg».proof.Proof.Gen.KernelIdeal.Regions
import proofs.«427312_j87016037416990_3_alg».proof.Proof.Gen.KernelIdeal.Points
import proofs.«427312_j87016037416990_3_alg».proof.Proof.Gen.ReferenceIdeal
import proofs.«427312_j87016037416990_3_alg».proof.Proof.Gen.Pre_finite_inputs
import proofs.«427312_j87016037416990_3_alg».proof.Proof.K.Run
import proofs.«427312_j87016037416990_3_alg».proof.Proof.KI.KValue
import proofs.«427312_j87016037416990_3_alg».proof.Proof.KI.BundleValue
import proofs.«427312_j87016037416990_3_alg».proof.Proof.KI.GatherValue
import proofs.«427312_j87016037416990_3_alg».proof.Proof.RefValue
import proofs.«427312_j87016037416990_3_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- Under the precondition every token id names a row of the embedding table (idealized kernel's memory). -/
theorem range_KI (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ((m ((c.tc : Thread Cert.KernelIdeal.nD Cert.KernelIdeal.τ).loc Cert.KernelIdeal.main_arg0)
      : Cert.KernelIdeal.S4x2048.Idx → BitVec 32) i).toNat < 32000 :=
  Cert.PreRange.tok_lt _ _ _ _ (h c)

/-- The same of the word-level kernel's memory. -/
theorem range_K (m : (ℓ : Loc Cert.Kernel.nD Cert.Kernel.τ Cert.Kernel.sig) → Buf (Elt Bits) ℓ)
    (h : Cert.Pre_Kernel m) (c : Dev Cert.Kernel.nD) :
    ∀ i, ((m ((c.tc : Thread Cert.Kernel.nD Cert.Kernel.τ).loc Cert.Kernel.main_arg0)
      : Cert.Kernel.S4x2048.Idx → BitVec 32) i).toNat < 32000 :=
  Cert.PreRange.tok_lt _ _ _ _ (h c)

theorem frame_K : Cert.frame_Kernel := fun m ρ hpre =>
  Cert.Kernel.Run.frame m ρ (Cert.Kernel.Run.tokOk_of_range m ρ (range_K m hpre 0))

theorem frame_KI : Cert.frame_KernelIdeal := fun m ρ hpre =>
  Cert.KernelIdeal.Run.frame m ρ (Cert.KernelIdeal.Run.tokOk_of_range m ρ (range_KI m hpre 0))

theorem frame_RI : Cert.frame_ReferenceIdeal := fun m ρ _ =>
  (θ_run Cert.ReferenceIdeal.defs _ _).mono (fun _ h c => (h c).2) (Cert.ReferenceIdeal.Value.run (F := Ideal) m ρ)

/-- The specification at equal arguments is one value: the range proof it carries does not matter. -/
theorem spec_congr {tok tok' : Cert.HdcSpec.ST.Idx → BitVec 32} {tv tv' : Cert.HdcSpec.SE.Idx → EReal}
    {w w' : Cert.HdcSpec.SW.Idx → EReal} {bias bias' : Cert.HdcSpec.SB.Idx → EReal}
    (e0 : tok' = tok) (e1 : tv' = tv) (e2 : w' = w) (e3 : bias' = bias)
    (h : ∀ i, (tok i).toNat < 32000) (h' : ∀ i, (tok' i).toNat < 32000) (c4 : EReal) :
    (fun j : Cert.HdcSpec.SV.Idx => Cert.HdcSpec.outR (Cert.HdcSpec.gathered tok' tv' h') w' bias' c4 (j 0) (j 1) (j 2))
      = fun j => Cert.HdcSpec.outR (Cert.HdcSpec.gathered tok tv h) w bias c4 (j 0) (j 1) (j 2) := by
  subst e0 e1 e2 e3; rfl

/-- What the gather region leaves in its output array, read at the host's boundary: row r is the embedding-table row
    that word r of the token table names (the first host stretch does not write the embedding table). -/
theorem gathered_rows (m : (ℓ : Loc Cert.KernelIdeal.nD Cert.KernelIdeal.τ Cert.KernelIdeal.sig) → Buf (Elt Ideal) ℓ)
    (ρ : Dev Cert.KernelIdeal.nD → PrngReg) (hT : Cert.KernelIdeal.Gather.TokOk ((Cert.KernelIdeal.Run.adm0 (F := Ideal) m ρ).1 0))
    (c : Dev Cert.KernelIdeal.nD) (r : Fin 8192) (d : Fin 1024) :
    (Cert.KernelIdeal.Run.V2 m ρ hT c Cert.KernelIdeal.main_v1 : Cert.KernelIdeal.S8192x1024.Idx → EReal) (ix2 r d)
      = Cert.KernelIdeal.KValue.tvA m c (ix2 ⟨(((Cert.KernelIdeal.Run.adm0 (F := Ideal) m ρ).1 0 : Cert.KernelIdeal.S8192.Idx → BitVec 32) (ix1 r)).toNat, hT _⟩ d) := by
  have htv : (Cert.KernelIdeal.Run.V1 m ρ c Cert.KernelIdeal.main_arg1 : Cert.KernelIdeal.S32000x1024.Idx → EReal) = Cert.KernelIdeal.KValue.tvA m c :=
    StableHlo.after_of_writes_sub Cert.KernelIdeal.Gen.hostOps0 _ Cert.KernelIdeal.Gen.hostOps0_writes (by decide)
  have h0 := (Cert.KernelIdeal.Run.W2_arr m ρ hT c 0).trans
    (Cert.KernelIdeal.GatherValue.final0 (Cert.KernelIdeal.Run.V1 m ρ) (Cert.KernelIdeal.Run.adm0 m ρ) hT c)
  exact (congrFun h0 (ix2 r d)).trans (congrFun htv _)

theorem algebraic : Cert.algebraic_KernelIdeal_ReferenceIdeal := by
  intro m ρ m' ρ' hpre hagree
  have hr := range_KI m hpre
  have hT := Cert.KernelIdeal.Run.tokOk_of_range m ρ (hr 0)
  refine ⟨fun c => (fun j => Cert.HdcSpec.outR (Cert.HdcSpec.gathered (Cert.KernelIdeal.KValue.tokA m c) (Cert.KernelIdeal.KValue.tvA m c) (hr c))
      (Cert.KernelIdeal.KValue.wA m c) (Cert.KernelIdeal.KValue.bA m c) (Ideal.ofBits .f32 0x40800000#32) (j 0) (j 1) (j 2)), ?_, ?_⟩
  · refine (θ_run Cert.KernelIdeal.defs _ _).mono (fun r h c => ⟨?_, ?_, ?_, ?_, ?_⟩) (Cert.KernelIdeal.Run.run m ρ hT)
    · exact (h c _ (Cert.KernelIdeal.Run.mem_uc Cert.KernelIdeal.main_v6 (by decide))).trans
        (Cert.KernelIdeal.KValue.kernel_value m ρ hT c (hr c) (gathered_rows m ρ hT c)
          ((Cert.KernelIdeal.Run.W4_v6 m ρ hT c).trans (Cert.KernelIdeal.BundleValue.final1 (Cert.KernelIdeal.Run.V3 m ρ hT) c)))
    · exact (h c _ (Cert.KernelIdeal.Run.mem_uc Cert.KernelIdeal.main_arg0 (by decide))).trans (Cert.KernelIdeal.Run.W4_arg m ρ hT c Cert.KernelIdeal.main_arg0 (by decide) (by decide) (by decide) (by decide))
    · exact (h c _ (Cert.KernelIdeal.Run.mem_uc Cert.KernelIdeal.main_arg1 (by decide))).trans (Cert.KernelIdeal.Run.W4_arg m ρ hT c Cert.KernelIdeal.main_arg1 (by decide) (by decide) (by decide) (by decide))
    · exact (h c _ (Cert.KernelIdeal.Run.mem_uc Cert.KernelIdeal.main_arg2 (by decide))).trans (Cert.KernelIdeal.Run.W4_arg m ρ hT c Cert.KernelIdeal.main_arg2 (by decide) (by decide) (by decide) (by decide))
    · exact (h c _ (Cert.KernelIdeal.Run.mem_uc Cert.KernelIdeal.main_arg3 (by decide))).trans (Cert.KernelIdeal.Run.W4_arg m ρ hT c Cert.KernelIdeal.main_arg3 (by decide) (by decide) (by decide) (by decide))
  · refine (θ_run Cert.ReferenceIdeal.defs _ _).mono (fun _ h c => ⟨?_, (h c).2⟩) (Cert.ReferenceIdeal.Value.run (F := Ideal) m' ρ')
    obtain ⟨e0, e1, e2, e3⟩ := hagree c
    have hr' : ∀ i, ((m' ((c.tc : Thread Cert.ReferenceIdeal.nD Cert.ReferenceIdeal.τ).loc Cert.ReferenceIdeal.main_arg0)
        : Cert.ReferenceIdeal.S4x2048.Idx → BitVec 32) i).toNat < 32000 := by rw [e0]; exact hr c
    rw [(h c).1, Cert.ReferenceIdeal.RefValue.res_eq m' c hr']
    exact spec_congr e0 e1 e2 e3 (hr c) hr' _

theorem claim : Cert.Claim := ⟨Cert.Kernel.Gen.facts, Cert.KernelIdeal.Gen.facts, Cert.ReferenceIdeal.Gen.facts, Cert.Pre_finite_inputs.Gen.facts,
  frame_K, frame_KI, frame_RI, trivial, algebraic⟩

end Cert.Proof

end
